-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x64 : Shape := ⟨4, ![2, 16, 4096, 64]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel

variable [Facts]

def fn {F : FTy → Type} [FloatOps F] (main_arg0 : FVec F S2x16x4096x64 .f32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  main_v3
-- ==== Kernel.lean ====
abbrev S2x16x4096x64 : Shape := ⟨4, ![2, 16, 4096, 64]⟩
abbrev S2x4096x16x64 : Shape := ⟨4, ![2, 4096, 16, 64]⟩
abbrev S32x4096x64 : Shape := ⟨3, ![32, 4096, 64]⟩
abbrev S_ : Shape := ⟨0, ![]⟩
abbrev S32x4608x64 : Shape := ⟨3, ![32, 4608, 64]⟩
abbrev S2x4096x16x513 : Shape := ⟨4, ![2, 4096, 16, 513]⟩
abbrev S16x256x64 : Shape := ⟨3, ![16, 256, 64]⟩
abbrev S16x4608x64 : Shape := ⟨3, ![16, 4608, 64]⟩
abbrev S1x256x16x513 : Shape := ⟨4, ![1, 256, 16, 513]⟩
abbrev S16x256x513 : Shape := ⟨3, ![16, 256, 513]⟩
abbrev S256x513 : Shape := ⟨2, ![256, 513]⟩
abbrev S256x768 : Shape := ⟨2, ![256, 768]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩
abbrev S256 : Shape := ⟨1, ![256]⟩
abbrev S256x1 : Shape := ⟨2, ![256, 1]⟩
abbrev S1x256x513 : Shape := ⟨3, ![1, 256, 513]⟩
abbrev S256x16x513 : Shape := ⟨3, ![256, 16, 513]⟩

abbrev nBuf : Space → Nat
  | .hbm => 7
  | .vmem => 6
  | .smem => 0
  | _ => 0

abbrev bufTy : (tb : Table) → Fin (tcTables nBuf tb) → BufTy
  | .hbm, ⟨0, _⟩ => ⟨S2x16x4096x64, .f32⟩
  | .hbm, ⟨1, _⟩ => ⟨S2x4096x16x64, .f32⟩
  | .hbm, ⟨2, _⟩ => ⟨S32x4096x64, .f32⟩
  | .hbm, ⟨3, _⟩ => ⟨S_, .i32⟩
  | .hbm, ⟨4, _⟩ => ⟨S_, .f32⟩
  | .hbm, ⟨5, _⟩ => ⟨S32x4608x64, .f32⟩
  | .hbm, ⟨6, _⟩ => ⟨S2x4096x16x513, .f32⟩
  | .local _ .vmem, ⟨0, _⟩ => ⟨S16x256x64, .f32⟩
  | .local _ .vmem, ⟨1, _⟩ => ⟨S16x256x64, .f32⟩
  | .local _ .vmem, ⟨2, _⟩ => ⟨S16x4608x64, .f32⟩
  | .local _ .vmem, ⟨3, _⟩ => ⟨S1x256x16x513, .f32⟩
  | .local _ .vmem, ⟨4, _⟩ => ⟨S1x256x16x513, .f32⟩
  | .local _ .vmem, ⟨5, _⟩ => ⟨S16x256x513, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_i32_2 : BitVec 32 := 0#32
  let v19 : Index := Scalar.indexCast c0_i32_2
  let arg1 : BitVec 32 := BitVec.ofNat 32 (i 1).val
  let c256_i32 : BitVec 32 := 256#32
  let v0 : BitVec 32 := Scalar.muli arg1 c256_i32
  let v1 : BitVec 32 := v0
  let v20 : Index := Scalar.indexCast v1
  let c0_4 : Index := 0#32
  ![0, v20.toNat, 0]
def k0_off2 (i : grid0.Coords) : Fin 3 → Nat :=
  let c1_i32_27 : BitVec 32 := 1#32
  let v107 : Index := Scalar.indexCast c1_i32_27
  let arg1 : BitVec 32 := BitVec.ofNat 32 (i 1).val
  let c256_i32 : BitVec 32 := 256#32
  let v0 : BitVec 32 := Scalar.muli arg1 c256_i32
  let v1 : BitVec 32 := v0
  let v108 : Index := Scalar.indexCast v1
  let c0_30 : Index := 0#32
  ![1, v108.toNat, 0]
def k0_off3 (i : grid0.Coords) : Fin 3 → Nat :=
  let c2_i32_69 : BitVec 32 := 2#32
  let v195 : Index := Scalar.indexCast c2_i32_69
  let arg1 : BitVec 32 := BitVec.ofNat 32 (i 1).val
  let c256_i32 : BitVec 32 := 256#32
  let v0 : BitVec 32 := Scalar.muli arg1 c256_i32
  let v1 : BitVec 32 := v0
  let v196 : Index := Scalar.indexCast v1
  let c0_72 : Index := 0#32
  ![2, v196.toNat, 0]
def k0_off4 (i : grid0.Coords) : Fin 3 → Nat :=
  let c3_i32_111 : BitVec 32 := 3#32
  let v283 : Index := Scalar.indexCast c3_i32_111
  let arg1 : BitVec 32 := BitVec.ofNat 32 (i 1).val
  let c256_i32 : BitVec 32 := 256#32
  let v0 : BitVec 32 := Scalar.muli arg1 c256_i32
  let v1 : BitVec 32 := v0
  let v284 : Index := Scalar.indexCast v1
  let c0_114 : Index := 0#32
  ![3, v284.toNat, 0]
def k0_off5 (i : grid0.Coords) : Fin 3 → Nat :=
  let c4_i32_153 : BitVec 32 := 4#32
  let v371 : Index := Scalar.indexCast c4_i32_153
  let arg1 : BitVec 32 := BitVec.ofNat 32 (i 1).val
  let c256_i32 : BitVec 32 := 256#32
  let v0 : BitVec 32 := Scalar.muli arg1 c256_i32
  let v1 : BitVec 32 := v0
  let v372 : Index := Scalar.indexCast v1
  let c0_156 : Index := 0#32
  ![4, v372.toNat, 0]
def k0_off6 (i : grid0.Coords) : Fin 3 → Nat :=
  let c5_i32_195 : BitVec 32 := 5#32
  let v459 : Index := Scalar.indexCast c5_i32_195
  let arg1 : BitVec 32 := BitVec.ofNat 32 (i 1).val
  let c256_i32 : BitVec 32 := 256#32
  let v0 : BitVec 32 := Scalar.muli arg1 c256_i32
  let v1 : BitVec 32 := v0
  let v460 : Index := Scalar.indexCast v1
  let c0_198 : Index := 0#32
  ![5, v460.toNat, 0]
def k0_off7 (i : grid0.Coords) : Fin 3 → Nat :=
  let c6_i32_237 : BitVec 32 := 6#32
  let v547 : Index := Scalar.indexCast c6_i32_237
  let arg1 : BitVec 32 := BitVec.ofNat 32 (i 1).val
  let c256_i32 : BitVec 32 := 256#32
  let v0 : BitVec 32 := Scalar.muli arg1 c256_i32
  let v1 : BitVec 32 := v0
  let v548 : Index := Scalar.indexCast v1
  let c0_240 : Index := 0#32
  ![6, v548.toNat, 0]
def k0_off8 (i : grid0.Coords) : Fin 3 → Nat :=
  let c7_i32_279 : BitVec 32 := 7#32
  let v635 : Index := Scalar.indexCast c7_i32_279
  let arg1 : BitVec 32 := BitVec.ofNat 32 (i 1).val
  let c256_i32 : BitVec 32 := 256#32
  let v0 : BitVec 32 := Scalar.muli arg1 c256_i32
  let v1 : BitVec 32 := v0
  let v636 : Index := Scalar.indexCast v1
  let c0_282 : Index := 0#32
  ![7, v636.toNat, 0]
def k0_off9 (i : grid0.Coords) : Fin 3 → Nat :=
  let c8_i32 : BitVec 32 := 8#32
  let v723 : Index := Scalar.indexCast c8_i32
  let arg1 : BitVec 32 := BitVec.ofNat 32 (i 1).val
  let c256_i32 : BitVec 32 := 256#32
  let v0 : BitVec 32 := Scalar.muli arg1 c256_i32
  let v1 : BitVec 32 := v0
  let v724 : Index := Scalar.indexCast v1
  let c0_323 : Index := 0#32
  ![8, v724.toNat, 0]
def k0_off10 (i : grid0.Coords) : Fin 3 → Nat :=
  let c9_i32 : BitVec 32 := 9#32
  let v811 : Index := Scalar.indexCast c9_i32
  let arg1 : BitVec 32 := BitVec.ofNat 32 (i 1).val
  let c256_i32 : BitVec 32 := 256#32
  let v0 : BitVec 32 := Scalar.muli arg1 c256_i32
  let v1 : BitVec 32 := v0
  let v812 : Index := Scalar.indexCast v1
  let c0_364 : Index := 0#32
  ![9, v812.toNat, 0]
def k0_off11 (i : grid0.Coords) : Fin 3 → Nat :=
  let c10_i32 : BitVec 32 := 10#32
  let v899 : Index := Scalar.indexCast c10_i32
  let arg1 : BitVec 32 := BitVec.ofNat 32 (i 1).val
  let c256_i32 : BitVec 32 := 256#32
  let v0 : BitVec 32 := Scalar.muli arg1 c256_i32
  let v1 : BitVec 32 := v0
  let v900 : Index := Scalar.indexCast v1
  let c0_405 : Index := 0#32
  ![10, v900.toNat, 0]
def k0_off12 (i : grid0.Coords) : Fin 3 → Nat :=
  let c11_i32 : BitVec 32 := 11#32
  let v987 : Index := Scalar.indexCast c11_i32
  let arg1 : BitVec 32 := BitVec.ofNat 32 (i 1).val
  let c256_i32 : BitVec 32 := 256#32
  let v0 : BitVec 32 := Scalar.muli arg1 c256_i32
  let v1 : BitVec 32 := v0
  let v988 : Index := Scalar.indexCast v1
  let c0_446 : Index := 0#32
  ![11, v988.toNat, 0]
def k0_off13 (i : grid0.Coords) : Fin 3 → Nat :=
  let c12_i32 : BitVec 32 := 12#32
  let v1075 : Index := Scalar.indexCast c12_i32
  let arg1 : BitVec 32 := BitVec.ofNat 32 (i 1).val
  let c256_i32 : BitVec 32 := 256#32
  let v0 : BitVec 32 := Scalar.muli arg1 c256_i32
  let v1 : BitVec 32 := v0
  let v1076 : Index := Scalar.indexCast v1
  let c0_487 : Index := 0#32
  ![12, v1076.toNat, 0]
def k0_off14 (i : grid0.Coords) : Fin 3 → Nat :=
  let c13_i32 : BitVec 32 := 13#32
  let v1163 : Index := Scalar.indexCast c13_i32
  let arg1 : BitVec 32 := BitVec.ofNat 32 (i 1).val
  let c256_i32 : BitVec 32 := 256#32
  let v0 : BitVec 32 := Scalar.muli arg1 c256_i32
  let v1 : BitVec 32 := v0
  let v1164 : Index := Scalar.indexCast v1
  let c0_528 : Index := 0#32
  ![13, v1164.toNat, 0]
def k0_off15 (i : grid0.Coords) : Fin 3 → Nat :=
  let c14_i32 : BitVec 32 := 14#32
  let v1251 : Index := Scalar.indexCast c14_i32
  let arg1 : BitVec 32 := BitVec.ofNat 32 (i 1).val
  let c256_i32 : BitVec 32 := 256#32
  let v0 : BitVec 32 := Scalar.muli arg1 c256_i32
  let v1 : BitVec 32 := v0
  let v1252 : Index := Scalar.indexCast v1
  let c0_569 : Index := 0#32
  ![14, v1252.toNat, 0]
def k0_off16 (i : grid0.Coords) : Fin 3 → Nat :=
  let c15_i32 : BitVec 32 := 15#32
  let v1339 : Index := Scalar.indexCast c15_i32
  let arg1 : BitVec 32 := BitVec.ofNat 32 (i 1).val
  let c256_i32 : BitVec 32 := 256#32
  let v0 : BitVec 32 := Scalar.muli arg1 c256_i32
  let v1 : BitVec 32 := v0
  let v1340 : Index := Scalar.indexCast v1
  let c0_610 : Index := 0#32
  ![15, v1340.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4608x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x16x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x16x4096x64_S2x4096x16x64_0_2_1_3 : S2x16x4096x64.Transposes [0, 2, 1, 3] S2x4096x16x64
  shapeCasts_S2x4096x16x64_S32x4096x64 : S2x4096x16x64.ShapeCasts S32x4096x64
  pads_S32x4096x64_S32x4608x64_000_2562560_000 : S32x4096x64.Pads (![0, 256, 0] : Fin 3 → Nat) ![0, 256, 0] ![0, 0, 0] S32x4608x64
  h_S_ : 0 < S_.numel
  iota_S256x513_d0_w32 : S256x513.Iotas .tc 32 [0]
  iota_S256x513_d1_w32 : S256x513.Iotas .tc 32 [1]
  iota_S256x768_d0_w32 : S256x768.Iotas .tc 32 [0]
  inb_S16x256x64_S1x256x64_0_0_0 : ∀ a, (![0, 0, 0] : Fin 3 → Nat) a + S1x256x64.size a ≤ S16x256x64.size a
  h_S1x256x64 : 0 < S1x256x64.numel
  shapeCasts_S1x256x64_S256x64 : S1x256x64.ShapeCasts S256x64
  h_S1x768x64 : 0 < S1x768x64.numel
  shapeCasts_S1x768x64_S768x64 : S1x768x64.ShapeCasts S768x64
  rotates_S256x768_d1 : S256x768.Rotates 1 none
  slices_S256x768_o0_0_S256x513 : S256x768.Slices ![0, 0] S256x513
  reduces_S256x513_S256 : S256x513.Reduces [1] S256
  shapeCasts_S256_S256x1 : S256.ShapeCasts S256x1
  broadcasts_S256x1_S256x513 : S256x1.Broadcasts S256x513
  inb_S16x256x513_S1x256x513_0_0_0 : ∀ a, (![0, 0, 0] : Fin 3 → Nat) a + S1x256x513.size a ≤ S16x256x513.size a
  h_S1x256x513 : 0 < S1x256x513.numel
  shapeCasts_S1x256x513_S256x513 : S1x256x513.ShapeCasts S256x513
  shapeCasts_S256x513_S1x256x513 : S256x513.ShapeCasts S1x256x513
  inb_S16x256x64_S1x256x64_1_0_0 : ∀ a, (![1, 0, 0] : Fin 3 → Nat) a + S1x256x64.size a ≤ S16x256x64.size a
  inb_S16x256x513_S1x256x513_1_0_0 : ∀ a, (![1, 0, 0] : Fin 3 → Nat) a + S1x256x513.size a ≤ S16x256x513.size a
  inb_S16x256x64_S1x256x64_2_0_0 : ∀ a, (![2, 0, 0] : Fin 3 → Nat) a + S1x256x64.size a ≤ S16x256x64.size a
  inb_S16x256x513_S1x256x513_2_0_0 : ∀ a, (![2, 0, 0] : Fin 3 → Nat) a + S1x256x513.size a ≤ S16x256x513.size a
  inb_S16x256x64_S1x256x64_3_0_0 : ∀ a, (![3, 0, 0] : Fin 3 → Nat) a + S1x256x64.size a ≤ S16x256x64.size a
  inb_S16x256x513_S1x256x513_3_0_0 : ∀ a, (![3, 0, 0] : Fin 3 → Nat) a + S1x256x513.size a ≤ S16x256x513.size a
  inb_S16x256x64_S1x256x64_4_0_0 : ∀ a, (![4, 0, 0] : Fin 3 → Nat) a + S1x256x64.size a ≤ S16x256x64.size a
  inb_S16x256x513_S1x256x513_4_0_0 : ∀ a, (![4, 0, 0] : Fin 3 → Nat) a + S1x256x513.size a ≤ S16x256x513.size a
  inb_S16x256x64_S1x256x64_5_0_0 : ∀ a, (![5, 0, 0] : Fin 3 → Nat) a + S1x256x64.size a ≤ S16x256x64.size a
  inb_S16x256x513_S1x256x513_5_0_0 : ∀ a, (![5, 0, 0] : Fin 3 → Nat) a + S1x256x513.size a ≤ S16x256x513.size a
  inb_S16x256x64_S1x256x64_6_0_0 : ∀ a, (![6, 0, 0] : Fin 3 → Nat) a + S1x256x64.size a ≤ S16x256x64.size a
  inb_S16x256x513_S1x256x513_6_0_0 : ∀ a, (![6, 0, 0] : Fin 3 → Nat) a + S1x256x513.size a ≤ S16x256x513.size a
  inb_S16x256x64_S1x256x64_7_0_0 : ∀ a, (![7, 0, 0] : Fin 3 → Nat) a + S1x256x64.size a ≤ S16x256x64.size a
  inb_S16x256x513_S1x256x513_7_0_0 : ∀ a, (![7, 0, 0] : Fin 3 → Nat) a + S1x256x513.size a ≤ S16x256x513.size a
  inb_S16x256x64_S1x256x64_8_0_0 : ∀ a, (![8, 0, 0] : Fin 3 → Nat) a + S1x256x64.size a ≤ S16x256x64.size a
  inb_S16x256x513_S1x256x513_8_0_0 : ∀ a, (![8, 0, 0] : Fin 3 → Nat) a + S1x256x513.size a ≤ S16x256x513.size a
  inb_S16x256x64_S1x256x64_9_0_0 : ∀ a, (![9, 0, 0] : Fin 3 → Nat) a + S1x256x64.size a ≤ S16x256x64.size a
  inb_S16x256x513_S1x256x513_9_0_0 : ∀ a, (![9, 0, 0] : Fin 3 → Nat) a + S1x256x513.size a ≤ S16x256x513.size a
  inb_S16x256x64_S1x256x64_10_0_0 : ∀ a, (![10, 0, 0] : Fin 3 → Nat) a + S1x256x64.size a ≤ S16x256x64.size a
  inb_S16x256x513_S1x256x513_10_0_0 : ∀ a, (![10, 0, 0] : Fin 3 → Nat) a + S1x256x513.size a ≤ S16x256x513.size a
  inb_S16x256x64_S1x256x64_11_0_0 : ∀ a, (![11, 0, 0] : Fin 3 → Nat) a + S1x256x64.size a ≤ S16x256x64.size a
  inb_S16x256x513_S1x256x513_11_0_0 : ∀ a, (![11, 0, 0] : Fin 3 → Nat) a + S1x256x513.size a ≤ S16x256x513.size a
  inb_S16x256x64_S1x256x64_12_0_0 : ∀ a, (![12, 0, 0] : Fin 3 → Nat) a + S1x256x64.size a ≤ S16x256x64.size a
  inb_S16x256x513_S1x256x513_12_0_0 : ∀ a, (![12, 0, 0] : Fin 3 → Nat) a + S1x256x513.size a ≤ S16x256x513.size a
  inb_S16x256x64_S1x256x64_13_0_0 : ∀ a, (![13, 0, 0] : Fin 3 → Nat) a + S1x256x64.size a ≤ S16x256x64.size a
  inb_S16x256x513_S1x256x513_13_0_0 : ∀ a, (![13, 0, 0] : Fin 3 → Nat) a + S1x256x513.size a ≤ S16x256x513.size a
  inb_S16x256x64_S1x256x64_14_0_0 : ∀ a, (![14, 0, 0] : Fin 3 → Nat) a + S1x256x64.size a ≤ S16x256x64.size a
  inb_S16x256x513_S1x256x513_14_0_0 : ∀ a, (![14, 0, 0] : Fin 3 → Nat) a + S1x256x513.size a ≤ S16x256x513.size a
  inb_S16x256x64_S1x256x64_15_0_0 : ∀ a, (![15, 0, 0] : Fin 3 → Nat) a + S1x256x64.size a ≤ S16x256x64.size a
  inb_S16x256x513_S1x256x513_15_0_0 : ∀ a, (![15, 0, 0] : Fin 3 → Nat) a + S1x256x513.size a ≤ S16x256x513.size a
  inb_S16x256x513_S16x256x513_0_0_0 : ∀ a, (![0, 0, 0] : Fin 3 → Nat) a + S16x256x513.size a ≤ S16x256x513.size a
  h_S16x256x513 : 0 < S16x256x513.numel
  transposes_S16x256x513_p1_0_2_S256x16x513 : S16x256x513.Transposes [1, 0, 2] S256x16x513
  shapeCasts_S256x16x513_S1x256x16x513 : S256x16x513.ShapeCasts S1x256x16x513
  inb_S1x256x16x513_S1x256x16x513_0_0_0_0 : ∀ a, (![0, 0, 0, 0] : Fin 4 → Nat) a + S1x256x16x513.size a ≤ S1x256x16x513.size a
  h_S1x256x16x513 : 0 < S1x256x16x513.numel
  dot_S256x64_S768x64_S256x768_1_1_0_0_n_n_wf : DotDims.WF S256x64 S768x64 S256x768 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x768x64.size a ≤ S16x4608x64.size a
  k0_off2_inb : ∀ i : grid0.Coords, ∀ a, (k0_off2 i) a + S1x768x64.size a ≤ S16x4608x64.size a
  k0_off3_inb : ∀ i : grid0.Coords, ∀ a, (k0_off3 i) a + S1x768x64.size a ≤ S16x4608x64.size a
  k0_off4_inb : ∀ i : grid0.Coords, ∀ a, (k0_off4 i) a + S1x768x64.size a ≤ S16x4608x64.size a
  k0_off5_inb : ∀ i : grid0.Coords, ∀ a, (k0_off5 i) a + S1x768x64.size a ≤ S16x4608x64.size a
  k0_off6_inb : ∀ i : grid0.Coords, ∀ a, (k0_off6 i) a + S1x768x64.size a ≤ S16x4608x64.size a
  k0_off7_inb : ∀ i : grid0.Coords, ∀ a, (k0_off7 i) a + S1x768x64.size a ≤ S16x4608x64.size a
  k0_off8_inb : ∀ i : grid0.Coords, ∀ a, (k0_off8 i) a + S1x768x64.size a ≤ S16x4608x64.size a
  k0_off9_inb : ∀ i : grid0.Coords, ∀ a, (k0_off9 i) a + S1x768x64.size a ≤ S16x4608x64.size a
  k0_off10_inb : ∀ i : grid0.Coords, ∀ a, (k0_off10 i) a + S1x768x64.size a ≤ S16x4608x64.size a
  k0_off11_inb : ∀ i : grid0.Coords, ∀ a, (k0_off11 i) a + S1x768x64.size a ≤ S16x4608x64.size a
  k0_off12_inb : ∀ i : grid0.Coords, ∀ a, (k0_off12 i) a + S1x768x64.size a ≤ S16x4608x64.size a
  k0_off13_inb : ∀ i : grid0.Coords, ∀ a, (k0_off13 i) a + S1x768x64.size a ≤ S16x4608x64.size a
  k0_off14_inb : ∀ i : grid0.Coords, ∀ a, (k0_off14 i) a + S1x768x64.size a ≤ S16x4608x64.size a
  k0_off15_inb : ∀ i : grid0.Coords, ∀ a, (k0_off15 i) a + S1x768x64.size a ≤ S16x4608x64.size a
  k0_off16_inb : ∀ i : grid0.Coords, ∀ a, (k0_off16 i) a + S1x768x64.size a ≤ S16x4608x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S32x4096x64.size a
  hwx0_0 : ∀ i : grid0.Coords, EltTy.bits .f32 = 32 ∨ (Rect.block (s := S32x4096x64) S16x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4608x64.size a ≤ S32x4608x64.size a
  hwx0_1 : ∀ i : grid0.Coords, EltTy.bits .f32 = 32 ∨ (Rect.block (s := S32x4608x64) S16x4608x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x513.size a ≤ S2x4096x16x513.size a
  hwx0_2 : ∀ i : grid0.Coords, EltTy.bits .f32 = 32 ∨ (Rect.block (s := S2x4096x16x513) S1x256x16x513.size (cc0_transform_2 i) (hinb0_2 i)).WholeWords (EltTy.packing .f32)

variable [Facts₀]

def dot_S256x64_S768x64_S256x768_1_1_0_0_n_n : DotDims S256x64 S768x64 S256x768 where
  lhsContracting := [1]
  rhsContracting := [1]
  lhsNonContracting := [0]
  rhsNonContracting := [0]
  lhsBatch := []
  rhsBatch := []
  wf := dot_S256x64_S768x64_S256x768_1_1_0_0_n_n_wf

abbrev win0_0 : Pipeline.Window sig grid0 :=
  Pipeline.Window.ofSpec (Memref.whole main_v1) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x4608x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x16x513.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x4096x64 : Shape := ⟨4, ![2, 16, 4096, 64]⟩
abbrev S2x4096x16x64 : Shape := ⟨4, ![2, 4096, 16, 64]⟩
abbrev S32x4096x64 : Shape := ⟨3, ![32, 4096, 64]⟩
abbrev S32x16x256x64 : Shape := ⟨4, ![32, 16, 256, 64]⟩
abbrev S_ : Shape := ⟨0, ![]⟩
abbrev S32x4608x64 : Shape := ⟨3, ![32, 4608, 64]⟩
abbrev S16 : Shape := ⟨1, ![16]⟩
abbrev S16x1 : Shape := ⟨2, ![16, 1]⟩
abbrev S768 : Shape := ⟨1, ![768]⟩
abbrev S1x768 : Shape := ⟨2, ![1, 768]⟩
abbrev S16x768 : Shape := ⟨2, ![16, 768]⟩
abbrev S16x768x1 : Shape := ⟨3, ![16, 768, 1]⟩
abbrev S32x16x768x64 : Shape := ⟨4, ![32, 16, 768, 64]⟩
abbrev S32x16x256x768 : Shape := ⟨4, ![32, 16, 256, 768]⟩
abbrev S256 : Shape := ⟨1, ![256]⟩
abbrev S256x1 : Shape := ⟨2, ![256, 1]⟩
abbrev S513 : Shape := ⟨1, ![513]⟩
abbrev S1x513 : Shape := ⟨2, ![1, 513]⟩
abbrev S256x513 : Shape := ⟨2, ![256, 513]⟩
abbrev S1x1x256x513 : Shape := ⟨4, ![1, 1, 256, 513]⟩
abbrev S256x513x1 : Shape := ⟨3, ![256, 513, 1]⟩
abbrev S1 : Shape := ⟨1, ![1]⟩
abbrev S1x1x1 : Shape := ⟨3, ![1, 1, 1]⟩
abbrev S32x16x256x513 : Shape := ⟨4, ![32, 16, 256, 513]⟩
abbrev S32x4096x513 : Shape := ⟨3, ![32, 4096, 513]⟩
abbrev S4096 : Shape := ⟨1, ![4096]⟩
abbrev S4096x1 : Shape := ⟨2, ![4096, 1]⟩
abbrev S4096x513 : Shape := ⟨2, ![4096, 513]⟩
abbrev S1x4096x513 : Shape := ⟨3, ![1, 4096, 513]⟩
abbrev S2x16x4096x513 : Shape := ⟨4, ![2, 16, 4096, 513]⟩
abbrev S2x4096x16x513 : Shape := ⟨4, ![2, 4096, 16, 513]⟩
abbrev S2x4096x16 : Shape := ⟨3, ![2, 4096, 16]⟩
abbrev S2x4096x16x1 : Shape := ⟨4, ![2, 4096, 16, 1]⟩

abbrev nBuf : Space → Nat
  | .hbm => 98
  | .vmem => 0
  | .smem => 0
  | _ => 0

abbrev bufTy : (tb : Table) → Fin (tcTables nBuf tb) → BufTy
  | .hbm, ⟨0, _⟩ => ⟨S2x16x4096x64, .f32⟩
  | .hbm, ⟨1, _⟩ => ⟨S2x4096x16x64, .f32⟩
  | .hbm, ⟨2, _⟩ => ⟨S32x4096x64, .f32⟩
  | .hbm, ⟨3, _⟩ => ⟨S32x16x256x64, .f32⟩
  | .hbm, ⟨4, _⟩ => ⟨S_, .i32⟩
  | .hbm, ⟨5, _⟩ => ⟨S_, .f32⟩
  | .hbm, ⟨6, _⟩ => ⟨S32x4608x64, .f32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S768, .i32⟩
  | .hbm, ⟨13, _⟩ => ⟨S1x768, .i32⟩
  | .hbm, ⟨14, _⟩ => ⟨S16x768, .i32⟩
  | .hbm, ⟨15, _⟩ => ⟨S16x768, .i32⟩
  | .hbm, ⟨16, _⟩ => ⟨S16x768, .i32⟩
  | .hbm, ⟨17, _⟩ => ⟨S_, .i32⟩
  | .hbm, ⟨18, _⟩ => ⟨S16x768, .i32⟩
  | .hbm, ⟨19, _⟩ => ⟨S16x768, .i1⟩
  | .hbm, ⟨20, _⟩ => ⟨S_, .i32⟩
  | .hbm, ⟨21, _⟩ => ⟨S16x768, .i32⟩
  | .hbm, ⟨22, _⟩ => ⟨S16x768, .i32⟩
  | .hbm, ⟨23, _⟩ => ⟨S16x768, .i32⟩
  | .hbm, ⟨24, _⟩ => ⟨S16x768x1, .i32⟩
  | .hbm, ⟨25, _⟩ => ⟨S32x16x768x64, .f32⟩
  | .hbm, ⟨26, _⟩ => ⟨S32x16x256x768, .f32⟩
  | .hbm, ⟨27, _⟩ => ⟨S256, .i32⟩
  | .hbm, ⟨28, _⟩ => ⟨S256x1, .i32⟩
  | .hbm, ⟨29, _⟩ => ⟨S513, .i32⟩
  | .hbm, ⟨30, _⟩ => ⟨S1x513, .i32⟩
  | .hbm, ⟨31, _⟩ => ⟨S256x513, .i32⟩
  | .hbm, ⟨32, _⟩ => ⟨S256x513, .i32⟩
  | .hbm, ⟨33, _⟩ => ⟨S256x513, .i32⟩
  | .hbm, ⟨34, _⟩ => ⟨S1x1x256x513, .i32⟩
  | .hbm, ⟨35, _⟩ => ⟨S_, .i32⟩
  | .hbm, ⟨36, _⟩ => ⟨S1x1x256x513, .i32⟩
  | .hbm, ⟨37, _⟩ => ⟨S1x1x256x513, .i1⟩
  | .hbm, ⟨38, _⟩ => ⟨S_, .i32⟩
  | .hbm, ⟨39, _⟩ => ⟨S1x1x256x513, .i32⟩
  | .hbm, ⟨40, _⟩ => ⟨S1x1x256x513, .i32⟩
  | .hbm, ⟨41, _⟩ => ⟨S1x1x256x513, .i32⟩
  | .hbm, ⟨42, _⟩ => ⟨S256x513x1, .i32⟩
  | .hbm, ⟨43, _⟩ => ⟨S1, .i32⟩
  | .hbm, ⟨44, _⟩ => ⟨S_, .i32⟩
  | .hbm, ⟨45, _⟩ => ⟨S256x513x1, .i32⟩
  | .hbm, ⟨46, _⟩ => ⟨S256x513x1, .i1⟩
  | .hbm, ⟨47, _⟩ => ⟨S1x1x1, .i32⟩
  | .hbm, ⟨48, _⟩ => ⟨S256x513x1, .i32⟩
  | .hbm, ⟨49, _⟩ => ⟨S256x513x1, .i1⟩
  | .hbm, ⟨50, _⟩ => ⟨S256x513x1, .i1⟩
  | .hbm, ⟨51, _⟩ => ⟨S_, .i1⟩
  | .hbm, ⟨52, _⟩ => ⟨S256x513, .i1⟩
  | .hbm, ⟨53, _⟩ => ⟨S32x16x256x513, .f32⟩
  | .hbm, ⟨54, _⟩ => ⟨S32x16x256x513, .i1⟩
  | .hbm, ⟨55, _⟩ => ⟨S_, .f32⟩
  | .hbm, ⟨56, _⟩ => ⟨S32x16x256x513, .f32⟩
  | .hbm, ⟨57, _⟩ => ⟨S32x16x256x513, .f32⟩
  | .hbm, ⟨58, _⟩ => ⟨S32x4096x513, .f32⟩
  | .hbm, ⟨59, _⟩ => ⟨S4096, .i32⟩
  | .hbm, ⟨60, _⟩ => ⟨S4096x1, .i32⟩
  | .hbm, ⟨61, _⟩ => ⟨S513, .i32⟩
  | .hbm, ⟨62, _⟩ => ⟨S1x513, .i32⟩
  | .hbm, ⟨63, _⟩ => ⟨S4096x513, .i32⟩
  | .hbm, ⟨64, _⟩ => ⟨S4096x513, .i32⟩
  | .hbm, ⟨65, _⟩ => ⟨S4096x513, .i32⟩
  | .hbm, ⟨66, _⟩ => ⟨S_, .i32⟩
  | .hbm, ⟨67, _⟩ => ⟨S4096x513, .i32⟩
  | .hbm, ⟨68, _⟩ => ⟨S4096x513, .i32⟩
  | .hbm, ⟨69, _⟩ => ⟨S_, .i32⟩
  | .hbm, ⟨70, _⟩ => ⟨S4096x513, .i32⟩
  | .hbm, ⟨71, _⟩ => ⟨S4096x513, .i1⟩
  | .hbm, ⟨72, _⟩ => ⟨S_, .i32⟩
  | .hbm, ⟨73, _⟩ => ⟨S4096x513, .i32⟩
  | .hbm, ⟨74, _⟩ => ⟨S4096x513, .i1⟩
  | .hbm, ⟨75, _⟩ => ⟨S4096x513, .i1⟩
  | .hbm, ⟨76, _⟩ => ⟨S1x4096x513, .i1⟩
  | .hbm, ⟨77, _⟩ => ⟨S_, .f32⟩
  | .hbm, ⟨78, _⟩ => ⟨S_, .f32⟩
  | .hbm, ⟨79, _⟩ => ⟨S32x4096x513, .i1⟩
  | .hbm, ⟨80, _⟩ => ⟨S32x4096x513, .f32⟩
  | .hbm, ⟨81, _⟩ => ⟨S32x4096x513, .f32⟩
  | .hbm, ⟨82, _⟩ => ⟨S2x16x4096x513, .f32⟩
  | .hbm, ⟨83, _⟩ => ⟨S2x4096x16x513, .f32⟩
  | .hbm, ⟨84, _⟩ => ⟨S_, .f32⟩
  | .hbm, ⟨85, _⟩ => ⟨S2x4096x16, .f32⟩
  | .hbm, ⟨86, _⟩ => ⟨S_, .f32⟩
  | .hbm, ⟨87, _⟩ => ⟨S2x4096x16, .f32⟩
  | .hbm, ⟨88, _⟩ => ⟨S2x4096x16, .f32⟩
  | .hbm, ⟨89, _⟩ => ⟨S2x4096x16x1, .f32⟩
  | .hbm, ⟨90, _⟩ => ⟨S2x4096x16x513, .f32⟩
  | .hbm, ⟨91, _⟩ => ⟨S2x4096x16x513, .f32⟩
  | .hbm, ⟨92, _⟩ => ⟨S2x4096x16x513, .f32⟩
  | .hbm, ⟨93, _⟩ => ⟨S_, .f32⟩
  | .hbm, ⟨94, _⟩ => ⟨S2x4096x16, .f32⟩
  | .hbm, ⟨95, _⟩ => ⟨S2x4096x16x1, .f32⟩
  | .hbm, ⟨96, _⟩ => ⟨S2x4096x16x513, .f32⟩
  | .hbm, ⟨97, _⟩ => ⟨S2x4096x16x513, .f32⟩
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_3 : Ref sig .tc := ⟨.hbm, 66, rfl⟩
abbrev main_v38 : Ref sig .tc := ⟨.hbm, 67, rfl⟩
abbrev main_v39 : Ref sig .tc := ⟨.hbm, 68, rfl⟩
abbrev main_c_4 : Ref sig .tc := ⟨.hbm, 69, rfl⟩
abbrev main_v40 : Ref sig .tc := ⟨.hbm, 70, rfl⟩
abbrev main_v41 : Ref sig .tc := ⟨.hbm, 71, rfl⟩
abbrev main_c_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_cst_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_8 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]

class Facts₀ : Prop where
  transposes_S2x16x4096x64_S2x4096x16x64_0_2_1_3 : S2x16x4096x64.Transposes [0, 2, 1, 3] S2x4096x16x64
  shapeCasts_S2x4096x16x64_S32x4096x64 : S2x4096x16x64.ShapeCasts S32x4096x64
  shapeCasts_S32x4096x64_S32x16x256x64 : S32x4096x64.ShapeCasts S32x16x256x64
  pads_S32x4096x64_S32x4608x64_000_2562560_000 : S32x4096x64.Pads (![0, 256, 0] : Fin 3 → Nat) ![0, 256, 0] ![0, 0, 0] S32x4608x64
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S768_S1x768_1 : S768.BroadcastsInDim S1x768 (![1] : Fin 1 → Fin S1x768.rank)
  bcast_S16x1_S16x768_0_1 : S16x1.BroadcastsInDim S16x768 (![0, 1] : Fin 2 → Fin S16x768.rank)
  bcast_S1x768_S16x768_0_1 : S1x768.BroadcastsInDim S16x768 (![0, 1] : Fin 2 → Fin S16x768.rank)
  bcast_S_S16x768 : S_.BroadcastsInDim S16x768 (![] : Fin 0 → Fin S16x768.rank)
  bcast_S16x768_S16x768x1_0_1 : S16x768.BroadcastsInDim S16x768x1 (![0, 1] : Fin 2 → Fin S16x768x1.rank)
  bcast_S256_S256x1_0 : S256.BroadcastsInDim S256x1 (![0] : Fin 1 → Fin S256x1.rank)
  bcast_S513_S1x513_1 : S513.BroadcastsInDim S1x513 (![1] : Fin 1 → Fin S1x513.rank)
  bcast_S256x1_S256x513_0_1 : S256x1.BroadcastsInDim S256x513 (![0, 1] : Fin 2 → Fin S256x513.rank)
  bcast_S1x513_S256x513_0_1 : S1x513.BroadcastsInDim S256x513 (![0, 1] : Fin 2 → Fin S256x513.rank)
  bcast_S256x513_S1x1x256x513_2_3 : S256x513.BroadcastsInDim S1x1x256x513 (![2, 3] : Fin 2 → Fin S1x1x256x513.rank)
  bcast_S_S1x1x256x513 : S_.BroadcastsInDim S1x1x256x513 (![] : Fin 0 → Fin S1x1x256x513.rank)
  shapeCasts_S1x1x256x513_S256x513x1 : S1x1x256x513.ShapeCasts S256x513x1
  bcast_S_S256x513x1 : S_.BroadcastsInDim S256x513x1 (![] : Fin 0 → Fin S256x513x1.rank)
  bcast_S1_S1x1x1_2 : S1.BroadcastsInDim S1x1x1 (![2] : Fin 1 → Fin S1x1x1.rank)
  bcast_S1x1x1_S256x513x1_0_1_2 : S1x1x1.BroadcastsInDim S256x513x1 (![0, 1, 2] : Fin 3 → Fin S256x513x1.rank)
  reducesTo_S256x513x1_S256x513_d2 : S256x513x1.ReducesTo [2] S256x513
  bcast_S256x513_S32x16x256x513_2_3 : S256x513.BroadcastsInDim S32x16x256x513 (![2, 3] : Fin 2 → Fin S32x16x256x513.rank)
  bcast_S_S32x16x256x513 : S_.BroadcastsInDim S32x16x256x513 (![] : Fin 0 → Fin S32x16x256x513.rank)
  shapeCasts_S32x16x256x513_S32x4096x513 : S32x16x256x513.ShapeCasts S32x4096x513
  bcast_S4096_S4096x1_0 : S4096.BroadcastsInDim S4096x1 (![0] : Fin 1 → Fin S4096x1.rank)
  bcast_S4096x1_S4096x513_0_1 : S4096x1.BroadcastsInDim S4096x513 (![0, 1] : Fin 2 → Fin S4096x513.rank)
  bcast_S1x513_S4096x513_0_1 : S1x513.BroadcastsInDim S4096x513 (![0, 1] : Fin 2 → Fin S4096x513.rank)
  bcast_S_S4096x513 : S_.BroadcastsInDim S4096x513 (![] : Fin 0 → Fin S4096x513.rank)
  bcast_S4096x513_S1x4096x513_1_2 : S4096x513.BroadcastsInDim S1x4096x513 (![1, 2] : Fin 2 → Fin S1x4096x513.rank)
  bcast_S1x4096x513_S32x4096x513_0_1_2 : S1x4096x513.BroadcastsInDim S32x4096x513 (![0, 1, 2] : Fin 3 → Fin S32x4096x513.rank)
  bcast_S_S32x4096x513 : S_.BroadcastsInDim S32x4096x513 (![] : Fin 0 → Fin S32x4096x513.rank)
  shapeCasts_S32x4096x513_S2x16x4096x513 : S32x4096x513.ShapeCasts S2x16x4096x513
  transposes_S2x16x4096x513_S2x4096x16x513_0_2_1_3 : S2x16x4096x513.Transposes [0, 2, 1, 3] S2x4096x16x513
  reducesTo_S2x4096x16x513_S2x4096x16_d3 : S2x4096x16x513.ReducesTo [3] S2x4096x16
  bcast_S_S2x4096x16 : S_.BroadcastsInDim S2x4096x16 (![] : Fin 0 → Fin S2x4096x16.rank)
  bcast_S2x4096x16_S2x4096x16x1_0_1_2 : S2x4096x16.BroadcastsInDim S2x4096x16x1 (![0, 1, 2] : Fin 3 → Fin S2x4096x16x1.rank)
  bcast_S2x4096x16x1_S2x4096x16x513_0_1_2_3 : S2x4096x16x1.BroadcastsInDim S2x4096x16x513 (![0, 1, 2, 3] : Fin 4 → Fin S2x4096x16x513.rank)
  gather_S32x4608x64_S16x768x1_S32x16x768x64_03_1_n_n_1_2_32164_wf : GatherDims.WF S32x4608x64 S16x768x1 S32x16x768x64 [0, 3] [1] [] [1] [] 2 ![32, 1, 64]
  dot_S32x16x256x64_S32x16x768x64_S32x16x256x768_3_3_2_2_01_01_wf : DotDims.WF S32x16x256x64 S32x16x768x64 S32x16x256x768 [3] [3] [2] [2] [0, 1] [0, 1]
  gather_S32x16x256x768_S256x513x1_S32x16x256x513_01_3_2_0_3_2_321611_wf : GatherDims.WF S32x16x256x768 S256x513x1 S32x16x256x513 [0, 1] [3] [2] [3] [0] 2 ![32, 16, 1, 1]

variable [Facts₀]

def gather_S32x4608x64_S16x768x1_S32x16x768x64_03_1_n_n_1_2_32164 : GatherDims S32x4608x64 S16x768x1 S32x16x768x64 where
  offsetDims := [0, 3]
  collapsedSliceDims := [1]
  operandBatchingDims := []
  startIndicesBatchingDims := []
  startIndexMap := [1]
  indexVectorDim := 2
  sliceSizes := ![32, 1, 64]
  wf := gather_S32x4608x64_S16x768x1_S32x16x768x64_03_1_n_n_1_2_32164_wf
def dot_S32x16x256x64_S32x16x768x64_S32x16x256x768_3_3_2_2_01_01 : DotDims S32x16x256x64 S32x16x768x64 S32x16x256x768 where
  lhsContracting := [3]
  rhsContracting := [3]
  lhsNonContracting := [2]
  rhsNonContracting := [2]
  lhsBatch := [0, 1]
  rhsBatch := [0, 1]
  wf := dot_S32x16x256x64_S32x16x768x64_S32x16x256x768_3_3_2_2_01_01_wf
def gather_S32x16x256x768_S256x513x1_S32x16x256x513_01_3_2_0_3_2_321611 : GatherDims S32x16x256x768 S256x513x1 S32x16x256x513 where
  offsetDims := [0, 1]
  collapsedSliceDims := [3]
  operandBatchingDims := [2]
  startIndicesBatchingDims := [0]
  startIndexMap := [3]
  indexVectorDim := 2
  sliceSizes := ![32, 16, 1, 1]
  wf := gather_S32x16x256x768_S256x513x1_S32x16x256x513_01_3_2_0_3_2_321611_wf

class Facts : Prop extends Facts₀ where

variable [Facts]
-- ==== Proof.Spec.lean ====
/-
  Sliding-window attention probabilities, stated once over the extended reals.

  The input, head by head, is laid out as 32 planes of 4096 rows of 64 numbers (`qr`), and the same planes
  with 256 rows of padding in front of and behind the 4096 (`kp`, 4608 rows).  Query row `s` of plane `p`
  meets key row `s + c − 256` for each offset `c` in `0 … 512`: padded row `s + c`.  The score is the dot
  product of the two rows over their 64 coordinates where the key row exists (`256 ≤ s + c < 4352`) and −∞
  where it does not; a row's 513 scores are turned into probabilities by the softmax written with the
  row's maximum subtracted.  Plane `p = 16·b + h` of batch `b` and head `h`; the result is indexed
  (batch, row, head, offset).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The largest of a row's 513 scores, taken from −∞. -/
def rowMax (v : Fin 513 → EReal) : EReal := (Finset.univ : Finset (Fin 513)).fold max ⊥ v

/-- The softmax of a row of 513 scores at offset `c`: `exp (v c − max v)` over the sum of those exponentials. -/
def softmaxRow (v : Fin 513 → EReal) (c : Fin 513) : EReal :=
  Ideal.div (Ideal.exp (v c - rowMax v)) (∑ c' : Fin 513, Ideal.exp (v c' - rowMax v))

/-- Padded key row `s + c` is a row of the sequence itself (not of the padding): `0 ≤ s + c − 256 < 4096`. -/
def inWindow (s c : Nat) : Prop := 256 ≤ s + c ∧ s + c < 4352

instance (s c : Nat) : Decidable (inWindow s c) := by unfold inWindow; infer_instance

/-- The banded score of plane `p`, query row `s`, offset `c`: the dot product of query row `s` with padded key
    row `s + c` inside the window, −∞ outside it. -/
def band (qr : FVec Ideal ⟨3, ![32, 4096, 64]⟩ .f32) (kp : FVec Ideal ⟨3, ![32, 4608, 64]⟩ .f32)
    (p : Fin 32) (s : Fin 4096) (c : Fin 513) : EReal :=
  if inWindow s.val c.val then
    ∑ d : Fin 64, qr (ix3 p s d) * kp (ix3 p ⟨s.val + c.val, by have := s.isLt; have := c.isLt; omega⟩ d)
  else ⊥

/-- The plane of batch `b` and head `h`. -/
def plane (b : Fin 2) (h : Fin 16) : Fin 32 := ⟨16 * b.val + h.val, by have := b.isLt; have := h.isLt; omega⟩

/-- The attention probabilities, indexed (batch, row, head, offset). -/
def probs (qr : FVec Ideal ⟨3, ![32, 4096, 64]⟩ .f32) (kp : FVec Ideal ⟨3, ![32, 4608, 64]⟩ .f32) :
    FVec Ideal ⟨4, ![2, 4096, 16, 513]⟩ .f32 :=
  fun j => softmaxRow (band qr kp (plane (j 0) (j 2)) (j 1)) (j 3)

theorem probs_apply (qr : FVec Ideal ⟨3, ![32, 4096, 64]⟩ .f32) (kp : FVec Ideal ⟨3, ![32, 4608, 64]⟩ .f32)
    (b : Fin 2) (s : Fin 4096) (h : Fin 16) (c : Fin 513) :
    probs qr kp (ix4 b s h c) = softmaxRow (band qr kp (plane b h) s) c := rfl

/-- The f32 pattern of −∞ denotes −∞. -/
theorem ofBits_neg_inf : Ideal.ofBits .f32 0xFF800000#32 = (⊥ : EReal) := by
  simp [Ideal.ofBits, Ideal.ieee]

end Cert.Spec

end
-- ==== Proof.Head.lean ====
/-
  One head of one chunk: 256 query rows against the 768 padded key rows around them.

  `scoresOf q k` is the 256 × 768 table of dot products.  `shifted` turns row `x` of it to the left by `x`
  places, one binary digit of `x` at a time: round `j` turns every row by `2^j` places and keeps the turned
  row exactly where digit `j` of the row number is set, so after the eight rounds column `c` of row `x` holds
  score `(x, x + c)`.  `softmaxBlock` keeps the first 513 columns, puts the named constant (−∞ at the ideal
  values) where the key row does not exist, and takes each row's softmax.  `headFn` is the three in a row,
  written with the operations the kernel's body applies.
-/
import proofs.«419505_j10230612099674_4_alg».proof.KernelIdeal
import proofs.«419505_j10230612099674_4_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Head

open Idealize.ShloMosaic Idealize.ShloMosaic.ValueIdx Cert.KernelIdeal
open Cert.KernelIdeal.Facts₀ Cert.KernelIdeal.Facts

variable {F : FTy → Type} [FloatOps F] [Named F] [Cert.KernelIdeal.Facts]

/-- The 256 × 768 scores of one head: query row `x` against padded key row `y` of the chunk's 768. -/
def scoresOf (q : Vec F S1x256x64 .f32) (k : Vec F S1x768x64 .f32) : FVec F S256x768 .f32 :=
  matmul dot_S256x64_S768x64_S256x768_1_1_0_0_n_n none (shapeCast S256x64 q shapeCasts_S1x256x64_S256x64)
    (shapeCast S768x64 k shapeCasts_S1x768x64_S768x64) (constant S256x768 .f32 0x00000000#32)

/-- Every entry's row number. -/
def rowIota : IVec S256x768 32 := iota .tc S256x768 32 [0] iota_S256x768_d0_w32

/-- One round of the shifter: the table turned along its rows by `amt`, kept in the rows whose number has digit
    `bit` set. -/
def shiftRound (bit amt : BitVec 32) (cur : FVec F S256x768 .f32) : FVec F S256x768 .f32 :=
  select (cmpi .eq (andi (shrsi rowIota (broadcast S256x768 bit)) (broadcast S256x768 1#32)) (broadcast S256x768 1#32))
    (dynamicRotate 1 amt none cur rotates_S256x768_d1) cur

/-- The eight rounds: by 1, 2, 4, …, 128 places to the left (768 − 2^j to the right). -/
def shifted (s : FVec F S256x768 .f32) : FVec F S256x768 .f32 :=
  shiftRound 7#32 640#32 (shiftRound 6#32 704#32 (shiftRound 5#32 736#32 (shiftRound 4#32 752#32
    (shiftRound 3#32 760#32 (shiftRound 2#32 764#32 (shiftRound 1#32 766#32 (shiftRound 0#32 767#32 s)))))))

/-- The first 513 columns, masked, and each row's softmax. -/
def softmaxBlock (valid : IVec S256x513 1) (cur : FVec F S256x768 .f32) : FVec F S1x256x513 .f32 :=
  have v88 : FVec F S256x513 .f32 := extractStridedSlice S256x513 ![0, 0] cur slices_S256x768_o0_0_S256x513
  have cst_22 : F .f32 := Named.named κ "neg_big" 0xFF333332#32
  have v89 : FVec F S256x513 .f32 := broadcast S256x513 cst_22
  have v90 : FVec F S256x513 .f32 := select valid v88 v89
  have v91 : FVec F S256 .f32 := multiReduction .maximumf [1] S256 v90 0xFF800000#32 reduces_S256x513_S256 (.inl rfl) rfl
  have v92 : FVec F S256x1 .f32 := shapeCast S256x1 v91 shapeCasts_S256_S256x1
  have v93 : FVec F S256x513 .f32 := broadcastTo S256x513 v92 broadcasts_S256x1_S256x513
  have v94 : FVec F S256x513 .f32 := subf v90 v93
  have v95 : FVec F S256x513 .f32 := exp v94
  have v96 : FVec F S256 .f32 := multiReduction .add [1] S256 v95 0x00000000#32 reduces_S256x513_S256 (.inl rfl) rfl
  have v97 : FVec F S256x1 .f32 := shapeCast S256x1 v96 shapeCasts_S256_S256x1
  have v98 : FVec F S256x513 .f32 := broadcastTo S256x513 v97 broadcasts_S256x1_S256x513
  have v99 : FVec F S256x513 .f32 := divf v95 v98
  shapeCast S1x256x513 v99 shapeCasts_S256x513_S1x256x513

/-- One head of one chunk, as the kernel's body computes it from the loaded query rows, the loaded key rows
    and the window mask. -/
def headFn (valid : IVec S256x513 1) (q : Vec F S1x256x64 .f32) (k : Vec F S1x768x64 .f32) : FVec F S1x256x513 .f32 :=
  softmaxBlock valid (shifted (scoresOf q k))

/-- The window mask of the chunk at grid point `i`, as the body computes it. -/
def validOf (i : grid0.Coords) : IVec S256x513 1 :=
  let arg1 : BitVec 32 := BitVec.ofNat 32 (i 1).val
  have v2 : IVec S256x513 32 := iota .tc S256x513 32 [0] iota_S256x513_d0_w32
  have v3 : IVec S256x513 32 := iota .tc S256x513 32 [1] iota_S256x513_d1_w32
  let v4 : BitVec 32 := Scalar.muli arg1 256#32
  have v5 : IVec S256x513 32 := broadcast S256x513 v4
  have v6 : IVec S256x513 32 := addi v5 v2
  have v7 : IVec S256x513 32 := addi v6 v3
  have v8 : IVec S256x513 32 := broadcast S256x513 256#32
  have v9 : IVec S256x513 32 := subi v7 v8
  have v10 : IVec S256x513 32 := broadcast S256x513 0#32
  have v11 : IVec S256x513 1 := cmpi .sge v9 v10
  have v12 : IVec S256x513 32 := broadcast S256x513 4096#32
  have v13 : IVec S256x513 1 := cmpi .slt v9 v12
  andi v11 v13

end Cert.KernelIdeal.Head

end
-- ==== Proof.Block.lean ====
/-
  What one grid point leaves in its output block.  The body fills a scratch of 16 slabs, slab `h` with head
  `h`'s 256 × 513 probabilities computed from rows `h` of the query block and of the key block (the latter
  from padded row `256·ii` on), then copies the scratch into the output block with the head axis moved behind
  the row axis.  So entry (0, x, h, c) of the block is entry (x, c) of head `h`.
-/
import proofs.«419505_j10230612099674_4_alg».proof.Proof.Gen.KernelIdeal.Frame
import proofs.«419505_j10230612099674_4_alg».proof.Proof.Head
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Head

variable {F : FTy → Type} [FloatOps F] [Named F]

theorem hz4 : (![0, 0, 0, 0] : Fin 4 → Nat) = fun _ => 0 := funext fun a => by fin_cases a <;> rfl

/-- The sixteen stores into the scratch, the last made first: slab `h` receives head `h`. -/
def pieces (i : grid0.Coords) (arg2 : Memref sig .tc .vmem S16x256x64 .f32) (harg2 : arg2.IsWhole)
    (arg3 : Memref sig .tc .vmem S16x4608x64 .f32) (harg3 : arg3.IsWhole)
    (x0 : Vec F S16x256x64 .f32) (x1 : Vec F S16x4608x64 .f32) : List (View.Piece (Elt F) S16x256x513 .f32) :=
  [
    ⟨Rect.unit (s := S16x256x513) ![15, 0, 0] S1x256x513.size inb_S16x256x513_S1x256x513_15_0_0,
      headFn (validOf i)
        (View.readAt (Elt F) arg2.view (Rect.unit (s := S16x256x64) ![15, 0, 0] S1x256x64.size inb_S16x256x64_S1x256x64_15_0_0).toLoadRect (harg2.unread x0))
        (View.readAt (Elt F) arg3.view (Rect.unit (s := S16x4608x64) (k0_off16 i) S1x768x64.size (k0_off16_inb i)).toLoadRect (harg3.unread x1))⟩,
    ⟨Rect.unit (s := S16x256x513) ![14, 0, 0] S1x256x513.size inb_S16x256x513_S1x256x513_14_0_0,
      headFn (validOf i)
        (View.readAt (Elt F) arg2.view (Rect.unit (s := S16x256x64) ![14, 0, 0] S1x256x64.size inb_S16x256x64_S1x256x64_14_0_0).toLoadRect (harg2.unread x0))
        (View.readAt (Elt F) arg3.view (Rect.unit (s := S16x4608x64) (k0_off15 i) S1x768x64.size (k0_off15_inb i)).toLoadRect (harg3.unread x1))⟩,
    ⟨Rect.unit (s := S16x256x513) ![13, 0, 0] S1x256x513.size inb_S16x256x513_S1x256x513_13_0_0,
      headFn (validOf i)
        (View.readAt (Elt F) arg2.view (Rect.unit (s := S16x256x64) ![13, 0, 0] S1x256x64.size inb_S16x256x64_S1x256x64_13_0_0).toLoadRect (harg2.unread x0))
        (View.readAt (Elt F) arg3.view (Rect.unit (s := S16x4608x64) (k0_off14 i) S1x768x64.size (k0_off14_inb i)).toLoadRect (harg3.unread x1))⟩,
    ⟨Rect.unit (s := S16x256x513) ![12, 0, 0] S1x256x513.size inb_S16x256x513_S1x256x513_12_0_0,
      headFn (validOf i)
        (View.readAt (Elt F) arg2.view (Rect.unit (s := S16x256x64) ![12, 0, 0] S1x256x64.size inb_S16x256x64_S1x256x64_12_0_0).toLoadRect (harg2.unread x0))
        (View.readAt (Elt F) arg3.view (Rect.unit (s := S16x4608x64) (k0_off13 i) S1x768x64.size (k0_off13_inb i)).toLoadRect (harg3.unread x1))⟩,
    ⟨Rect.unit (s := S16x256x513) ![11, 0, 0] S1x256x513.size inb_S16x256x513_S1x256x513_11_0_0,
      headFn (validOf i)
        (View.readAt (Elt F) arg2.view (Rect.unit (s := S16x256x64) ![11, 0, 0] S1x256x64.size inb_S16x256x64_S1x256x64_11_0_0).toLoadRect (harg2.unread x0))
        (View.readAt (Elt F) arg3.view (Rect.unit (s := S16x4608x64) (k0_off12 i) S1x768x64.size (k0_off12_inb i)).toLoadRect (harg3.unread x1))⟩,
    ⟨Rect.unit (s := S16x256x513) ![10, 0, 0] S1x256x513.size inb_S16x256x513_S1x256x513_10_0_0,
      headFn (validOf i)
        (View.readAt (Elt F) arg2.view (Rect.unit (s := S16x256x64) ![10, 0, 0] S1x256x64.size inb_S16x256x64_S1x256x64_10_0_0).toLoadRect (harg2.unread x0))
        (View.readAt (Elt F) arg3.view (Rect.unit (s := S16x4608x64) (k0_off11 i) S1x768x64.size (k0_off11_inb i)).toLoadRect (harg3.unread x1))⟩,
    ⟨Rect.unit (s := S16x256x513) ![9, 0, 0] S1x256x513.size inb_S16x256x513_S1x256x513_9_0_0,
      headFn (validOf i)
        (View.readAt (Elt F) arg2.view (Rect.unit (s := S16x256x64) ![9, 0, 0] S1x256x64.size inb_S16x256x64_S1x256x64_9_0_0).toLoadRect (harg2.unread x0))
        (View.readAt (Elt F) arg3.view (Rect.unit (s := S16x4608x64) (k0_off10 i) S1x768x64.size (k0_off10_inb i)).toLoadRect (harg3.unread x1))⟩,
    ⟨Rect.unit (s := S16x256x513) ![8, 0, 0] S1x256x513.size inb_S16x256x513_S1x256x513_8_0_0,
      headFn (validOf i)
        (View.readAt (Elt F) arg2.view (Rect.unit (s := S16x256x64) ![8, 0, 0] S1x256x64.size inb_S16x256x64_S1x256x64_8_0_0).toLoadRect (harg2.unread x0))
        (View.readAt (Elt F) arg3.view (Rect.unit (s := S16x4608x64) (k0_off9 i) S1x768x64.size (k0_off9_inb i)).toLoadRect (harg3.unread x1))⟩,
    ⟨Rect.unit (s := S16x256x513) ![7, 0, 0] S1x256x513.size inb_S16x256x513_S1x256x513_7_0_0,
      headFn (validOf i)
        (View.readAt (Elt F) arg2.view (Rect.unit (s := S16x256x64) ![7, 0, 0] S1x256x64.size inb_S16x256x64_S1x256x64_7_0_0).toLoadRect (harg2.unread x0))
        (View.readAt (Elt F) arg3.view (Rect.unit (s := S16x4608x64) (k0_off8 i) S1x768x64.size (k0_off8_inb i)).toLoadRect (harg3.unread x1))⟩,
    ⟨Rect.unit (s := S16x256x513) ![6, 0, 0] S1x256x513.size inb_S16x256x513_S1x256x513_6_0_0,
      headFn (validOf i)
        (View.readAt (Elt F) arg2.view (Rect.unit (s := S16x256x64) ![6, 0, 0] S1x256x64.size inb_S16x256x64_S1x256x64_6_0_0).toLoadRect (harg2.unread x0))
        (View.readAt (Elt F) arg3.view (Rect.unit (s := S16x4608x64) (k0_off7 i) S1x768x64.size (k0_off7_inb i)).toLoadRect (harg3.unread x1))⟩,
    ⟨Rect.unit (s := S16x256x513) ![5, 0, 0] S1x256x513.size inb_S16x256x513_S1x256x513_5_0_0,
      headFn (validOf i)
        (View.readAt (Elt F) arg2.view (Rect.unit (s := S16x256x64) ![5, 0, 0] S1x256x64.size inb_S16x256x64_S1x256x64_5_0_0).toLoadRect (harg2.unread x0))
        (View.readAt (Elt F) arg3.view (Rect.unit (s := S16x4608x64) (k0_off6 i) S1x768x64.size (k0_off6_inb i)).toLoadRect (harg3.unread x1))⟩,
    ⟨Rect.unit (s := S16x256x513) ![4, 0, 0] S1x256x513.size inb_S16x256x513_S1x256x513_4_0_0,
      headFn (validOf i)
        (View.readAt (Elt F) arg2.view (Rect.unit (s := S16x256x64) ![4, 0, 0] S1x256x64.size inb_S16x256x64_S1x256x64_4_0_0).toLoadRect (harg2.unread x0))
        (View.readAt (Elt F) arg3.view (Rect.unit (s := S16x4608x64) (k0_off5 i) S1x768x64.size (k0_off5_inb i)).toLoadRect (harg3.unread x1))⟩,
    ⟨Rect.unit (s := S16x256x513) ![3, 0, 0] S1x256x513.size inb_S16x256x513_S1x256x513_3_0_0,
      headFn (validOf i)
        (View.readAt (Elt F) arg2.view (Rect.unit (s := S16x256x64) ![3, 0, 0] S1x256x64.size inb_S16x256x64_S1x256x64_3_0_0).toLoadRect (harg2.unread x0))
        (View.readAt (Elt F) arg3.view (Rect.unit (s := S16x4608x64) (k0_off4 i) S1x768x64.size (k0_off4_inb i)).toLoadRect (harg3.unread x1))⟩,
    ⟨Rect.unit (s := S16x256x513) ![2, 0, 0] S1x256x513.size inb_S16x256x513_S1x256x513_2_0_0,
      headFn (validOf i)
        (View.readAt (Elt F) arg2.view (Rect.unit (s := S16x256x64) ![2, 0, 0] S1x256x64.size inb_S16x256x64_S1x256x64_2_0_0).toLoadRect (harg2.unread x0))
        (View.readAt (Elt F) arg3.view (Rect.unit (s := S16x4608x64) (k0_off3 i) S1x768x64.size (k0_off3_inb i)).toLoadRect (harg3.unread x1))⟩,
    ⟨Rect.unit (s := S16x256x513) ![1, 0, 0] S1x256x513.size inb_S16x256x513_S1x256x513_1_0_0,
      headFn (validOf i)
        (View.readAt (Elt F) arg2.view (Rect.unit (s := S16x256x64) ![1, 0, 0] S1x256x64.size inb_S16x256x64_S1x256x64_1_0_0).toLoadRect (harg2.unread x0))
        (View.readAt (Elt F) arg3.view (Rect.unit (s := S16x4608x64) (k0_off2 i) S1x768x64.size (k0_off2_inb i)).toLoadRect (harg3.unread x1))⟩,
    ⟨Rect.unit (s := S16x256x513) ![0, 0, 0] S1x256x513.size inb_S16x256x513_S1x256x513_0_0_0,
      headFn (validOf i)
        (View.readAt (Elt F) arg2.view (Rect.unit (s := S16x256x64) ![0, 0, 0] S1x256x64.size inb_S16x256x64_S1x256x64_0_0_0).toLoadRect (harg2.unread x0))
        (View.readAt (Elt F) arg3.view (Rect.unit (s := S16x4608x64) (k0_off1 i) S1x768x64.size (k0_off1_inb i)).toLoadRect (harg3.unread x1))⟩
  ]

/-- The output block is the scratch, read whole after the sixteen stores, transposed and given its leading
    unit axis. -/
theorem out_eq (c : Dev nD) (i : grid0.Coords) (arg2 : Memref sig .tc .vmem S16x256x64 .f32) (harg2 : arg2.IsWhole) (arg3 : Memref sig .tc .vmem S16x4608x64 .f32) (harg3 : arg3.IsWhole) (arg4 : Memref sig .tc .vmem S1x256x16x513 .f32) (harg4 : arg4.IsWhole) (arg5 : Memref sig .tc .vmem S16x256x513 .f32) (harg5 : arg5.IsWhole)
    (x0 : Vec F S16x256x64 .f32) (x1 : Vec F S16x4608x64 .f32) :
    out0_A_2 c i arg2 harg2 arg3 harg3 arg4 harg4 arg5 harg5 x0 x1
      = k0_pay1 (k0_pay89 (arg5.view.readCov (pieces i arg2 harg2 arg3 harg3 x0 x1)
          (Rect.unit (s := S16x256x513) ![0, 0, 0] S16x256x513.size inb_S16x256x513_S16x256x513_0_0_0).toLoadRect)) := by
  unfold out0_A_2
  rw [View.read_writes_eq_canon _ _ _ (cover0_A_2 c i arg2 harg2 arg3 harg3 arg4 harg4 arg5 harg5 x0 x1)]
  unfold kernelRun0_A
  dsimp only
  rw [View.canon_unit_zero hz4]
  sl_unfold_run_names
  rfl

/-- Slab `h` of the query block: head `h`'s 256 query rows. -/
def qOf (x0 : Vec F S16x256x64 .f32) (h : Fin 16) : Vec F S1x256x64 .f32 := fun y => x0 (ix3 h (y 1) (y 2))

/-- Rows `256·ii … 256·ii + 767` of slab `h` of the key block: the 768 padded key rows around chunk `ii`. -/
def kOf (x1 : Vec F S16x4608x64 .f32) (i : grid0.Coords) (h : Fin 16) : Vec F S1x768x64 .f32 :=
  fun y => x1 (ix3 h ⟨256 * (i 1).val + (y 1).val, by
    have hi : (i 1).val < 16 := (i 1).isLt
    have hy : (y 1).val < 768 := (y 1).isLt
    omega⟩ (y 2))

/-- A load of one slab of the query block, through a whole memref holding the block, is that slab. -/
theorem readAt_q (arg2 : Memref sig .tc .vmem S16x256x64 .f32) (harg2 : arg2.IsWhole) (x0 : Vec F S16x256x64 .f32)
    (h : Fin 16) (off : Fin 3 → Nat) (hoff : off = ![h.val, 0, 0]) (inb : ∀ a, off a + S1x256x64.size a ≤ S16x256x64.size a) :
    View.readAt (Elt F) arg2.view (Rect.unit (s := S16x256x64) off S1x256x64.size inb).toLoadRect (harg2.unread x0) = qOf x0 h := by
  subst hoff
  rw [View.readAt_eq_ld, harg2.read_unread]
  funext y
  show x0 ((Rect.unit (s := S16x256x64) ![h.val, 0, 0] S1x256x64.size inb).idx y) = x0 (ix3 h (y 1) (y 2))
  refine congrArg x0 (funext fun a => Fin.ext ?_)
  have h0 : (y 0).val < 1 := (y 0).isLt
  match a with
  | ⟨0, _⟩ => show h.val + 1 * (y 0).val = h.val; omega
  | ⟨1, _⟩ => show 0 + 1 * (y 1).val = (y 1).val; omega
  | ⟨2, _⟩ => show 0 + 1 * (y 2).val = (y 2).val; omega

/-- A load of 768 rows of one slab of the key block from row `256·ii` on is those rows. -/
theorem readAt_k (arg3 : Memref sig .tc .vmem S16x4608x64 .f32) (harg3 : arg3.IsWhole) (x1 : Vec F S16x4608x64 .f32)
    (i : grid0.Coords) (h : Fin 16) (off : Fin 3 → Nat) (hoff : off = ![h.val, 256 * (i 1).val, 0])
    (inb : ∀ a, off a + S1x768x64.size a ≤ S16x4608x64.size a) :
    View.readAt (Elt F) arg3.view (Rect.unit (s := S16x4608x64) off S1x768x64.size inb).toLoadRect (harg3.unread x1) = kOf x1 i h := by
  subst hoff
  rw [View.readAt_eq_ld, harg3.read_unread]
  funext y
  show x1 ((Rect.unit (s := S16x4608x64) ![h.val, 256 * (i 1).val, 0] S1x768x64.size inb).idx y) = x1 (ix3 h _ (y 2))
  refine congrArg x1 (funext fun a => Fin.ext ?_)
  have h0 : (y 0).val < 1 := (y 0).isLt
  match a with
  | ⟨0, _⟩ => show h.val + 1 * (y 0).val = h.val; omega
  | ⟨1, _⟩ => show 256 * (i 1).val + 1 * (y 1).val = 256 * (i 1).val + (y 1).val; omega
  | ⟨2, _⟩ => show 0 + 1 * (y 2).val = (y 2).val; omega

/-- What the scratch holds after the sixteen stores, as one function of the scratch index: slab `h` is head `h`. -/
def scratchOf (i : grid0.Coords) (x0 : Vec F S16x256x64 .f32) (x1 : Vec F S16x4608x64 .f32) : Vec F S16x256x513 .f32 :=
  fun j => headFn (validOf i) (qOf x0 (j 0)) (kOf x1 i (j 0)) (ix3 (0 : Fin 1) (j 1) (j 2))

/-- A store of head `h` through slab `h` of the scratch agrees with that function. -/
theorem piece_agrees (i : grid0.Coords) (x0 : Vec F S16x256x64 .f32) (x1 : Vec F S16x4608x64 .f32) (h : Fin 16)
    (off : Fin 3 → Nat) (hoff : off = ![h.val, 0, 0]) (inb : ∀ a, off a + S1x256x513.size a ≤ S16x256x513.size a)
    (w : Vec F S1x256x513 .f32) (hw : w = headFn (validOf i) (qOf x0 h) (kOf x1 i h))
    (x : (Rect.unit (s := S16x256x513) off S1x256x513.size inb).shape.Idx) :
    w x = scratchOf i x0 x1 ((Rect.unit (s := S16x256x513) off S1x256x513.size inb).emb x) := by
  subst hoff hw
  have h0 : (x 0).val < 1 := (x 0).isLt
  have e0 : (Rect.unit (s := S16x256x513) ![h.val, 0, 0] S1x256x513.size inb).emb x 0 = h :=
    Fin.ext (by show h.val + 1 * (x 0).val = h.val; omega)
  unfold scratchOf
  rw [e0]
  refine congrArg (headFn (validOf i) (qOf x0 h) (kOf x1 i h)) (funext fun a => Fin.ext ?_)
  match a with
  | ⟨0, _⟩ => show (x 0).val = 0; omega
  | ⟨1, _⟩ => show (x 1).val = 0 + 1 * (x 1).val; omega
  | ⟨2, _⟩ => show (x 2).val = 0 + 1 * (x 2).val; omega

/-- ENTRY (0, x, h, c) OF THE OUTPUT BLOCK is entry (x, c) of head `h`, computed from slab `h` of the query block
    and the 768 rows of slab `h` of the key block around the chunk. -/
theorem out_apply (c : Dev nD) (i : grid0.Coords) (arg2 : Memref sig .tc .vmem S16x256x64 .f32) (harg2 : arg2.IsWhole) (arg3 : Memref sig .tc .vmem S16x4608x64 .f32) (harg3 : arg3.IsWhole) (arg4 : Memref sig .tc .vmem S1x256x16x513 .f32) (harg4 : arg4.IsWhole) (arg5 : Memref sig .tc .vmem S16x256x513 .f32) (harg5 : arg5.IsWhole)
    (x0 : Vec F S16x256x64 .f32) (x1 : Vec F S16x4608x64 .f32) (u : Fin 1) (x : Fin 256) (h : Fin 16) (cc : Fin 513) :
    out0_A_2 c i arg2 harg2 arg3 harg3 arg4 harg4 arg5 harg5 x0 x1 (ix4 u x h cc)
      = headFn (validOf i) (qOf x0 h) (kOf x1 i h) (ix3 (0 : Fin 1) x cc) := by
  rw [out_eq]
  unfold k0_pay1 k0_pay89
  rw [shapeCast_abc_1abc_apply, transpose_apply [1, 0, 2] _ transposes_S16x256x513_p1_0_2_S256x16x513 (ix3 x h cc) (ix3 h x cc)
    (fun b => match b with | ⟨0, _⟩ => rfl | ⟨1, _⟩ => rfl | ⟨2, _⟩ => rfl)]
  rw [View.readCov_eq_canon']
  have hidx : (Rect.unit (s := S16x256x513) ![0, 0, 0] S16x256x513.size inb_S16x256x513_S16x256x513_0_0_0).toLoadRect.idx (ix3 h x cc) = ix3 h x cc :=
    funext fun a => Fin.ext (by
      match a with
      | ⟨0, _⟩ => show 0 + 1 * h.val = h.val; omega
      | ⟨1, _⟩ => show 0 + 1 * x.val = x.val; omega
      | ⟨2, _⟩ => show 0 + 1 * cc.val = cc.val; omega)
  show View.canon (pieces i arg2 harg2 arg3 harg3 x0 x1) (_ ) = _
  rw [hidx, View.canon_apply_of_pieces (scratchOf i x0 x1) (pieces i arg2 harg2 arg3 harg3 x0 x1) ?agree (ix3 h x cc)
    (View.cover_of_tiledL (pieces i arg2 harg2 arg3 harg3 x0 x1) S1x256x513.size (by sl_kernel_rfl) (ix3 h x cc))]
  case agree =>
    intro p hp
    simp only [pieces, List.mem_cons, List.not_mem_nil, or_false] at hp
    rcases hp with rfl | rfl | rfl | rfl | rfl | rfl | rfl | rfl | rfl | rfl | rfl | rfl | rfl | rfl | rfl | rfl
    · exact piece_agrees i x0 x1 (15 : Fin 16) _ rfl inb_S16x256x513_S1x256x513_15_0_0 _ (congrArg₂ (headFn (validOf i)) (readAt_q arg2 harg2 x0 (15 : Fin 16) _ rfl _) (readAt_k arg3 harg3 x1 i (15 : Fin 16) _ (k0_off16_eq i) _))
    · exact piece_agrees i x0 x1 (14 : Fin 16) _ rfl inb_S16x256x513_S1x256x513_14_0_0 _ (congrArg₂ (headFn (validOf i)) (readAt_q arg2 harg2 x0 (14 : Fin 16) _ rfl _) (readAt_k arg3 harg3 x1 i (14 : Fin 16) _ (k0_off15_eq i) _))
    · exact piece_agrees i x0 x1 (13 : Fin 16) _ rfl inb_S16x256x513_S1x256x513_13_0_0 _ (congrArg₂ (headFn (validOf i)) (readAt_q arg2 harg2 x0 (13 : Fin 16) _ rfl _) (readAt_k arg3 harg3 x1 i (13 : Fin 16) _ (k0_off14_eq i) _))
    · exact piece_agrees i x0 x1 (12 : Fin 16) _ rfl inb_S16x256x513_S1x256x513_12_0_0 _ (congrArg₂ (headFn (validOf i)) (readAt_q arg2 harg2 x0 (12 : Fin 16) _ rfl _) (readAt_k arg3 harg3 x1 i (12 : Fin 16) _ (k0_off13_eq i) _))
    · exact piece_agrees i x0 x1 (11 : Fin 16) _ rfl inb_S16x256x513_S1x256x513_11_0_0 _ (congrArg₂ (headFn (validOf i)) (readAt_q arg2 harg2 x0 (11 : Fin 16) _ rfl _) (readAt_k arg3 harg3 x1 i (11 : Fin 16) _ (k0_off12_eq i) _))
    · exact piece_agrees i x0 x1 (10 : Fin 16) _ rfl inb_S16x256x513_S1x256x513_10_0_0 _ (congrArg₂ (headFn (validOf i)) (readAt_q arg2 harg2 x0 (10 : Fin 16) _ rfl _) (readAt_k arg3 harg3 x1 i (10 : Fin 16) _ (k0_off11_eq i) _))
    · exact piece_agrees i x0 x1 (9 : Fin 16) _ rfl inb_S16x256x513_S1x256x513_9_0_0 _ (congrArg₂ (headFn (validOf i)) (readAt_q arg2 harg2 x0 (9 : Fin 16) _ rfl _) (readAt_k arg3 harg3 x1 i (9 : Fin 16) _ (k0_off10_eq i) _))
    · exact piece_agrees i x0 x1 (8 : Fin 16) _ rfl inb_S16x256x513_S1x256x513_8_0_0 _ (congrArg₂ (headFn (validOf i)) (readAt_q arg2 harg2 x0 (8 : Fin 16) _ rfl _) (readAt_k arg3 harg3 x1 i (8 : Fin 16) _ (k0_off9_eq i) _))
    · exact piece_agrees i x0 x1 (7 : Fin 16) _ rfl inb_S16x256x513_S1x256x513_7_0_0 _ (congrArg₂ (headFn (validOf i)) (readAt_q arg2 harg2 x0 (7 : Fin 16) _ rfl _) (readAt_k arg3 harg3 x1 i (7 : Fin 16) _ (k0_off8_eq i) _))
    · exact piece_agrees i x0 x1 (6 : Fin 16) _ rfl inb_S16x256x513_S1x256x513_6_0_0 _ (congrArg₂ (headFn (validOf i)) (readAt_q arg2 harg2 x0 (6 : Fin 16) _ rfl _) (readAt_k arg3 harg3 x1 i (6 : Fin 16) _ (k0_off7_eq i) _))
    · exact piece_agrees i x0 x1 (5 : Fin 16) _ rfl inb_S16x256x513_S1x256x513_5_0_0 _ (congrArg₂ (headFn (validOf i)) (readAt_q arg2 harg2 x0 (5 : Fin 16) _ rfl _) (readAt_k arg3 harg3 x1 i (5 : Fin 16) _ (k0_off6_eq i) _))
    · exact piece_agrees i x0 x1 (4 : Fin 16) _ rfl inb_S16x256x513_S1x256x513_4_0_0 _ (congrArg₂ (headFn (validOf i)) (readAt_q arg2 harg2 x0 (4 : Fin 16) _ rfl _) (readAt_k arg3 harg3 x1 i (4 : Fin 16) _ (k0_off5_eq i) _))
    · exact piece_agrees i x0 x1 (3 : Fin 16) _ rfl inb_S16x256x513_S1x256x513_3_0_0 _ (congrArg₂ (headFn (validOf i)) (readAt_q arg2 harg2 x0 (3 : Fin 16) _ rfl _) (readAt_k arg3 harg3 x1 i (3 : Fin 16) _ (k0_off4_eq i) _))
    · exact piece_agrees i x0 x1 (2 : Fin 16) _ rfl inb_S16x256x513_S1x256x513_2_0_0 _ (congrArg₂ (headFn (validOf i)) (readAt_q arg2 harg2 x0 (2 : Fin 16) _ rfl _) (readAt_k arg3 harg3 x1 i (2 : Fin 16) _ (k0_off3_eq i) _))
    · exact piece_agrees i x0 x1 (1 : Fin 16) _ rfl inb_S16x256x513_S1x256x513_1_0_0 _ (congrArg₂ (headFn (validOf i)) (readAt_q arg2 harg2 x0 (1 : Fin 16) _ rfl _) (readAt_k arg3 harg3 x1 i (1 : Fin 16) _ (k0_off2_eq i) _))
    · exact piece_agrees i x0 x1 (0 : Fin 16) _ rfl inb_S16x256x513_S1x256x513_0_0_0 _ (congrArg₂ (headFn (validOf i)) (readAt_q arg2 harg2 x0 (0 : Fin 16) _ rfl _) (readAt_k arg3 harg3 x1 i (0 : Fin 16) _ (k0_off1_eq i) _))
  · rfl

end Cert.KernelIdeal.Block

end
-- ==== Proof.HeadShift.lean ====
/-
  The shifter and the mask, entry by entry.  Both are statements about whole numbers: row `x` below 256 is the
  sum of its binary digits' weights, and round `j` of the shifter adds weight `2^j` to the column exactly when
  digit `j` of `x` is set; the mask compares `256·ii + x + c − 256` with 0 and with 4096 as signed 32-bit words,
  none of which wraps.
-/
import proofs.«419505_j10230612099674_4_alg».proof.Proof.Head
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Head

open Idealize.ShloMosaic Idealize.ShloMosaic.ValueIdx Cert.KernelIdeal
open Cert.KernelIdeal.Facts₀ Cert.KernelIdeal.Facts

variable [Cert.KernelIdeal.Facts]

/-- The round's test on row number `x`: digit `bit` of `x`, shifted down and masked, is 1. -/
def digitSet (bit : BitVec 32) (x : Fin 256) : Prop :=
  IntOp.cmpi .eq (IntOp.andi (IntOp.shrsi .vector (BitVec.ofNat 32 x.val) bit) 1#32) 1#32 = 1#1

instance (bit : BitVec 32) (x : Fin 256) : Decidable (digitSet bit x) :=
  inferInstanceAs (Decidable (_ = _))

/-- The table with row `x` turned to the left by `a x` places. -/
def turned {F : FTy → Type} (s : FVec F S256x768 .f32) (a : Fin 256 → Nat) : FVec F S256x768 .f32 :=
  fun j => s (ix2 (j 0) ⟨((j 1).val + a (j 0)) % 768, Nat.mod_lt _ (by decide)⟩)

theorem turned_apply {F : FTy → Type} (s : FVec F S256x768 .f32) (a : Fin 256 → Nat) (x : Fin 256) (y : Fin 768) :
    turned s a (ix2 x y) = s (ix2 x ⟨(y.val + a x) % 768, Nat.mod_lt _ (by decide)⟩) := rfl

/-- Turning no row leaves the table as it is. -/
theorem turned_zero {F : FTy → Type} (s : FVec F S256x768 .f32) : turned s (fun _ => 0) = s := by
  funext j
  obtain ⟨x, y, rfl⟩ : ∃ x y, j = ix2 x y := ⟨j 0, j 1, eq_ix2 j⟩
  rw [turned_apply]
  refine congrArg s (congrArg (ix2 x) (Fin.ext ?_))
  show (y.val + 0) % 768 = y.val
  exact Nat.mod_eq_of_lt y.isLt

/-- One round at an entry: the entry `768 − amt` places to the right (around the end) in the rows whose digit is
    set, the entry itself in the others. -/
theorem shiftRound_apply {F : FTy → Type} [FloatOps F] [Named F] (bit amt : BitVec 32) (cur : FVec F S256x768 .f32)
    (x : Fin 256) (y : Fin 768) :
    shiftRound bit amt cur (ix2 x y) =
      if digitSet bit x then cur (ix2 x ⟨(y.val + 768 - amt.toNat % 768) % 768, Nat.mod_lt _ (by decide)⟩)
      else cur (ix2 x y) := by
  unfold shiftRound
  rw [select_apply]
  rw [dynamicRotate_apply 1 amt cur rotates_S256x768_d1 (ix2 x y)
    (ix2 x ⟨(y.val + 768 - amt.toNat % 768) % 768, Nat.mod_lt _ (by decide)⟩) (by
      intro b; fin_cases b <;> first | rfl | simp [ix2])]
  have hio : rowIota (ix2 x y) = BitVec.ofNat 32 x.val := by
    unfold rowIota; rw [iota_single_apply]
  show Scalar.select (IntOp.cmpi .eq (IntOp.andi (IntOp.shrsi .vector (rowIota (ix2 x y)) bit) 1#32) 1#32) _ _ = _
  rw [hio]
  unfold Scalar.select
  exact if_congr Iff.rfl rfl rfl

/-- One round on a turned table: the rows whose digit is set are turned by `w = 768 − amt` more places. -/
theorem shiftRound_turned {F : FTy → Type} [FloatOps F] [Named F] (bit amt : BitVec 32) (w : Nat) (hw : w ≤ 768)
    (hamt : amt.toNat = 768 - w) (s : FVec F S256x768 .f32) (a : Fin 256 → Nat) :
    shiftRound bit amt (turned s a) = turned s (fun x => a x + if digitSet bit x then w else 0) := by
  funext j
  obtain ⟨x, y, rfl⟩ : ∃ x y, j = ix2 x y := ⟨j 0, j 1, eq_ix2 j⟩
  rw [shiftRound_apply]
  simp only [turned_apply]
  have hy := y.isLt
  by_cases h : digitSet bit x
  · rw [if_pos h, if_pos h]
    refine congrArg s (congrArg (ix2 x) (Fin.ext ?_))
    show ((y.val + 768 - amt.toNat % 768) % 768 + a x) % 768 = (y.val + (a x + w)) % 768
    rw [hamt]
    omega
  · rw [if_neg h, if_neg h]
    rfl

/-- A row number below 256 is the sum of the weights of its set digits. -/
theorem digits_sum : ∀ x : Fin 256,
    0 + (if digitSet 0#32 x then 1 else 0) + (if digitSet 1#32 x then 2 else 0) + (if digitSet 2#32 x then 4 else 0)
      + (if digitSet 3#32 x then 8 else 0) + (if digitSet 4#32 x then 16 else 0) + (if digitSet 5#32 x then 32 else 0)
      + (if digitSet 6#32 x then 64 else 0) + (if digitSet 7#32 x then 128 else 0) = x.val := by
  decide +kernel

/-- After the eight rounds, column `y` of row `x` holds the table's entry (x, (y + x) mod 768): row `x` turned
    to the left by `x`.  (At any float family: the rounds move entries and compute nothing.) -/
theorem shifted_apply {F : FTy → Type} [FloatOps F] [Named F] (s : FVec F S256x768 .f32) (x : Fin 256) (y : Fin 768) :
    shifted s (ix2 x y) = s (ix2 x ⟨(y.val + x.val) % 768, Nat.mod_lt _ (by decide)⟩) := by
  have h0 : shifted s = shifted (turned s (fun _ => 0)) := by rw [turned_zero]
  rw [h0]
  unfold shifted
  rw [shiftRound_turned 0#32 767#32 1 (by decide) (by decide), shiftRound_turned 1#32 766#32 2 (by decide) (by decide),
    shiftRound_turned 2#32 764#32 4 (by decide) (by decide), shiftRound_turned 3#32 760#32 8 (by decide) (by decide),
    shiftRound_turned 4#32 752#32 16 (by decide) (by decide), shiftRound_turned 5#32 736#32 32 (by decide) (by decide),
    shiftRound_turned 6#32 704#32 64 (by decide) (by decide), shiftRound_turned 7#32 640#32 128 (by decide) (by decide)]
  rw [turned_apply]
  refine congrArg s (congrArg (ix2 x) (Fin.ext ?_))
  show (y.val + (0 + (if digitSet 0#32 x then 1 else 0) + (if digitSet 1#32 x then 2 else 0) + (if digitSet 2#32 x then 4 else 0)
      + (if digitSet 3#32 x then 8 else 0) + (if digitSet 4#32 x then 16 else 0) + (if digitSet 5#32 x then 32 else 0)
      + (if digitSet 6#32 x then 64 else 0) + (if digitSet 7#32 x then 128 else 0))) % 768 = (y.val + x.val) % 768
  rw [digits_sum x]

/-- The mask of the chunk at grid point `i` is set at (x, c) exactly where padded key row `256·ii + x + c` is a
    row of the sequence. -/
theorem validOf_apply (i : grid0.Coords) (x : Fin 256) (c : Fin 513) :
    validOf i (ix2 x c) = 1#1 ↔ Cert.Spec.inWindow (256 * (i 1).val + x.val) c.val := by
  have hi : (i 1).val < 16 := (i 1).isLt
  have hx := x.isLt
  have hc := c.isLt
  have hval : validOf i (ix2 x c) =
      IntOp.andi
        (IntOp.cmpi .sge (BitVec.ofNat 32 (i 1).val * 256#32 + BitVec.ofNat 32 x.val + BitVec.ofNat 32 c.val - 256#32) 0#32)
        (IntOp.cmpi .slt (BitVec.ofNat 32 (i 1).val * 256#32 + BitVec.ofNat 32 x.val + BitVec.ofNat 32 c.val - 256#32)
          4096#32) := by
    have e0 : iota .tc S256x513 32 [0] iota_S256x513_d0_w32 (ix2 x c) = BitVec.ofNat 32 x.val := by
      rw [iota_single_apply]
    have e1 : iota .tc S256x513 32 [1] iota_S256x513_d1_w32 (ix2 x c) = BitVec.ofNat 32 c.val := by
      rw [iota_single_apply]
    unfold validOf
    simp only [andi, cmpi, subi, addi, broadcast_apply]
    rw [e0, e1]
    rfl
  rw [hval]
  generalize hw : (BitVec.ofNat 32 (i 1).val * 256#32 + BitVec.ofNat 32 x.val + BitVec.ofNat 32 c.val - 256#32) = w
  have hwn : w.toNat = (256 * (i 1).val + x.val + c.val + 4294967040) % 4294967296 := by
    rw [← hw]
    simp only [BitVec.toNat_sub, BitVec.toNat_add, BitVec.toNat_mul, BitVec.toNat_ofNat]
    omega
  have hwi : w.toInt = (256 * (i 1).val + x.val + c.val : Int) - 256 := by
    rw [BitVec.toInt_eq_toNat_cond, hwn]
    split <;> omega
  have key : ∀ p q : Bool, IntOp.andi (BitVec.ofBool p) (BitVec.ofBool q) = 1#1 ↔ (p = true ∧ q = true) := by
    intro p q; cases p <;> cases q <;> decide
  have h0 : (0#32 : BitVec 32).toInt = 0 := by decide
  have h4 : (4096#32 : BitVec 32).toInt = 4096 := by decide
  show IntOp.andi (BitVec.ofBool ((0#32 : BitVec 32).sle w)) (BitVec.ofBool (w.slt 4096#32)) = 1#1 ↔ _
  rw [key]
  simp only [BitVec.sle, BitVec.slt, decide_eq_true_eq, h0, h4, hwi]
  unfold Cert.Spec.inWindow
  omega

end Cert.KernelIdeal.Head

end
-- ==== Proof.HeadSoftmax.lean ====
/-
  The scores and the softmax of one head, entry by entry, at the ideal values: a score is the sum over the 64
  coordinates of the products; the block's entry (x, c) is the softmax of row `x`'s first 513 columns, with −∞
  (the named constant's ideal value) where the mask is clear.
-/
import proofs.«419505_j10230612099674_4_alg».proof.Proof.Head
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Head

open Idealize.ShloMosaic Idealize.ShloMosaic.ValueIdx Cert.KernelIdeal
open Cert.KernelIdeal.Facts₀ Cert.KernelIdeal.Facts

variable [Cert.KernelIdeal.Facts]

/-- The left index of the scores' contraction: the row on axis 0. -/
private theorem scores_lhs_0 (i : S256x768.Idx) (q : dot_S256x64_S768x64_S256x768_1_1_0_0_n_n.contr.Idx) :
    (dot_S256x64_S768x64_S256x768_1_1_0_0_n_n.lhsIdx i q 0).val = (i 0).val := by
  unfold DotDims.lhsIdx
  rw [dif_neg (show ¬(0 : Fin S256x64.rank) ∈ dot_S256x64_S768x64_S256x768_1_1_0_0_n_n.lhsBatch by show ¬(0 : Fin 2) ∈ ([] : List (Fin 2)); decide), dif_pos (show (0 : Fin S256x64.rank) ∈ dot_S256x64_S768x64_S256x768_1_1_0_0_n_n.lhsNonContracting by show (0 : Fin 2) ∈ ([0] : List (Fin 2)); decide)]
  rfl
/-- … and the contracted coordinate on axis 1. -/
private theorem scores_lhs_1 (i : S256x768.Idx) (q : dot_S256x64_S768x64_S256x768_1_1_0_0_n_n.contr.Idx) :
    (dot_S256x64_S768x64_S256x768_1_1_0_0_n_n.lhsIdx i q 1).val = (q ⟨0, by show 0 < 1; decide⟩).val :=
  dot_S256x64_S768x64_S256x768_1_1_0_0_n_n.lhsIdx_val_of_single rfl i q
/-- The right index: the column on axis 0. -/
private theorem scores_rhs_0 (i : S256x768.Idx) (q : dot_S256x64_S768x64_S256x768_1_1_0_0_n_n.contr.Idx) :
    (dot_S256x64_S768x64_S256x768_1_1_0_0_n_n.rhsIdx i q 0).val = (i 1).val := by
  unfold DotDims.rhsIdx
  rw [dif_neg (show ¬(0 : Fin S768x64.rank) ∈ dot_S256x64_S768x64_S256x768_1_1_0_0_n_n.rhsBatch by show ¬(0 : Fin 2) ∈ ([] : List (Fin 2)); decide), dif_pos (show (0 : Fin S768x64.rank) ∈ dot_S256x64_S768x64_S256x768_1_1_0_0_n_n.rhsNonContracting by show (0 : Fin 2) ∈ ([0] : List (Fin 2)); decide)]
  rfl
/-- … and the contracted coordinate on axis 1. -/
private theorem scores_rhs_1 (i : S256x768.Idx) (q : dot_S256x64_S768x64_S256x768_1_1_0_0_n_n.contr.Idx) :
    (dot_S256x64_S768x64_S256x768_1_1_0_0_n_n.rhsIdx i q 1).val = (q ⟨0, by show 0 < 1; decide⟩).val :=
  dot_S256x64_S768x64_S256x768_1_1_0_0_n_n.rhsIdx_val_of_single rfl i q

/-- The inserted index over row `x` with column `k` is the entry (x, k). -/
private theorem lift_row (x : Fin 256) (k : Fin 513) :
    reduces_S256x513_S256.lift (a := (1 : Fin S256x513.rank)) (ix1 x) k = ix2 x k := funext fun a => Fin.ext (by
  match a with
  | ⟨0, _⟩ => rfl
  | ⟨1, _⟩ => rfl)

/-- A row's value kept as a one-column table and spread over the 513 columns reads the row's value. -/
private theorem keepdims_apply (r : FVec Ideal S256 .f32) (x : Fin 256) (c : Fin 513) :
    broadcastTo S256x513 (shapeCast S256x1 r shapeCasts_S256_S256x1) broadcasts_S256x1_S256x513 (ix2 x c) = r (ix1 x) := by
  rw [broadcastTo_apply _ broadcasts_S256x1_S256x513 (ix2 x c) (ix2 x (0 : Fin 1)) (fun a => by
    match a with
    | ⟨0, _⟩ => show x.val = if (256 : Nat) = 1 then 0 else x.val; rw [if_neg (by decide)]
    | ⟨1, _⟩ => show (0 : Nat) = if (1 : Nat) = 1 then 0 else c.val; rw [if_pos rfl])]
  exact shapeCast_apply r shapeCasts_S256_S256x1 _ _ (by
    rw [Shape.rowMajor_val_two, Shape.rowMajor_val_one]
    show x.val = x.val * 1 + 0
    omega)

/-- The named constant is −∞ at the ideal values. -/
private theorem neg_big_eq : Named.named (F := Ideal) κ "neg_big" (φ := .f32) 0xFF333332#32 = (⊥ : EReal) :=
  IdealRules.named_const.ideal_named_scalar _ _ _ _ rfl

/-- The masked table at (x, c'). -/
private theorem masked_apply (valid : IVec S256x513 1) (cur : FVec Ideal S256x768 .f32) (x : Fin 256) (c' : Fin 513) :
    select valid (extractStridedSlice S256x513 ![0, 0] cur slices_S256x768_o0_0_S256x513)
        (broadcast S256x513 (Named.named (F := Ideal) κ "neg_big" (φ := .f32) 0xFF333332#32)) (ix2 x c')
      = if valid (ix2 x c') = 1#1 then cur (ix2 x ⟨c'.val, by have := c'.isLt; omega⟩) else (⊥ : EReal) := by
  rw [select_apply, broadcast_apply, neg_big_eq,
    slice2_axis1_apply 0 cur slices_S256x768_o0_0_S256x513 x c' ⟨c'.val, by have := c'.isLt; omega⟩ (by show c'.val = 0 + c'.val; omega)]
  rfl

/-- A row's maximum, taken from −∞. -/
private theorem rowMax_apply (v : FVec Ideal S256x513 .f32) (x : Fin 256) :
    (multiReduction (F := Ideal) .maximumf [1] S256 v 0xFF800000#32 reduces_S256x513_S256 (.inl rfl) rfl) (ix1 x) = Cert.Spec.rowMax (fun c' : Fin 513 => v (ix2 x c')) := by
  refine (Ideal.multiReduction_maximumf_single v 0xFF800000#32 reduces_S256x513_S256 (.inl rfl) rfl (ix1 x)).trans ?_
  unfold Cert.Spec.rowMax
  have e : (v ∘ reduces_S256x513_S256.lift (a := (1 : Fin S256x513.rank)) (ix1 x)) = fun c' : Fin 513 => v (ix2 x c') :=
    funext fun k => congrArg v (lift_row x k)
  exact congrArg₂ (fun (a : EReal) (f : Fin 513 → EReal) => (Finset.univ : Finset (Fin 513)).fold max a f) Cert.Spec.ofBits_neg_inf e

/-- A row's sum. -/
private theorem rowSum_apply (v : FVec Ideal S256x513 .f32) (x : Fin 256) :
    (multiReduction (F := Ideal) .add [1] S256 v 0x00000000#32 reduces_S256x513_S256 (.inl rfl) rfl) (ix1 x) = ∑ c' : Fin 513, v (ix2 x c') := by
  refine (Ideal.multiReduction_add_single v 0x00000000#32 reduces_S256x513_S256 (.inl rfl) rfl (ix1 x)).trans ?_
  exact Finset.sum_congr rfl fun k _ => congrArg v (lift_row x k)

/-- The exponential of an entry less its row's maximum. -/
private theorem expRow_apply (v : FVec Ideal S256x513 .f32) (x : Fin 256) (c' : Fin 513) :
    (exp (subf v (broadcastTo S256x513 (shapeCast S256x1 (multiReduction (F := Ideal) .maximumf [1] S256 v 0xFF800000#32 reduces_S256x513_S256 (.inl rfl) rfl) shapeCasts_S256_S256x1) broadcasts_S256x1_S256x513))) (ix2 x c') = Ideal.exp (v (ix2 x c') - Cert.Spec.rowMax (fun c'' : Fin 513 => v (ix2 x c''))) := by
  show Ideal.exp (subf v (broadcastTo S256x513 (shapeCast S256x1 (multiReduction (F := Ideal) .maximumf [1] S256 v 0xFF800000#32 reduces_S256x513_S256 (.inl rfl) rfl) shapeCasts_S256_S256x1) broadcasts_S256x1_S256x513) (ix2 x c')) = _
  rw [subf_apply, keepdims_apply, rowMax_apply]

/-- The softmax of a table's row, as the operations compute it. -/
private theorem softmax_apply (v : FVec Ideal S256x513 .f32) (x : Fin 256) (c : Fin 513) :
    divf (exp (subf v (broadcastTo S256x513 (shapeCast S256x1 (multiReduction (F := Ideal) .maximumf [1] S256 v 0xFF800000#32 reduces_S256x513_S256 (.inl rfl) rfl) shapeCasts_S256_S256x1) broadcasts_S256x1_S256x513))) (broadcastTo S256x513 (shapeCast S256x1 (multiReduction (F := Ideal) .add [1] S256 (exp (subf v (broadcastTo S256x513 (shapeCast S256x1 (multiReduction (F := Ideal) .maximumf [1] S256 v 0xFF800000#32 reduces_S256x513_S256 (.inl rfl) rfl) shapeCasts_S256_S256x1) broadcasts_S256x1_S256x513))) 0x00000000#32 reduces_S256x513_S256 (.inl rfl) rfl) shapeCasts_S256_S256x1) broadcasts_S256x1_S256x513) (ix2 x c)
      = Cert.Spec.softmaxRow (fun c' : Fin 513 => v (ix2 x c')) c := by
  rw [divf_apply, keepdims_apply, rowSum_apply, expRow_apply]
  unfold Cert.Spec.softmaxRow
  exact congrArg (Ideal.div _) (Finset.sum_congr rfl fun c' _ => expRow_apply v x c')

/-- Score (x, y): query row `x` against key row `y`, summed over the 64 coordinates. -/
theorem scoresOf_apply (q : Vec Ideal S1x256x64 .f32) (k : Vec Ideal S1x768x64 .f32) (x : Fin 256) (y : Fin 768) :
    scoresOf (F := Ideal) q k (ix2 x y) = ∑ d : Fin 64, q (ix3 (0 : Fin 1) x d) * k (ix3 (0 : Fin 1) y d) := by
  unfold scoresOf
  show FloatOps.matmul dot_S256x64_S768x64_S256x768_1_1_0_0_n_n none _ _ (constant S256x768 .f32 0x00000000#32) (ix2 x y) = _
  rw [Ideal.matmul_constant_zero_apply, ← Equiv.sum_comp (ValueIdx.contrEquiv1 dot_S256x64_S768x64_S256x768_1_1_0_0_n_n 64 rfl rfl).symm]
  refine Finset.sum_congr rfl fun d _ => ?_
  have hk := ValueIdx.contrEquiv1_symm_val dot_S256x64_S768x64_S256x768_1_1_0_0_n_n 64 rfl rfl d
  have el : dot_S256x64_S768x64_S256x768_1_1_0_0_n_n.lhsIdx (ix2 x y) ((ValueIdx.contrEquiv1 dot_S256x64_S768x64_S256x768_1_1_0_0_n_n 64 rfl rfl).symm d) = ix2 x d := funext fun a => Fin.ext (by
    match a with
    | ⟨0, _⟩ => exact scores_lhs_0 _ _
    | ⟨1, _⟩ => exact (scores_lhs_1 _ _).trans hk)
  have er : dot_S256x64_S768x64_S256x768_1_1_0_0_n_n.rhsIdx (ix2 x y) ((ValueIdx.contrEquiv1 dot_S256x64_S768x64_S256x768_1_1_0_0_n_n 64 rfl rfl).symm d) = ix2 y d := funext fun a => Fin.ext (by
    match a with
    | ⟨0, _⟩ => exact scores_rhs_0 _ _
    | ⟨1, _⟩ => exact (scores_rhs_1 _ _).trans hk)
  rw [el, er, shapeCast_1ab_ab_apply, shapeCast_1ab_ab_apply]

/-- Entry (x, c) of the head's block: the softmax at offset `c` of row `x`'s first 513 columns of `cur`,
    masked to −∞ where `valid` is clear. -/
theorem softmaxBlock_apply (valid : IVec S256x513 1) (cur : FVec Ideal S256x768 .f32) (x : Fin 256) (c : Fin 513) :
    softmaxBlock (F := Ideal) valid cur (ix3 (0 : Fin 1) x c)
      = Cert.Spec.softmaxRow (fun c' : Fin 513 =>
          if valid (ix2 x c') = 1#1 then cur (ix2 x ⟨c'.val, by have := c'.isLt; omega⟩) else (⊥ : EReal)) c := by
  unfold softmaxBlock
  simp only []
  rw [shapeCast_ab_1ab_apply, softmax_apply]
  exact congrArg (fun r => Cert.Spec.softmaxRow r c) (funext fun c' => masked_apply valid cur x c')

end Cert.KernelIdeal.Head

end
-- ==== Proof.HeadValue.lean ====
/-
  One head at an entry: the softmax, over the 513 offsets, of the scores of query row `x` against key rows
  `x + c'` — the shifter has brought score (x, x + c') to column c' — with −∞ where the mask is clear.
-/
import proofs.«419505_j10230612099674_4_alg».proof.Proof.HeadShift
import proofs.«419505_j10230612099674_4_alg».proof.Proof.HeadSoftmax

noncomputable section

namespace Cert.KernelIdeal.Head

open Idealize.ShloMosaic Idealize.ShloMosaic.ValueIdx Cert.KernelIdeal

variable [Cert.KernelIdeal.Facts]

/-- Row `x`, offset `c` of a head's block is the softmax at `c` of the row of scores of query row `x` against
    key rows `x + c'`, masked to −∞ where `valid` is clear. -/
theorem headFn_apply (valid : IVec S256x513 1) (q : Vec Ideal S1x256x64 .f32) (k : Vec Ideal S1x768x64 .f32)
    (x : Fin 256) (c : Fin 513) :
    headFn (F := Ideal) valid q k (ix3 (0 : Fin 1) x c)
      = Cert.Spec.softmaxRow (fun c' : Fin 513 =>
          if valid (ix2 x c') = 1#1 then
            ∑ d : Fin 64, q (ix3 (0 : Fin 1) x d) * k (ix3 (0 : Fin 1) ⟨x.val + c'.val, by have := x.isLt; have := c'.isLt; omega⟩ d)
          else (⊥ : EReal)) c := by
  unfold headFn
  rw [softmaxBlock_apply]
  refine congrArg (fun v => Cert.Spec.softmaxRow v c) (funext fun c' => ?_)
  by_cases hv : valid (ix2 x c') = 1#1
  · rw [if_pos hv, if_pos hv, shifted_apply, scoresOf_apply]
    have hx := x.isLt
    have hc := c'.isLt
    have e : (⟨((⟨c'.val, by omega⟩ : Fin 768).val + x.val) % 768, Nat.mod_lt _ (by decide)⟩ : Fin 768)
        = ⟨x.val + c'.val, by omega⟩ := Fin.ext (by show (c'.val + x.val) % 768 = x.val + c'.val; omega)
    rw [e]
  · rw [if_neg hv, if_neg hv]

end Cert.KernelIdeal.Head

end
-- ==== Proof.KernelValue.lean ====
/-
  The kernel's result array.  Grid point (b, ii) reads slabs `16·b … 16·b + 15` of the planes, rows
  `256·ii … 256·ii + 255` (its query block) and the same slabs of the padded planes whole (its key block), and
  writes rows `256·ii … 256·ii + 255` of batch `b` of the result.  Entry (x, h, c) of what it writes is entry
  (x, c) of head `h`, which is the softmax of the banded scores of plane `16·b + h`, row `256·ii + x`: the
  attention probabilities of the planes and padded planes as the region finds them.  The 32 points' blocks
  cover the result.
-/
import proofs.«419505_j10230612099674_4_alg».proof.Proof.Gen.KernelIdeal.Value
import proofs.«419505_j10230612099674_4_alg».proof.Proof.Block
import proofs.«419505_j10230612099674_4_alg».proof.Proof.HeadValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Head Cert.KernelIdeal.Block Cert.KernelIdeal.Value

variable (m : (ℓ : Loc nD τ sig) → Buf (Elt Ideal) ℓ) (ρ : Dev nD → PrngReg)

/-- The planes as the region finds them: the argument with its head axis moved behind the row axis, read as
    32 planes. -/
theorem V_main_v1 (c : Dev nD) :
    (V m c main_v1 : S32x4096x64.Idx → EReal)
      = shapeCast S32x4096x64 (transpose S2x4096x16x64 [0, 2, 1, 3] (m ((c : Thread nD τ).loc main_arg0)) transposes_S2x16x4096x64_S2x4096x16x64_0_2_1_3) shapeCasts_S2x4096x16x64_S32x4096x64 := by
  dsimp only [Gen.V]
  simp only [hostOps0, hostOps0_1, List.flatten_cons, List.flatten_nil, List.append_nil, List.cons_append, List.nil_append]
  after_results
  rfl

/-- The padded planes as the region finds them: 256 rows of the converted zero before and after each plane. -/
theorem V_main_v2 (c : Dev nD) :
    (V m c main_v2 : S32x4608x64.Idx → EReal)
      = pad S32x4608x64 ![0, 256, 0] ![0, 256, 0] ![0, 0, 0]
          (shapeCast S32x4096x64 (transpose S2x4096x16x64 [0, 2, 1, 3] (m ((c : Thread nD τ).loc main_arg0)) transposes_S2x16x4096x64_S2x4096x16x64_0_2_1_3) shapeCasts_S2x4096x16x64_S32x4096x64)
          (sitofp (F := Ideal) .f32 (constantI S_ 32 0#32)) pads_S32x4096x64_S32x4608x64_000_2562560_000 h_S_ := by
  dsimp only [Gen.V]
  simp only [hostOps0, hostOps0_1, List.flatten_cons, List.flatten_nil, List.append_nil, List.cons_append, List.nil_append]
  after_results
  rfl

/-- The planes and the padded planes the region finds, named. -/
abbrev planes (c : Dev nD) : FVec Ideal ⟨3, ![32, 4096, 64]⟩ .f32 := V m c main_v1
abbrev padded (c : Dev nD) : FVec Ideal ⟨3, ![32, 4608, 64]⟩ .f32 := V m c main_v2

/-- The printed index maps, decided over the 32 grid points: the query block moves with (b, ii), the key block with
    `b` alone, the result block with (b, ii). -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 4) = (grid0.coords t 0).val ∧ win0_2.index t (1 : Fin 4) = (grid0.coords t 1).val
    ∧ win0_2.index t (2 : Fin 4) = 0 ∧ win0_2.index t (3 : Fin 4) = 0 :=
  (by decide +kernel : ∀ t : Fin grid0.N, _)

/-- Every (batch, chunk) is some point's. -/
theorem idx_onto : ∀ (q0 : Fin 2) (q1 : Fin 16), ∃ t : Fin cfg0.N, win0_2.index t = ![q0.val, q1.val, 0, 0] :=
  (by decide +kernel : ∀ (q0 : Fin 2) (q1 : Fin 16), ∃ t : Fin grid0.N, win0_2.index t = ![q0.val, q1.val, 0, 0])

/-- Point `t`'s query block and key block, at their literal shapes. -/
abbrev qblk (c : Dev nD) (t : Fin cfg0.N) : Vec Ideal S16x256x64 .f32 := iblk m c 0 t
abbrev kblk (c : Dev nD) (t : Fin cfg0.N) : Vec Ideal S16x4608x64 .f32 := iblk m c 1 t

/-- Entry (h, x, d) of point `t`'s query block is the planes' entry (16·b + h, 256·ii + x, d). -/
theorem iblk0_apply (c : Dev nD) (t : Fin cfg0.N) (h : Fin 16) (x : Fin 256) (d : Fin 64) :
    qblk m c t (ix3 h x d)
      = planes m c (ix3 (Cert.Spec.plane ⟨(grid0.coords t 0).val, (grid0.coords t 0).isLt⟩ h)
          ⟨256 * (grid0.coords t 1).val + x.val, by have : (grid0.coords t 1).val < 16 := (grid0.coords t 1).isLt; have := x.isLt; omega⟩ d) := by
  obtain ⟨e0, e1, e2, -⟩ := idx_facts t
  show V m c main_v1 (((cfg0.win 0).blk t).view.emb (ix3 h x d)) = V m c main_v1 _
  refine congrArg (V m c main_v1) (funext fun a => Fin.ext ?_)
  match a with
  | ⟨0, _⟩ => show win0_0.index t (0 : Fin 3) * 16 + 1 * h.val = 16 * (grid0.coords t 0).val + h.val; omega
  | ⟨1, _⟩ => show win0_0.index t (1 : Fin 3) * 256 + 1 * x.val = 256 * (grid0.coords t 1).val + x.val; omega
  | ⟨2, _⟩ => show win0_0.index t (2 : Fin 3) * 64 + 1 * d.val = d.val; omega

/-- Entry (h, y, d) of point `t`'s key block is the padded planes' entry (16·b + h, y, d). -/
theorem iblk1_apply (c : Dev nD) (t : Fin cfg0.N) (h : Fin 16) (y : Fin 4608) (d : Fin 64) :
    kblk m c t (ix3 h y d)
      = padded m c (ix3 (Cert.Spec.plane ⟨(grid0.coords t 0).val, (grid0.coords t 0).isLt⟩ h) y d) := by
  obtain ⟨-, -, -, e0, e1, e2, -⟩ := idx_facts t
  show V m c main_v2 (((cfg0.win 1).blk t).view.emb (ix3 h y d)) = V m c main_v2 _
  refine congrArg (V m c main_v2) (funext fun a => Fin.ext ?_)
  match a with
  | ⟨0, _⟩ => show win0_1.index t (0 : Fin 3) * 16 + 1 * h.val = 16 * (grid0.coords t 0).val + h.val; omega
  | ⟨1, _⟩ => show win0_1.index t (1 : Fin 3) * 4608 + 1 * y.val = y.val; omega
  | ⟨2, _⟩ => show win0_1.index t (2 : Fin 3) * 64 + 1 * d.val = d.val; omega

/-- WHAT POINT `t` WRITES BACK is block `t` of the attention probabilities of the planes and padded planes. -/
theorem flushed_eq (c : Dev nD) (t : Fin cfg0.N) :
    (dats m 0 c).flushed 2 t = ((cfg0.win 2).blk t).view.read (Elt Ideal) (Cert.Spec.probs (planes m c) (padded m c)) := by
  rw [flushed2_A]
  obtain ⟨-, -, -, -, -, -, e0, e1, e2, e3⟩ := idx_facts t
  have hb : (grid0.coords t 0).val < 2 := (grid0.coords t 0).isLt
  have hi : (grid0.coords t 1).val < 16 := (grid0.coords t 1).isLt
  funext j
  obtain ⟨u, x, h, cc, rfl⟩ : ∃ (u : Fin 1) (x : Fin 256) (h : Fin 16) (cc : Fin 513), j = ix4 u x h cc :=
    ⟨j 0, j 1, j 2, j 3, eq_ix4 j⟩
  show out0_A_2 c (grid0.coords t) (ms0_0 t) (hs0_0 t) (ms0_1 t) (hs0_1 t) (ms0_2 t) (hs0_2 t) scM0_0 (Memref.isWhole_whole _) (iblk m c 0 t) (iblk m c 1 t) (ix4 u x h cc)
    = Cert.Spec.probs (planes m c) (padded m c) (((cfg0.win 2).blk t).view.emb (ix4 u x h cc))
  have hu : u.val = 0 := by have := u.isLt; omega
  have hemb : ((cfg0.win 2).blk t).view.emb (ix4 u x h cc)
      = ix4 (⟨(grid0.coords t 0).val, hb⟩ : Fin 2) (⟨256 * (grid0.coords t 1).val + x.val, by have := x.isLt; omega⟩ : Fin 4096) h cc :=
    funext fun a => Fin.ext (by
      match a with
      | ⟨0, _⟩ => show win0_2.index t (0 : Fin 4) * 1 + 1 * u.val = (grid0.coords t 0).val; omega
      | ⟨1, _⟩ => show win0_2.index t (1 : Fin 4) * 256 + 1 * x.val = 256 * (grid0.coords t 1).val + x.val; omega
      | ⟨2, _⟩ => show win0_2.index t (2 : Fin 4) * 16 + 1 * h.val = h.val; omega
      | ⟨3, _⟩ => show win0_2.index t (3 : Fin 4) * 513 + 1 * cc.val = cc.val; omega)
  rw [hemb, Cert.Spec.probs_apply, out_apply, headFn_apply]
  refine congrArg (fun v => Cert.Spec.softmaxRow v cc) (funext fun c' => ?_)
  unfold Cert.Spec.band
  refine if_congr (validOf_apply (grid0.coords t) x c') ?_ rfl
  refine Finset.sum_congr rfl fun d _ => ?_
  have hc' := c'.isLt
  have hx := x.isLt
  show (qblk m c t (ix3 h x d) : EReal) * kblk m c t (ix3 h ⟨256 * (grid0.coords t 1).val + (x.val + c'.val), by omega⟩ d) = _
  rw [iblk0_apply, iblk1_apply]
  have e : (⟨256 * (grid0.coords t 1).val + (x.val + c'.val), by omega⟩ : Fin 4608)
      = ⟨(⟨256 * (grid0.coords t 1).val + x.val, by omega⟩ : Fin 4096).val + c'.val, by show 256 * (grid0.coords t 1).val + x.val + c'.val < 4608; omega⟩ :=
    Fin.ext (by show 256 * (grid0.coords t 1).val + (x.val + c'.val) = 256 * (grid0.coords t 1).val + x.val + c'.val; omega)
  rw [e]

/-- An index of the result is in point `t`'s block iff each coordinate is in the block's range on its axis. -/
theorem mem_blk (t : Fin cfg0.N) (i : S2x4096x16x513.Idx) :
    i ∈ ((cfg0.win 2).blk t).view.set ↔ ∀ a : Fin 4, win0_2.index t a * S1x256x16x513.size a ≤ (i a).val ∧ (i a).val < win0_2.index t a * S1x256x16x513.size a + S1x256x16x513.size a := by
  show i ∈ ((View.whole main_v3).slice (win0_2.rect t)).set ↔ _
  rw [View.set_slice_whole, Rect.mem_set_unit]
  exact Iff.rfl

/-- Every index of the result is in some point's block: batch `i 0`, chunk `i 1 / 256`. -/
theorem cover (i : S2x4096x16x513.Idx) : ∃ t : Fin cfg0.N, (cfg0.win 2).flush t = true ∧ i ∈ ((cfg0.win 2).blk t).view.set := by
  have h0 : (i 0).val < 2 := (i 0).isLt
  have h1 : (i 1).val < 4096 := (i 1).isLt
  have h2 : (i 2).val < 16 := (i 2).isLt
  have h3 : (i 3).val < 513 := (i 3).isLt
  obtain ⟨t, ht⟩ := idx_onto ⟨(i 0).val, h0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 16 ≤ (i 2).val ∧ (i 2).val < win0_2.index t (2 : Fin 4) * 16 + 16; omega
  | ⟨3, _⟩ => show win0_2.index t (3 : Fin 4) * 513 ≤ (i 3).val ∧ (i 3).val < win0_2.index t (3 : Fin 4) * 513 + 513; omega

/-- THE RESULT ARRAY after the run: the attention probabilities of the planes and padded planes. -/
theorem final (c : Dev nD) : (dats m 0 c).arrAt 2 cfg0.N = Cert.Spec.probs (planes m c) (padded m c) :=
  (dats m 0 c).arrAt_eq_of_cover 2 (Cert.Spec.probs (planes m c) (padded m c)) (fun t _ => flushed_eq m c t) (cover)

/-- The kernel's run, read: the result at the attention probabilities, the argument unchanged. -/
theorem run : θ_run defs (onTc (τ := τ) (main (F := Ideal))) ⟨m, fun _ => 0, ρ⟩ fun r => ∀ c : Dev nD,
      r.2.mem ((c : Thread nD τ).loc main_v3) = Cert.Spec.probs (planes m c) (padded m c)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KValue

end
-- ==== Proof.RefSoftmax.lean ====
/-
  The reference's last twelve operations are a softmax along the last axis: the row's maximum (a reduce from −∞,
  then once more the maximum with −∞), the exponentials of the differences, their sum from zero, the quotient.
-/
import proofs.«419505_j10230612099674_4_alg».proof.Proof.RefRead
import proofs.«419505_j10230612099674_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.ReadCopy

/-- Row `i` with offset `k` put back on the last axis, by its coordinates. -/
theorem lift_d3 (hR : S2x4096x16x513.Reduces [3] S2x4096x16) (i : S2x4096x16.Idx) (k : Fin 513) :
    hR.lift i k = idx_main_v56 i k :=
  funext fun a => Fin.ext (by match a with | ⟨0, _⟩ => rfl | ⟨1, _⟩ => rfl | ⟨2, _⟩ => rfl | ⟨3, _⟩ => rfl)

/-- The reduce with `max` from −∞ over the last axis, at row `i`: the largest of the row's 513 entries, from −∞. -/
theorem reduce_max_row (y : (⟨S2x4096x16x513, .f32⟩ : BufTy).Contents (Elt Ideal)) (i : S2x4096x16.Idx) :
    Host.reduce (FloatOps.maximumf (F := Ideal) (φ := .f32)) y (val_main_cst_6 (F := Ideal))
        Gen.reducesTo_S2x4096x16x513_S2x4096x16_d3 Gen.h_S_ i
      = (Finset.univ : Finset (Fin 513)).fold max ⊥ (fun k => y (idx_main_v56 i k)) := by
  have hR : S2x4096x16x513.Reduces [3] S2x4096x16 := by decide
  rw [Host.reduce_eq_fold_single (FloatOps.maximumf (F := Ideal) (φ := .f32)) y _
    Gen.reducesTo_S2x4096x16x513_S2x4096x16_d3 hR Gen.h_S_ i]
  rw [show val_main_cst_6 (F := Ideal) (Shape.Idx.first Gen.h_S_) = (⊥ : EReal) from Cert.Spec.ofBits_neg_inf]
  refine Finset.fold_congr (fun (k : Fin 513) _ => ?_)
  show y (hR.lift i k) = y (idx_main_v56 i k)
  rw [lift_d3 hR i k]

/-- The reference's row maximum at (b, s, h) is the largest, from −∞, of row (b, s, h) of the masked scores. -/
theorem rowMax_v49 (x0 : (⟨S2x16x4096x64, .f32⟩ : BufTy).Contents (Elt Ideal)) (b : Fin 2) (s : Fin 4096) (h : Fin 16) :
    val_main_v49 (F := Ideal) x0 (ix3 b s h)
      = Cert.Spec.rowMax (fun c' : Fin 513 => val_main_v48 (F := Ideal) x0 (ix4 b s h c')) := by
  unfold val_main_v49
  rw [reduce_max_row]
  unfold Cert.Spec.rowMax
  have hk : ∀ k : Fin 513, idx_main_v56 (ix3 b s h) k = ix4 b s h k := fun k =>
    funext fun a => Fin.ext (by match a with | ⟨0, _⟩ => rfl | ⟨1, _⟩ => rfl | ⟨2, _⟩ => rfl | ⟨3, _⟩ => rfl)
  simp only [hk]

/-- The reference's exponential at (b, s, h, c) is that of the score less its row's maximum. -/
theorem exp_v55 (x0 : (⟨S2x16x4096x64, .f32⟩ : BufTy).Contents (Elt Ideal)) (b : Fin 2) (s : Fin 4096) (h : Fin 16) (c : Fin 513) :
    val_main_v55 (F := Ideal) x0 (ix4 b s h c)
      = Ideal.exp (val_main_v48 (F := Ideal) x0 (ix4 b s h c)
          - Cert.Spec.rowMax (fun c' : Fin 513 => val_main_v48 (F := Ideal) x0 (ix4 b s h c'))) := by
  rw [val_main_v55_apply, val_main_v54_apply, val_main_v53_apply, val_main_v52_apply, val_main_v51_apply,
    val_main_v50_apply, val_main_cst_7_apply]
  have hi : idx_main_v52 (idx_main_v53 (ix4 b s h c)) = ix3 b s h :=
    funext fun a => Fin.ext (by match a with | ⟨0, _⟩ => rfl | ⟨1, _⟩ => rfl | ⟨2, _⟩ => rfl)
  rw [hi, rowMax_v49]
  generalize val_main_v48 (F := Ideal) x0 (ix4 b s h c) = u
  generalize Cert.Spec.rowMax (fun c' : Fin 513 => val_main_v48 (F := Ideal) x0 (ix4 b s h c')) = m
  rw [Ideal.hostUnary_exp_def, Ideal.subf_def, Ideal.maximumf_def, Ideal.ofBits_def, Cert.Spec.ofBits_neg_inf, max_bot_left]

/-- Entry (b, s, h, c) of the reference's result is the softmax, at offset `c`, of row (b, s, h) of the masked
    scores. -/
theorem softmax_rows (x0 : (⟨S2x16x4096x64, .f32⟩ : BufTy).Contents (Elt Ideal)) (b : Fin 2) (s : Fin 4096) (h : Fin 16) (c : Fin 513) :
    val_main_v59 (F := Ideal) x0 (ix4 b s h c)
      = Cert.Spec.softmaxRow (fun c' : Fin 513 => val_main_v48 (F := Ideal) x0 (ix4 b s h c')) c := by
  rw [val_main_v59_apply, val_main_v58_apply, val_main_v57_apply, val_main_v56_apply, val_main_cst_8_apply]
  have hi : idx_main_v57 (idx_main_v58 (ix4 b s h c)) = ix3 b s h :=
    funext fun a => Fin.ext (by match a with | ⟨0, _⟩ => rfl | ⟨1, _⟩ => rfl | ⟨2, _⟩ => rfl)
  have hk : ∀ k : Fin 513, idx_main_v56 (ix3 b s h) k = ix4 b s h k := fun k =>
    funext fun a => Fin.ext (by match a with | ⟨0, _⟩ => rfl | ⟨1, _⟩ => rfl | ⟨2, _⟩ => rfl | ⟨3, _⟩ => rfl)
  rw [hi]
  simp only [hk, exp_v55]
  unfold Cert.Spec.softmaxRow
  rw [Ideal.hostDivf_def, Ideal.ofBits_def, Ideal.ofBits_zero_f32, zero_add]

end Cert.ReferenceIdeal.RefValue

end
-- ==== Proof.RefMask.lean ====
/-
  The reference's mask: entry (s, c) of a 4096 × 513 table of positions `s + c − 256`, kept where that position
  is in `[0, 4096)`; the banded scores are kept there and −∞ is put elsewhere; the planes are then laid out
  (batch, head) and the head axis moved behind the row axis.
-/
import proofs.«419505_j10230612099674_4_alg».proof.Proof.RefRead
import proofs.«419505_j10230612099674_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.ReadCopy

/-- The position word `s + c − 256` read as a signed integer is the integer `s + c − 256`: with `s < 4096` and
    `c < 513` the sum does not wrap and the difference lies in `[−256, 4352]`. -/
theorem pos_toInt (s c : Nat) (hs : s < 4096) (hc : c < 513) :
    (BitVec.ofNat 32 s + BitVec.ofNat 32 c - 256#32).toInt = (s : Int) + (c : Int) - 256 := by
  rw [BitVec.toInt_eq_toNat_cond]
  simp only [BitVec.toNat_sub, BitVec.toNat_add, BitVec.toNat_ofNat]
  split <;> omega

/-- The conjunction of two one-bit truth values is the truth value of the conjunction. -/
theorem ofBool_and (p q : Bool) : BitVec.ofBool p &&& BitVec.ofBool q = BitVec.ofBool (p && q) := by
  cases p <;> cases q <;> decide

/-- The mask bit at (s, c) is set exactly when padded key row `s + c` is a row of the sequence. -/
theorem mask_bit (s c : Nat) (hs : s < 4096) (hc : c < 513) :
    IntOp.andi (IntOp.cmpi .sge (IntOp.subi (IntOp.addi (BitVec.ofNat 32 s) (BitVec.ofNat 32 c)) 256#32) 0#32)
      (IntOp.cmpi .slt (IntOp.subi (IntOp.addi (BitVec.ofNat 32 s) (BitVec.ofNat 32 c)) 256#32) 4096#32) = 1#1
    ↔ Cert.Spec.inWindow s c := by
  unfold IntOp.andi IntOp.cmpi IntOp.subi IntOp.addi Cert.Spec.inWindow
  simp only [ofBool_and, BitVec.sle, BitVec.slt, pos_toInt s c hs hc]
  rw [show (0#32).toInt = 0 from by decide, show (4096#32).toInt = 4096 from by decide]
  cases hb : (decide ((0 : Int) ≤ (s : Int) + (c : Int) - 256) && decide ((s : Int) + (c : Int) - 256 < 4096)) with
  | true =>
    simp only [Bool.and_eq_true, decide_eq_true_eq] at hb
    constructor
    · intro _; omega
    · intro _; rfl
  | false =>
    constructor
    · intro h; exact absurd h (by decide)
    · intro h
      exfalso
      have : (decide ((0 : Int) ≤ (s : Int) + (c : Int) - 256) && decide ((s : Int) + (c : Int) - 256 < 4096)) = true := by
        simp only [Bool.and_eq_true, decide_eq_true_eq]; omega
      rw [hb] at this; exact Bool.false_ne_true this

/-- The row-major position of (b, h, s, c) in [2, 16, 4096, 513] read in [32, 4096, 513] is (16·b + h, s, c). -/
theorem idx_relaid (b : Fin 2) (s : Fin 4096) (h : Fin 16) (c : Fin 513) :
    idx_main_v47 (idx_main_v48 (ix4 b s h c)) = ix3 (Cert.Spec.plane b h) s c := by
  have hb := b.isLt; have hs := s.isLt; have hh := h.isLt; have hc := c.isLt
  funext a
  apply Fin.ext
  match a with
  | ⟨0, _⟩ =>
    show (((b.val * 16 + h.val) * 4096 + s.val) * 513 + c.val) / 2101248 = 16 * b.val + h.val
    omega
  | ⟨1, _⟩ =>
    show (((b.val * 16 + h.val) * 4096 + s.val) * 513 + c.val) / 513 % 4096 = s.val
    omega
  | ⟨2, _⟩ =>
    show (((b.val * 16 + h.val) * 4096 + s.val) * 513 + c.val) % 513 = c.val
    omega

/-- Entry (b, s, h, c) of the masked, re-laid scores: the banded score of plane `16·b + h` inside the window,
    −∞ outside it. -/
theorem masked (x0 : (⟨S2x16x4096x64, .f32⟩ : BufTy).Contents (Elt Ideal)) (b : Fin 2) (s : Fin 4096) (h : Fin 16) (c : Fin 513) :
    val_main_v48 (F := Ideal) x0 (ix4 b s h c)
      = if Cert.Spec.inWindow s.val c.val then val_main_v30 (F := Ideal) x0 (ix3 (Cert.Spec.plane b h) s c) else (⊥ : EReal) := by
  rw [val_main_v48_apply, val_main_v47_apply, idx_relaid, val_main_v46_apply, val_main_call2_v1_apply,
    val_main_v45_apply, val_main_v44_apply, val_main_v41_apply, val_main_v43_apply, val_main_v39_apply,
    val_main_v37_apply, val_main_v35_apply, val_main_v36_apply, val_main_v32_apply, val_main_v34_apply,
    val_main_v31_apply, val_main_v33_apply, val_main_v38_apply, val_main_c_3_apply, val_main_v40_apply,
    val_main_c_4_apply, val_main_v42_apply, val_main_c_5_apply, val_main_call2_v2_apply, val_main_call2_v0_apply,
    val_main_cst_apply]
  show Scalar.select
      (IntOp.andi (IntOp.cmpi .sge (IntOp.subi (IntOp.addi (BitVec.ofNat 32 s.val) (BitVec.ofNat 32 c.val)) 256#32) 0#32)
        (IntOp.cmpi .slt (IntOp.subi (IntOp.addi (BitVec.ofNat 32 s.val) (BitVec.ofNat 32 c.val)) 256#32) 4096#32))
      (val_main_v30 (F := Ideal) x0 (ix3 (Cert.Spec.plane b h) s c)) (Ideal.ofBits .f32 0xFF800000#32) = _
  by_cases hw : Cert.Spec.inWindow s.val c.val
  · rw [if_pos hw, (mask_bit s.val c.val s.isLt c.isLt).mpr hw, select_one]
  · rw [if_neg hw, eq_zero_of_ne_one (fun hm => hw ((mask_bit s.val c.val s.isLt c.isLt).mp hm)), select_zero,
      Cert.Spec.ofBits_neg_inf]

end Cert.ReferenceIdeal.RefValue

end
-- ==== Proof.RefTake.lean ====
/-
  The reference's band extraction (`take_along_axis`): row `x` of a chunk's 256 × 768 scores read at columns
  `x + c`, `c` in `0 … 512`.  The indices `x + c` are never negative and never above 767, so the index
  normalisation leaves them alone and the out-of-range fill is never chosen.
-/
import proofs.«419505_j10230612099674_4_alg».proof.Proof.RefRead
import proofs.«419505_j10230612099674_4_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.ReadCopy

/-- A left fold by `and` from 1 over bits that are all 1 is 1. -/
theorem take_foldl_andi_one {ι : Type} (g : ι → BitVec 1) (hg : ∀ n, g n = 1#1) (l : List ι) :
    l.foldl (fun r n => IntOp.andi r (g n)) 1#1 = 1#1 := by
  induction l with
  | nil => rfl
  | cons a l ih => rw [List.foldl_cons, hg a]; exact ih

/-- The index word at (·, ·, x, c) is x + c. -/
theorem take_v28_word (j : S1x1x256x513.Idx) :
    val_main_v28 (F := Ideal) j = BitVec.ofNat 32 (j 2).val + BitVec.ofNat 32 (j 3).val := by
  rw [val_main_v28_apply, val_main_v27_apply, val_main_v25_apply, val_main_v26_apply, val_main_v22_apply,
    val_main_v24_apply, val_main_v21_apply, val_main_v23_apply]
  rfl

theorem take_v28_toNat (j : S1x1x256x513.Idx) :
    (val_main_v28 (F := Ideal) j).toNat = (j 2).val + (j 3).val := by
  rw [take_v28_word, BitVec.toNat_add, BitVec.toNat_ofNat, BitVec.toNat_ofNat]
  have h2 : (j 2).val < 256 := (j 2).isLt
  have h3 : (j 3).val < 513 := (j 3).isLt
  omega

/-- The index is never negative: the normalisation leaves it. -/
theorem take_v4_eq (j : S1x1x256x513.Idx) :
    val_main_call1_v4 (F := Ideal) j = val_main_v28 (F := Ideal) j := by
  rw [val_main_call1_v4_apply, val_main_call1_v1_apply, val_main_call1_v0_apply, val_main_call1_c_apply]
  have hlt : (val_main_v28 (F := Ideal) j).toNat < 2 ^ 31 := by
    rw [take_v28_toNat]
    have h2 : (j 2).val < 256 := (j 2).isLt
    have h3 : (j 3).val < 513 := (j 3).isLt
    omega
  have hne : ¬ IntOp.cmpi .slt (val_main_v28 (F := Ideal) j) 0#32 = 1#1 := by
    rw [StableHlo.Predicate.slt_iff_toNat hlt (by decide)]
    simp
  rw [eq_zero_of_ne_one hne, select_zero]

/-- The start index at (x, c, 0) is x + c, at most 767. -/
theorem take_v5_toNat (i : S256x513x1.Idx) :
    (val_main_call1_v5 (F := Ideal) i).toNat = (i 0).val + (i 1).val := by
  rw [val_main_call1_v5_apply, take_v4_eq, take_v28_toNat]
  have h0 : (i 0).val < 256 := (i 0).isLt
  have h1 : (i 1).val < 513 := (i 1).isLt
  have h2 : (i 2).val < 1 := (i 2).isLt
  show (((i 0).val * 513 + (i 1).val) * 1 + (i 2).val) / 513 % 256 + (((i 0).val * 513 + (i 1).val) * 1 + (i 2).val) % 513 = (i 0).val + (i 1).val
  omega

/-- Every start index is in range. -/
theorem take_v11_one (i : S256x513x1.Idx) : val_main_call1_v11 (F := Ideal) i = 1#1 := by
  have h0 : (i 0).val < 256 := (i 0).isLt
  have h1 : (i 1).val < 513 := (i 1).isLt
  have hN := take_v5_toNat i
  have hlt : (val_main_call1_v5 (F := Ideal) i).toNat < 2 ^ 31 := by omega
  have h7 : val_main_call1_v7 (F := Ideal) i = 1#1 := by
    rw [val_main_call1_v7_apply, val_main_call1_v6_apply, val_main_call1_c_2_apply,
      StableHlo.Predicate.sge_iff_toNat hlt (by decide)]
    simp
  have h10 : val_main_call1_v10 (F := Ideal) i = 1#1 := by
    rw [val_main_call1_v10_apply, val_main_call1_v9_apply, val_main_call1_v8_apply, val_main_call1_c_1_apply,
      StableHlo.Predicate.sle_iff_toNat hlt (by decide), hN]
    show (i 0).val + (i 1).val ≤ 767
    omega
  rw [val_main_call1_v11_apply, h7, h10]
  rfl

/-- The in-range bit is 1 everywhere. -/
theorem take_v12_one (j : S256x513.Idx) : val_main_call1_v12 (F := Ideal) j = 1#1 := by
  unfold val_main_call1_v12 Host.reduce
  exact take_foldl_andi_one _ (fun n => take_v11_one _) _

theorem take_v29_eq_gather (x0 : (⟨S2x16x4096x64, .f32⟩ : BufTy).Contents (Elt Ideal)) (j : S32x16x256x513.Idx) :
    val_main_v29 (F := Ideal) x0 j = val_main_call1_v13 (F := Ideal) x0 j := by
  rw [val_main_v29_apply, val_main_call1_v14_apply, take_v12_one, select_one]

/-- The gather's operand index at result (p, n, x, c), when the start index at (x, c, 0) is x + c: (p, n, x, x + c). -/
theorem take_gather_operandIdx (idx : IVec S256x513x1 32) (p : Fin 32) (n : Fin 16) (x : Fin 256) (c : Fin 513)
    (hidx : (idx (ix3 x c (0 : Fin 1))).toNat = x.val + c.val) :
    gather_S32x16x256x768_S256x513x1_S32x16x256x513_01_3_2_0_3_2_321611.operandIdx (ix4 p n x c) idx
      = ix4 p n x ⟨x.val + c.val, by have := x.isLt; have := c.isLt; omega⟩ := by
  have hx := x.isLt
  have hc := c.isLt
  have h0 : gather_S32x16x256x768_S256x513x1_S32x16x256x513_01_3_2_0_3_2_321611.start (ix4 p n x c) idx ⟨0, by decide⟩
      + gather_S32x16x256x768_S256x513x1_S32x16x256x513_01_3_2_0_3_2_321611.batchCoord (ix4 p n x c) ⟨0, by decide⟩
      + gather_S32x16x256x768_S256x513x1_S32x16x256x513_01_3_2_0_3_2_321611.offCoord (ix4 p n x c) ⟨0, by decide⟩ = p.val := by
    unfold GatherDims.start GatherDims.batchCoord GatherDims.offCoord
    rw [dif_neg (by decide), dif_neg (by decide), dif_pos (by decide)]
    rw [Nat.zero_add]
    rfl
  have h1 : gather_S32x16x256x768_S256x513x1_S32x16x256x513_01_3_2_0_3_2_321611.start (ix4 p n x c) idx ⟨1, by decide⟩
      + gather_S32x16x256x768_S256x513x1_S32x16x256x513_01_3_2_0_3_2_321611.batchCoord (ix4 p n x c) ⟨1, by decide⟩
      + gather_S32x16x256x768_S256x513x1_S32x16x256x513_01_3_2_0_3_2_321611.offCoord (ix4 p n x c) ⟨1, by decide⟩ = n.val := by
    unfold GatherDims.start GatherDims.batchCoord GatherDims.offCoord
    rw [dif_neg (by decide), dif_neg (by decide), dif_pos (by decide)]
    rw [Nat.zero_add]
    rfl
  have h2 : gather_S32x16x256x768_S256x513x1_S32x16x256x513_01_3_2_0_3_2_321611.start (ix4 p n x c) idx ⟨2, by decide⟩
      + gather_S32x16x256x768_S256x513x1_S32x16x256x513_01_3_2_0_3_2_321611.batchCoord (ix4 p n x c) ⟨2, by decide⟩
      + gather_S32x16x256x768_S256x513x1_S32x16x256x513_01_3_2_0_3_2_321611.offCoord (ix4 p n x c) ⟨2, by decide⟩ = x.val := by
    unfold GatherDims.start GatherDims.batchCoord GatherDims.offCoord
    rw [dif_neg (by decide), dif_pos (by decide), dif_neg (by decide)]
    rw [Nat.add_zero, Nat.zero_add]
    rfl
  have hsi : gather_S32x16x256x768_S256x513x1_S32x16x256x513_01_3_2_0_3_2_321611.siIdx (ix4 p n x c)
      ⟨List.idxOf (⟨3, by decide⟩ : Fin S32x16x256x768.rank)
        gather_S32x16x256x768_S256x513x1_S32x16x256x513_01_3_2_0_3_2_321611.startIndexMap,
        List.idxOf_lt_length_iff.2 (by decide)⟩ = ix3 x c (0 : Fin 1) := by
    funext b; refine Fin.ext ?_
    match b with
    | ⟨0, _⟩ => rfl
    | ⟨1, _⟩ => rfl
    | ⟨2, _⟩ => rfl
  have h3 : gather_S32x16x256x768_S256x513x1_S32x16x256x513_01_3_2_0_3_2_321611.start (ix4 p n x c) idx ⟨3, by decide⟩
      + gather_S32x16x256x768_S256x513x1_S32x16x256x513_01_3_2_0_3_2_321611.batchCoord (ix4 p n x c) ⟨3, by decide⟩
      + gather_S32x16x256x768_S256x513x1_S32x16x256x513_01_3_2_0_3_2_321611.offCoord (ix4 p n x c) ⟨3, by decide⟩ = x.val + c.val := by
    unfold GatherDims.start GatherDims.batchCoord GatherDims.offCoord
    rw [dif_pos (by decide), dif_neg (by decide), dif_neg (by decide)]
    rw [hsi, StableHlo.Predicate.toInt_eq_toNat_of_lt (by rw [hidx]; omega), hidx, Int.toNat_natCast]
    show min (x.val + c.val) (768 - 1) + 0 + 0 = x.val + c.val
    omega
  funext a
  refine Fin.ext ?_
  match a with
  | ⟨0, _⟩ => exact h0
  | ⟨1, _⟩ => exact h1
  | ⟨2, _⟩ => exact h2
  | ⟨3, _⟩ => exact h3

/-- Entry (p, n, x, c) of the band is score (p, n, x, x + c). -/
theorem take_along (x0 : (⟨S2x16x4096x64, .f32⟩ : BufTy).Contents (Elt Ideal)) (p : Fin 32) (n : Fin 16) (x : Fin 256) (c : Fin 513) :
    val_main_v29 (F := Ideal) x0 (ix4 p n x c)
      = val_main_v20 (F := Ideal) x0 (ix4 p n x ⟨x.val + c.val, by have := x.isLt; have := c.isLt; omega⟩) := by
  rw [take_v29_eq_gather]
  unfold val_main_call1_v13 Host.gather
  rw [take_gather_operandIdx _ p n x c (take_v5_toNat _)]

end Cert.ReferenceIdeal.RefValue

end
-- ==== Proof.RefDots.lean ====
/-
  The reference's scores: chunk `n` of a plane's 4096 query rows (256 rows) against the 768 padded key rows
  `256·n … 256·n + 767` (gathered out of the padded planes by an index table `256·n + y`), contracted over
  the 64 coordinates.
-/
import proofs.«419505_j10230612099674_4_alg».proof.Proof.RefRead
import proofs.«419505_j10230612099674_4_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.ReadCopy

/-- The left factor: the reshape of the planes to chunks of 256 rows reads row `256·n + x`. -/
theorem dots_left (x0 : (⟨S2x16x4096x64, .f32⟩ : BufTy).Contents (Elt Ideal)) (p : Fin 32) (n : Fin 16) (x : Fin 256) (y : Fin 768) (d : Fin 64) :
    val_main_v2 (F := Ideal) x0 (lidx_main_v20 (ix4 p n x y) d)
      = val_main_v1 (F := Ideal) x0 (ix3 p ⟨256 * n.val + x.val, by have := n.isLt; have := x.isLt; omega⟩ d) := by
  rw [val_main_v2_apply]
  congr 1
  funext a
  apply Fin.ext
  have hp := p.isLt; have hn := n.isLt; have hx := x.isLt; have hd := d.isLt
  match a with
  | ⟨0, _⟩ => show (((p.val * 16 + n.val) * 256 + x.val) * 64 + d.val) / 262144 = p.val; omega
  | ⟨1, _⟩ => show (((p.val * 16 + n.val) * 256 + x.val) * 64 + d.val) / 64 % 4096 = 256 * n.val + x.val; omega
  | ⟨2, _⟩ => show (((p.val * 16 + n.val) * 256 + x.val) * 64 + d.val) % 64 = d.val; omega

/-- The index table before its normalisation: the word `256·n + y`. -/
theorem dots_table (i : S16x768.Idx) :
    val_main_v12 (F := Ideal) i = BitVec.ofNat 32 (256 * (i 0).val + (i 1).val) := by
  rw [val_main_v12_apply, val_main_v10_apply, val_main_v11_apply, val_main_v7_apply, val_main_v5_apply, val_main_v6_apply,
    val_main_c_0_apply, val_main_v9_apply, val_main_v8_apply, val_main_v4_apply]
  have h0 := (i 0).isLt
  have h1 := (i 1).isLt
  apply BitVec.eq_of_toNat_eq
  show (BitVec.ofNat 32 (i 0).val * 256#32 + BitVec.ofNat 32 (i 1).val).toNat = _
  simp only [BitVec.toNat_add, BitVec.toNat_mul, BitVec.toNat_ofNat]
  omega

/-- The index table after its normalisation (an entry that is not negative is kept): the word `256·n + y`. -/
theorem dots_index (n : Fin 16) (y : Fin 768) :
    val_main_v18 (F := Ideal) (ix3 n y (0 : Fin 1)) = BitVec.ofNat 32 (256 * n.val + y.val) := by
  have hn := n.isLt
  have hy := y.isLt
  rw [val_main_v18_apply, val_main_v17_apply, val_main_v14_apply, val_main_v13_apply, val_main_c_1_apply, dots_table]
  show Scalar.select (IntOp.cmpi .slt (BitVec.ofNat 32 (256 * n.val + y.val)) 0#32) _ _ = _
  unfold Scalar.select
  rw [if_neg]
  intro h
  have := (StableHlo.Predicate.slt_iff_toNat (by simp only [BitVec.toNat_ofNat]; omega) (by decide)).mp h
  simp at this

/-- That word read signed is `256·n + y`, a row of the padded planes: the clamp into their 4608 rows keeps it. -/
theorem dots_index_toNat (n : Fin 16) (y : Fin 768) :
    min (BitVec.ofNat 32 (256 * n.val + y.val)).toInt.toNat 4607 = 256 * n.val + y.val := by
  have hn := n.isLt
  have hy := y.isLt
  rw [StableHlo.Predicate.toInt_ofNat_small _ (by omega)]
  simp only [Int.toNat_natCast]
  omega

/-- The gather's dimension numbers: offset axes 0 and 3 of the result read axes 0 and 2 of the operand, axis 1 of the
    operand is collapsed and start-indexed. -/
abbrev dotsGather := gather_S32x4608x64_S16x768x1_S32x16x768x64_03_1_n_n_1_2_32164

/-- Operand axis 0 is read at the result's coordinate on its axis 0. -/
theorem dots_gather_axis0 (j : S32x16x768x64.Idx) (idx : IVec S16x768x1 32) :
    dotsGather.start j idx 0 + dotsGather.batchCoord j 0 + dotsGather.offCoord j 0 = (j 0).val := by
  rw [GatherDims.batchCoord_eq_zero _ _ _ (show (0 : Fin S32x4608x64.rank) ∉ dotsGather.operandBatchingDims by decide), Nat.add_zero]
  unfold GatherDims.start
  rw [dif_neg (show (0 : Fin S32x4608x64.rank) ∉ dotsGather.startIndexMap by decide)]
  unfold GatherDims.offCoord
  rw [dif_pos (show (0 : Fin S32x4608x64.rank) ∈ dotsGather.sKept by decide), Nat.zero_add]
  rfl

/-- Operand axis 1 is read at the start index of the result's coordinates on its axes 1 and 2, signed and clamped. -/
theorem dots_gather_axis1 (j : S32x16x768x64.Idx) (idx : IVec S16x768x1 32) :
    dotsGather.start j idx 1 + dotsGather.batchCoord j 1 + dotsGather.offCoord j 1 = min (idx (ix3 (j 1) (j 2) (0 : Fin 1))).toInt.toNat 4607 := by
  rw [GatherDims.batchCoord_eq_zero _ _ _ (show (1 : Fin S32x4608x64.rank) ∉ dotsGather.operandBatchingDims by decide), Nat.add_zero,
    GatherDims.offCoord_eq_zero _ _ _ (show (1 : Fin S32x4608x64.rank) ∉ dotsGather.sKept by decide), Nat.add_zero]
  unfold GatherDims.start
  rw [dif_pos (show (1 : Fin S32x4608x64.rank) ∈ dotsGather.startIndexMap by decide)]
  have hsi : dotsGather.siIdx j ⟨List.idxOf (1 : Fin S32x4608x64.rank) dotsGather.startIndexMap,
      List.idxOf_lt_length_iff.2 (show (1 : Fin S32x4608x64.rank) ∈ dotsGather.startIndexMap by decide)⟩ = ix3 (j 1) (j 2) (0 : Fin 1) := by
    funext b; refine Fin.ext ?_
    match b with
    | ⟨0, _⟩ => rfl
    | ⟨1, _⟩ => rfl
    | ⟨2, _⟩ => rfl
  rw [hsi]
  rfl

/-- Operand axis 2 is read at the result's coordinate on its axis 3. -/
theorem dots_gather_axis2 (j : S32x16x768x64.Idx) (idx : IVec S16x768x1 32) :
    dotsGather.start j idx 2 + dotsGather.batchCoord j 2 + dotsGather.offCoord j 2 = (j 3).val := by
  rw [GatherDims.batchCoord_eq_zero _ _ _ (show (2 : Fin S32x4608x64.rank) ∉ dotsGather.operandBatchingDims by decide), Nat.add_zero]
  unfold GatherDims.start
  rw [dif_neg (show (2 : Fin S32x4608x64.rank) ∉ dotsGather.startIndexMap by decide)]
  unfold GatherDims.offCoord
  rw [dif_pos (show (2 : Fin S32x4608x64.rank) ∈ dotsGather.sKept by decide), Nat.zero_add]
  rfl

/-- The gather at result index (p, n, y, d): the operand at (p, the table's entry (n, y) signed and clamped, d). -/
theorem dots_gather_read {α : Type} (v : S32x4608x64.Idx → α) (idx : IVec S16x768x1 32)
    (p : Fin 32) (n : Fin 16) (y : Fin 768) (d : Fin 64) :
    Host.gather dotsGather v idx (ix4 p n y d)
      = v (ix3 p ⟨min (idx (ix3 n y (0 : Fin 1))).toInt.toNat 4607, by omega⟩ d) := by
  unfold Host.gather
  congr 1
  funext a
  apply Fin.ext
  show dotsGather.start (ix4 p n y d) idx a + dotsGather.batchCoord (ix4 p n y d) a + dotsGather.offCoord (ix4 p n y d) a = _
  match a with
  | ⟨0, _⟩ => exact dots_gather_axis0 _ _
  | ⟨1, _⟩ => exact dots_gather_axis1 _ _
  | ⟨2, _⟩ => exact dots_gather_axis2 _ _

/-- The right factor: the gathered rows read padded row `256·n + y`. -/
theorem dots_right (x0 : (⟨S2x16x4096x64, .f32⟩ : BufTy).Contents (Elt Ideal)) (p : Fin 32) (n : Fin 16) (x : Fin 256) (y : Fin 768) (d : Fin 64) :
    val_main_v19 (F := Ideal) x0 (ridx_main_v20 (ix4 p n x y) d)
      = val_main_v3 (F := Ideal) x0 (ix3 p ⟨256 * n.val + y.val, by have := n.isLt; have := y.isLt; omega⟩ d) := by
  have hj : ridx_main_v20 (ix4 p n x y) d = ix4 p n y d := by
    funext a
    match a with
    | ⟨0, _⟩ => rfl
    | ⟨1, _⟩ => rfl
    | ⟨2, _⟩ => rfl
    | ⟨3, _⟩ => rfl
  rw [hj]
  unfold val_main_v19
  rw [dots_gather_read]
  congr 1
  funext a
  apply Fin.ext
  match a with
  | ⟨0, _⟩ => rfl
  | ⟨1, _⟩ =>
    show min (val_main_v18 (F := Ideal) (ix3 n y (0 : Fin 1))).toInt.toNat 4607 = 256 * n.val + y.val
    rw [dots_index, dots_index_toNat]
  | ⟨2, _⟩ => rfl

/-- Score (p, n, x, y): query row `256·n + x` of plane `p` against padded key row `256·n + y`. -/
theorem dots (x0 : (⟨S2x16x4096x64, .f32⟩ : BufTy).Contents (Elt Ideal)) (p : Fin 32) (n : Fin 16) (x : Fin 256) (y : Fin 768) :
    val_main_v20 (F := Ideal) x0 (ix4 p n x y)
      = ∑ d : Fin 64, val_main_v1 (F := Ideal) x0 (ix3 p ⟨256 * n.val + x.val, by have := n.isLt; have := x.isLt; omega⟩ d)
          * val_main_v3 (F := Ideal) x0 (ix3 p ⟨256 * n.val + y.val, by have := n.isLt; have := y.isLt; omega⟩ d) := by
  rw [val_main_v20_apply]
  refine Finset.sum_congr rfl fun d _ => ?_
  rw [dots_left, dots_right]

end Cert.ReferenceIdeal.RefValue

end
-- ==== Proof.RefValue.lean ====
/-
  The reference's result is the attention probabilities of its own planes and padded planes: its last stages are
  the softmax of the masked rows, the mask keeps the band inside the window, the band reads the chunk scores at
  columns `x + c`, and a chunk score is the dot product of query row `256·n + x` with padded key row
  `256·n + y`; row `s` of a plane is row `s mod 256` of chunk `s div 256`.
-/
import proofs.«419505_j10230612099674_4_alg».proof.Proof.RefSoftmax
import proofs.«419505_j10230612099674_4_alg».proof.Proof.RefMask
import proofs.«419505_j10230612099674_4_alg».proof.Proof.RefTake
import proofs.«419505_j10230612099674_4_alg».proof.Proof.RefDots

noncomputable section

namespace Cert.ReferenceIdeal.RefValue

open Idealize.ShloMosaic Idealize.ShloMosaic.ValueIdx Cert.ReferenceIdeal Cert.ReferenceIdeal.ReadCopy

/-- The band at (p, s, c): query row `s` of plane `p` against padded key row `s + c`. -/
theorem scores (x0 : (⟨S2x16x4096x64, .f32⟩ : BufTy).Contents (Elt Ideal)) (p : Fin 32) (s : Fin 4096) (c : Fin 513) :
    val_main_v30 (F := Ideal) x0 (ix3 p s c)
      = ∑ d : Fin 64, val_main_v1 (F := Ideal) x0 (ix3 p s d)
          * val_main_v3 (F := Ideal) x0 (ix3 p ⟨s.val + c.val, by have := s.isLt; have := c.isLt; omega⟩ d) := by
  have hp := p.isLt
  have hs := s.isLt
  have hc := c.isLt
  rw [val_main_v30_apply]
  have e : idx_main_v30 (ix3 p s c)
      = ix4 p (⟨s.val / 256, by omega⟩ : Fin 16) (⟨s.val % 256, by omega⟩ : Fin 256) c := funext fun a => Fin.ext (by
    match a with
    | ⟨0, _⟩ => show ((p.val * 4096 + s.val) * 513 + c.val) / 2101248 = p.val; omega
    | ⟨1, _⟩ => show ((p.val * 4096 + s.val) * 513 + c.val) / 131328 % 16 = s.val / 256; omega
    | ⟨2, _⟩ => show ((p.val * 4096 + s.val) * 513 + c.val) / 513 % 256 = s.val % 256; omega
    | ⟨3, _⟩ => show ((p.val * 4096 + s.val) * 513 + c.val) % 513 = c.val; omega)
  rw [e, take_along, dots]
  have e1 : (⟨256 * (⟨s.val / 256, by omega⟩ : Fin 16).val + (⟨s.val % 256, by omega⟩ : Fin 256).val, by show 256 * (s.val / 256) + s.val % 256 < 4096; omega⟩ : Fin 4096) = s :=
    Fin.ext (by show 256 * (s.val / 256) + s.val % 256 = s.val; omega)
  have e2 : (⟨256 * (⟨s.val / 256, by omega⟩ : Fin 16).val + (⟨(⟨s.val % 256, by omega⟩ : Fin 256).val + c.val, by show s.val % 256 + c.val < 768; omega⟩ : Fin 768).val, by show 256 * (s.val / 256) + (s.val % 256 + c.val) < 4608; omega⟩ : Fin 4608)
      = ⟨s.val + c.val, by omega⟩ :=
    Fin.ext (by show 256 * (s.val / 256) + (s.val % 256 + c.val) = s.val + c.val; omega)
  rw [e1, e2]

/-- THE REFERENCE'S RESULT is the attention probabilities of its planes and padded planes. -/
theorem ref_probs (x0 : (⟨S2x16x4096x64, .f32⟩ : BufTy).Contents (Elt Ideal)) :
    val_main_v59 (F := Ideal) x0 = Cert.Spec.probs (val_main_v1 (F := Ideal) x0) (val_main_v3 (F := Ideal) x0) := by
  funext j
  obtain ⟨b, s, h, c, rfl⟩ : ∃ (b : Fin 2) (s : Fin 4096) (h : Fin 16) (c : Fin 513), j = ix4 b s h c :=
    ⟨j 0, j 1, j 2, j 3, eq_ix4 j⟩
  rw [softmax_rows, Cert.Spec.probs_apply]
  refine congrArg (fun v => Cert.Spec.softmaxRow v c) (funext fun c' => ?_)
  rw [masked]
  unfold Cert.Spec.band
  by_cases hw : Cert.Spec.inWindow s.val c'.val
  · rw [if_pos hw, if_pos hw, scores]
  · rw [if_neg hw, if_neg hw]

end Cert.ReferenceIdeal.RefValue

end
-- ==== Proof.RefRunHand.lean ====
/-
  The reference's run, read stage by stage.  Its 97 host operations are cut into nine stretches with few values
  passed from one to the next (the chunk scores; the table of columns; the indices; their in-range bit; the band;
  the window mask and −∞; the masked band; the re-laid scores; the result).  After each stretch the values it
  hands on are the stages of those names, as functions of the argument, and the values it does not write are
  kept; so after all nine the result buffer holds the last stage.  An operation of a function the reference
  calls moves its values along the equation "this buffer's type is the value's type", which for each buffer
  named here holds by computation, so the move is the identity (`toBuf_…`, `ofBuf_…`).
-/
import proofs.«419505_j10230612099674_4_alg».proof.Proof.RefRead
import Idealize.ShloMosaic.Lib.StableHlo.Run
import Idealize.ShloMosaic.Lib.Pipeline.Frame

noncomputable section

namespace Cert.ReferenceIdeal.RunHand

open Cert.ReferenceIdeal Cert.ReferenceIdeal.Gen Cert.ReferenceIdeal.RunCopy Cert.ReferenceIdeal.ReadCopy Idealize.ShloMosaic Idealize.ShloMosaic.TcCoe Idealize.SL.Sem Idealize.ShloMosaic.StableHlo

variable {F : FTy → Type} [FloatOps F]

/-! ## Moving a value to and from a buffer of its own type is the identity -/

theorem toBuf_main_call1_c (p1 : main_call1_c.ty = ⟨S_, .i32⟩) (p2 : main_call1_c.space ≠ .host) (p3 : main_call1_c.isScoped = false) (v : (⟨S_, .i32⟩ : BufTy).Contents (Elt F)) :
    (TRef.of (sig := sig) (T := ⟨S_, .i32⟩) main_call1_c p1 p2 p3).toBuf v = v := rfl
theorem ofBuf_main_call1_c (p1 : main_call1_c.ty = ⟨S_, .i32⟩) (p2 : main_call1_c.space ≠ .host) (p3 : main_call1_c.isScoped = false) (v : (⟨S_, .i32⟩ : BufTy).Contents (Elt F)) :
    (TRef.of (sig := sig) (T := ⟨S_, .i32⟩) main_call1_c p1 p2 p3).ofBuf v = v := rfl
theorem toBuf_main_call1_v0 (p1 : main_call1_v0.ty = ⟨S1x1x256x513, .i32⟩) (p2 : main_call1_v0.space ≠ .host) (p3 : main_call1_v0.isScoped = false) (v : (⟨S1x1x256x513, .i32⟩ : BufTy).Contents (Elt F)) :
    (TRef.of (sig := sig) (T := ⟨S1x1x256x513, .i32⟩) main_call1_v0 p1 p2 p3).toBuf v = v := rfl
theorem ofBuf_main_call1_v0 (p1 : main_call1_v0.ty = ⟨S1x1x256x513, .i32⟩) (p2 : main_call1_v0.space ≠ .host) (p3 : main_call1_v0.isScoped = false) (v : (⟨S1x1x256x513, .i32⟩ : BufTy).Contents (Elt F)) :
    (TRef.of (sig := sig) (T := ⟨S1x1x256x513, .i32⟩) main_call1_v0 p1 p2 p3).ofBuf v = v := rfl
theorem toBuf_main_v28 (p1 : main_v28.ty = ⟨S1x1x256x513, .i32⟩) (p2 : main_v28.space ≠ .host) (p3 : main_v28.isScoped = false) (v : (⟨S1x1x256x513, .i32⟩ : BufTy).Contents (Elt F)) :
    (TRef.of (sig := sig) (T := ⟨S1x1x256x513, .i32⟩) main_v28 p1 p2 p3).toBuf v = v := rfl
theorem ofBuf_main_v28 (p1 : main_v28.ty = ⟨S1x1x256x513, .i32⟩) (p2 : main_v28.space ≠ .host) (p3 : main_v28.isScoped = false) (v : (⟨S1x1x256x513, .i32⟩ : BufTy).Contents (Elt F)) :
    (TRef.of (sig := sig) (T := ⟨S1x1x256x513, .i32⟩) main_v28 p1 p2 p3).ofBuf v = v := rfl
theorem toBuf_main_call1_v1 (p1 : main_call1_v1.ty = ⟨S1x1x256x513, .i1⟩) (p2 : main_call1_v1.space ≠ .host) (p3 : main_call1_v1.isScoped = false) (v : (⟨S1x1x256x513, .i1⟩ : BufTy).Contents (Elt F)) :
    (TRef.of (sig := sig) (T := ⟨S1x1x256x513, .i1⟩) main_call1_v1 p1 p2 p3).toBuf v = v := rfl
theorem ofBuf_main_call1_v1 (p1 : main_call1_v1.ty = ⟨S1x1x256x513, .i1⟩) (p2 : main_call1_v1.space ≠ .host) (p3 : main_call1_v1.isScoped = false) (v : (⟨S1x1x256x513, .i1⟩ : BufTy).Contents (Elt F)) :
    (TRef.of (sig := sig) (T := ⟨S1x1x256x513, .i1⟩) main_call1_v1 p1 p2 p3).ofBuf v = v := rfl
theorem toBuf_main_call1_c_0 (p1 : main_call1_c_0.ty = ⟨S_, .i32⟩) (p2 : main_call1_c_0.space ≠ .host) (p3 : main_call1_c_0.isScoped = false) (v : (⟨S_, .i32⟩ : BufTy).Contents (Elt F)) :
    (TRef.of (sig := sig) (T := ⟨S_, .i32⟩) main_call1_c_0 p1 p2 p3).toBuf v = v := rfl
theorem ofBuf_main_call1_c_0 (p1 : main_call1_c_0.ty = ⟨S_, .i32⟩) (p2 : main_call1_c_0.space ≠ .host) (p3 : main_call1_c_0.isScoped = false) (v : (⟨S_, .i32⟩ : BufTy).Contents (Elt F)) :
    (TRef.of (sig := sig) (T := ⟨S_, .i32⟩) main_call1_c_0 p1 p2 p3).ofBuf v = v := rfl
theorem toBuf_main_call1_v2 (p1 : main_call1_v2.ty = ⟨S1x1x256x513, .i32⟩) (p2 : main_call1_v2.space ≠ .host) (p3 : main_call1_v2.isScoped = false) (v : (⟨S1x1x256x513, .i32⟩ : BufTy).Contents (Elt F)) :
    (TRef.of (sig := sig) (T := ⟨S1x1x256x513, .i32⟩) main_call1_v2 p1 p2 p3).toBuf v = v := rfl
theorem ofBuf_main_call1_v2 (p1 : main_call1_v2.ty = ⟨S1x1x256x513, .i32⟩) (p2 : main_call1_v2.space ≠ .host) (p3 : main_call1_v2.isScoped = false) (v : (⟨S1x1x256x513, .i32⟩ : BufTy).Contents (Elt F)) :
    (TRef.of (sig := sig) (T := ⟨S1x1x256x513, .i32⟩) main_call1_v2 p1 p2 p3).ofBuf v = v := rfl
theorem toBuf_main_call1_v3 (p1 : main_call1_v3.ty = ⟨S1x1x256x513, .i32⟩) (p2 : main_call1_v3.space ≠ .host) (p3 : main_call1_v3.isScoped = false) (v : (⟨S1x1x256x513, .i32⟩ : BufTy).Contents (Elt F)) :
    (TRef.of (sig := sig) (T := ⟨S1x1x256x513, .i32⟩) main_call1_v3 p1 p2 p3).toBuf v = v := rfl
theorem ofBuf_main_call1_v3 (p1 : main_call1_v3.ty = ⟨S1x1x256x513, .i32⟩) (p2 : main_call1_v3.space ≠ .host) (p3 : main_call1_v3.isScoped = false) (v : (⟨S1x1x256x513, .i32⟩ : BufTy).Contents (Elt F)) :
    (TRef.of (sig := sig) (T := ⟨S1x1x256x513, .i32⟩) main_call1_v3 p1 p2 p3).ofBuf v = v := rfl
theorem toBuf_main_call1_v4 (p1 : main_call1_v4.ty = ⟨S1x1x256x513, .i32⟩) (p2 : main_call1_v4.space ≠ .host) (p3 : main_call1_v4.isScoped = false) (v : (⟨S1x1x256x513, .i32⟩ : BufTy).Contents (Elt F)) :
    (TRef.of (sig := sig) (T := ⟨S1x1x256x513, .i32⟩) main_call1_v4 p1 p2 p3).toBuf v = v := rfl
theorem ofBuf_main_call1_v4 (p1 : main_call1_v4.ty = ⟨S1x1x256x513, .i32⟩) (p2 : main_call1_v4.space ≠ .host) (p3 : main_call1_v4.isScoped = false) (v : (⟨S1x1x256x513, .i32⟩ : BufTy).Contents (Elt F)) :
    (TRef.of (sig := sig) (T := ⟨S1x1x256x513, .i32⟩) main_call1_v4 p1 p2 p3).ofBuf v = v := rfl
theorem toBuf_main_call1_v5 (p1 : main_call1_v5.ty = ⟨S256x513x1, .i32⟩) (p2 : main_call1_v5.space ≠ .host) (p3 : main_call1_v5.isScoped = false) (v : (⟨S256x513x1, .i32⟩ : BufTy).Contents (Elt F)) :
    (TRef.of (sig := sig) (T := ⟨S256x513x1, .i32⟩) main_call1_v5 p1 p2 p3).toBuf v = v := rfl
theorem ofBuf_main_call1_v5 (p1 : main_call1_v5.ty = ⟨S256x513x1, .i32⟩) (p2 : main_call1_v5.space ≠ .host) (p3 : main_call1_v5.isScoped = false) (v : (⟨S256x513x1, .i32⟩ : BufTy).Contents (Elt F)) :
    (TRef.of (sig := sig) (T := ⟨S256x513x1, .i32⟩) main_call1_v5 p1 p2 p3).ofBuf v = v := rfl
theorem toBuf_main_call1_c_1 (p1 : main_call1_c_1.ty = ⟨S1, .i32⟩) (p2 : main_call1_c_1.space ≠ .host) (p3 : main_call1_c_1.isScoped = false) (v : (⟨S1, .i32⟩ : BufTy).Contents (Elt F)) :
    (TRef.of (sig := sig) (T := ⟨S1, .i32⟩) main_call1_c_1 p1 p2 p3).toBuf v = v := rfl
theorem ofBuf_main_call1_c_1 (p1 : main_call1_c_1.ty = ⟨S1, .i32⟩) (p2 : main_call1_c_1.space ≠ .host) (p3 : main_call1_c_1.isScoped = false) (v : (⟨S1, .i32⟩ : BufTy).Contents (Elt F)) :
    (TRef.of (sig := sig) (T := ⟨S1, .i32⟩) main_call1_c_1 p1 p2 p3).ofBuf v = v := rfl
theorem toBuf_main_call1_c_2 (p1 : main_call1_c_2.ty = ⟨S_, .i32⟩) (p2 : main_call1_c_2.space ≠ .host) (p3 : main_call1_c_2.isScoped = false) (v : (⟨S_, .i32⟩ : BufTy).Contents (Elt F)) :
    (TRef.of (sig := sig) (T := ⟨S_, .i32⟩) main_call1_c_2 p1 p2 p3).toBuf v = v := rfl
theorem ofBuf_main_call1_c_2 (p1 : main_call1_c_2.ty = ⟨S_, .i32⟩) (p2 : main_call1_c_2.space ≠ .host) (p3 : main_call1_c_2.isScoped = false) (v : (⟨S_, .i32⟩ : BufTy).Contents (Elt F)) :
    (TRef.of (sig := sig) (T := ⟨S_, .i32⟩) main_call1_c_2 p1 p2 p3).ofBuf v = v := rfl
theorem toBuf_main_call1_v6 (p1 : main_call1_v6.ty = ⟨S256x513x1, .i32⟩) (p2 : main_call1_v6.space ≠ .host) (p3 : main_call1_v6.isScoped = false) (v : (⟨S256x513x1, .i32⟩ : BufTy).Contents (Elt F)) :
    (TRef.of (sig := sig) (T := ⟨S256x513x1, .i32⟩) main_call1_v6 p1 p2 p3).toBuf v = v := rfl
theorem ofBuf_main_call1_v6 (p1 : main_call1_v6.ty = ⟨S256x513x1, .i32⟩) (p2 : main_call1_v6.space ≠ .host) (p3 : main_call1_v6.isScoped = false) (v : (⟨S256x513x1, .i32⟩ : BufTy).Contents (Elt F)) :
    (TRef.of (sig := sig) (T := ⟨S256x513x1, .i32⟩) main_call1_v6 p1 p2 p3).ofBuf v = v := rfl
theorem toBuf_main_call1_v7 (p1 : main_call1_v7.ty = ⟨S256x513x1, .i1⟩) (p2 : main_call1_v7.space ≠ .host) (p3 : main_call1_v7.isScoped = false) (v : (⟨S256x513x1, .i1⟩ : BufTy).Contents (Elt F)) :
    (TRef.of (sig := sig) (T := ⟨S256x513x1, .i1⟩) main_call1_v7 p1 p2 p3).toBuf v = v := rfl
theorem ofBuf_main_call1_v7 (p1 : main_call1_v7.ty = ⟨S256x513x1, .i1⟩) (p2 : main_call1_v7.space ≠ .host) (p3 : main_call1_v7.isScoped = false) (v : (⟨S256x513x1, .i1⟩ : BufTy).Contents (Elt F)) :
    (TRef.of (sig := sig) (T := ⟨S256x513x1, .i1⟩) main_call1_v7 p1 p2 p3).ofBuf v = v := rfl
theorem toBuf_main_call1_v8 (p1 : main_call1_v8.ty = ⟨S1x1x1, .i32⟩) (p2 : main_call1_v8.space ≠ .host) (p3 : main_call1_v8.isScoped = false) (v : (⟨S1x1x1, .i32⟩ : BufTy).Contents (Elt F)) :
    (TRef.of (sig := sig) (T := ⟨S1x1x1, .i32⟩) main_call1_v8 p1 p2 p3).toBuf v = v := rfl
theorem ofBuf_main_call1_v8 (p1 : main_call1_v8.ty = ⟨S1x1x1, .i32⟩) (p2 : main_call1_v8.space ≠ .host) (p3 : main_call1_v8.isScoped = false) (v : (⟨S1x1x1, .i32⟩ : BufTy).Contents (Elt F)) :
    (TRef.of (sig := sig) (T := ⟨S1x1x1, .i32⟩) main_call1_v8 p1 p2 p3).ofBuf v = v := rfl
theorem toBuf_main_call1_v9 (p1 : main_call1_v9.ty = ⟨S256x513x1, .i32⟩) (p2 : main_call1_v9.space ≠ .host) (p3 : main_call1_v9.isScoped = false) (v : (⟨S256x513x1, .i32⟩ : BufTy).Contents (Elt F)) :
    (TRef.of (sig := sig) (T := ⟨S256x513x1, .i32⟩) main_call1_v9 p1 p2 p3).toBuf v = v := rfl
theorem ofBuf_main_call1_v9 (p1 : main_call1_v9.ty = ⟨S256x513x1, .i32⟩) (p2 : main_call1_v9.space ≠ .host) (p3 : main_call1_v9.isScoped = false) (v : (⟨S256x513x1, .i32⟩ : BufTy).Contents (Elt F)) :
    (TRef.of (sig := sig) (T := ⟨S256x513x1, .i32⟩) main_call1_v9 p1 p2 p3).ofBuf v = v := rfl
theorem toBuf_main_call1_v10 (p1 : main_call1_v10.ty = ⟨S256x513x1, .i1⟩) (p2 : main_call1_v10.space ≠ .host) (p3 : main_call1_v10.isScoped = false) (v : (⟨S256x513x1, .i1⟩ : BufTy).Contents (Elt F)) :
    (TRef.of (sig := sig) (T := ⟨S256x513x1, .i1⟩) main_call1_v10 p1 p2 p3).toBuf v = v := rfl
theorem ofBuf_main_call1_v10 (p1 : main_call1_v10.ty = ⟨S256x513x1, .i1⟩) (p2 : main_call1_v10.space ≠ .host) (p3 : main_call1_v10.isScoped = false) (v : (⟨S256x513x1, .i1⟩ : BufTy).Contents (Elt F)) :
    (TRef.of (sig := sig) (T := ⟨S256x513x1, .i1⟩) main_call1_v10 p1 p2 p3).ofBuf v = v := rfl
theorem toBuf_main_call1_v11 (p1 : main_call1_v11.ty = ⟨S256x513x1, .i1⟩) (p2 : main_call1_v11.space ≠ .host) (p3 : main_call1_v11.isScoped = false) (v : (⟨S256x513x1, .i1⟩ : BufTy).Contents (Elt F)) :
    (TRef.of (sig := sig) (T := ⟨S256x513x1, .i1⟩) main_call1_v11 p1 p2 p3).toBuf v = v := rfl
theorem ofBuf_main_call1_v11 (p1 : main_call1_v11.ty = ⟨S256x513x1, .i1⟩) (p2 : main_call1_v11.space ≠ .host) (p3 : main_call1_v11.isScoped = false) (v : (⟨S256x513x1, .i1⟩ : BufTy).Contents (Elt F)) :
    (TRef.of (sig := sig) (T := ⟨S256x513x1, .i1⟩) main_call1_v11 p1 p2 p3).ofBuf v = v := rfl
theorem toBuf_main_call1_c_3 (p1 : main_call1_c_3.ty = ⟨S_, .i1⟩) (p2 : main_call1_c_3.space ≠ .host) (p3 : main_call1_c_3.isScoped = false) (v : (⟨S_, .i1⟩ : BufTy).Contents (Elt F)) :
    (TRef.of (sig := sig) (T := ⟨S_, .i1⟩) main_call1_c_3 p1 p2 p3).toBuf v = v := rfl
theorem ofBuf_main_call1_c_3 (p1 : main_call1_c_3.ty = ⟨S_, .i1⟩) (p2 : main_call1_c_3.space ≠ .host) (p3 : main_call1_c_3.isScoped = false) (v : (⟨S_, .i1⟩ : BufTy).Contents (Elt F)) :
    (TRef.of (sig := sig) (T := ⟨S_, .i1⟩) main_call1_c_3 p1 p2 p3).ofBuf v = v := rfl
theorem toBuf_main_call1_v12 (p1 : main_call1_v12.ty = ⟨S256x513, .i1⟩) (p2 : main_call1_v12.space ≠ .host) (p3 : main_call1_v12.isScoped = false) (v : (⟨S256x513, .i1⟩ : BufTy).Contents (Elt F)) :
    (TRef.of (sig := sig) (T := ⟨S256x513, .i1⟩) main_call1_v12 p1 p2 p3).toBuf v = v := rfl
theorem ofBuf_main_call1_v12 (p1 : main_call1_v12.ty = ⟨S256x513, .i1⟩) (p2 : main_call1_v12.space ≠ .host) (p3 : main_call1_v12.isScoped = false) (v : (⟨S256x513, .i1⟩ : BufTy).Contents (Elt F)) :
    (TRef.of (sig := sig) (T := ⟨S256x513, .i1⟩) main_call1_v12 p1 p2 p3).ofBuf v = v := rfl
theorem toBuf_main_v20 (p1 : main_v20.ty = ⟨S32x16x256x768, .f32⟩) (p2 : main_v20.space ≠ .host) (p3 : main_v20.isScoped = false) (v : (⟨S32x16x256x768, .f32⟩ : BufTy).Contents (Elt F)) :
    (TRef.of (sig := sig) (T := ⟨S32x16x256x768, .f32⟩) main_v20 p1 p2 p3).toBuf v = v := rfl
theorem ofBuf_main_v20 (p1 : main_v20.ty = ⟨S32x16x256x768, .f32⟩) (p2 : main_v20.space ≠ .host) (p3 : main_v20.isScoped = false) (v : (⟨S32x16x256x768, .f32⟩ : BufTy).Contents (Elt F)) :
    (TRef.of (sig := sig) (T := ⟨S32x16x256x768, .f32⟩) main_v20 p1 p2 p3).ofBuf v = v := rfl
theorem toBuf_main_call1_v13 (p1 : main_call1_v13.ty = ⟨S32x16x256x513, .f32⟩) (p2 : main_call1_v13.space ≠ .host) (p3 : main_call1_v13.isScoped = false) (v : (⟨S32x16x256x513, .f32⟩ : BufTy).Contents (Elt F)) :
    (TRef.of (sig := sig) (T := ⟨S32x16x256x513, .f32⟩) main_call1_v13 p1 p2 p3).toBuf v = v := rfl
theorem ofBuf_main_call1_v13 (p1 : main_call1_v13.ty = ⟨S32x16x256x513, .f32⟩) (p2 : main_call1_v13.space ≠ .host) (p3 : main_call1_v13.isScoped = false) (v : (⟨S32x16x256x513, .f32⟩ : BufTy).Contents (Elt F)) :
    (TRef.of (sig := sig) (T := ⟨S32x16x256x513, .f32⟩) main_call1_v13 p1 p2 p3).ofBuf v = v := rfl
theorem toBuf_main_call1_v14 (p1 : main_call1_v14.ty = ⟨S32x16x256x513, .i1⟩) (p2 : main_call1_v14.space ≠ .host) (p3 : main_call1_v14.isScoped = false) (v : (⟨S32x16x256x513, .i1⟩ : BufTy).Contents (Elt F)) :
    (TRef.of (sig := sig) (T := ⟨S32x16x256x513, .i1⟩) main_call1_v14 p1 p2 p3).toBuf v = v := rfl
theorem ofBuf_main_call1_v14 (p1 : main_call1_v14.ty = ⟨S32x16x256x513, .i1⟩) (p2 : main_call1_v14.space ≠ .host) (p3 : main_call1_v14.isScoped = false) (v : (⟨S32x16x256x513, .i1⟩ : BufTy).Contents (Elt F)) :
    (TRef.of (sig := sig) (T := ⟨S32x16x256x513, .i1⟩) main_call1_v14 p1 p2 p3).ofBuf v = v := rfl
theorem toBuf_main_call1_cst (p1 : main_call1_cst.ty = ⟨S_, .f32⟩) (p2 : main_call1_cst.space ≠ .host) (p3 : main_call1_cst.isScoped = false) (v : (⟨S_, .f32⟩ : BufTy).Contents (Elt F)) :
    (TRef.of (sig := sig) (T := ⟨S_, .f32⟩) main_call1_cst p1 p2 p3).toBuf v = v := rfl
theorem ofBuf_main_call1_cst (p1 : main_call1_cst.ty = ⟨S_, .f32⟩) (p2 : main_call1_cst.space ≠ .host) (p3 : main_call1_cst.isScoped = false) (v : (⟨S_, .f32⟩ : BufTy).Contents (Elt F)) :
    (TRef.of (sig := sig) (T := ⟨S_, .f32⟩) main_call1_cst p1 p2 p3).ofBuf v = v := rfl
theorem toBuf_main_call1_v15 (p1 : main_call1_v15.ty = ⟨S32x16x256x513, .f32⟩) (p2 : main_call1_v15.space ≠ .host) (p3 : main_call1_v15.isScoped = false) (v : (⟨S32x16x256x513, .f32⟩ : BufTy).Contents (Elt F)) :
    (TRef.of (sig := sig) (T := ⟨S32x16x256x513, .f32⟩) main_call1_v15 p1 p2 p3).toBuf v = v := rfl
theorem ofBuf_main_call1_v15 (p1 : main_call1_v15.ty = ⟨S32x16x256x513, .f32⟩) (p2 : main_call1_v15.space ≠ .host) (p3 : main_call1_v15.isScoped = false) (v : (⟨S32x16x256x513, .f32⟩ : BufTy).Contents (Elt F)) :
    (TRef.of (sig := sig) (T := ⟨S32x16x256x513, .f32⟩) main_call1_v15 p1 p2 p3).ofBuf v = v := rfl
theorem toBuf_main_v29 (p1 : main_v29.ty = ⟨S32x16x256x513, .f32⟩) (p2 : main_v29.space ≠ .host) (p3 : main_v29.isScoped = false) (v : (⟨S32x16x256x513, .f32⟩ : BufTy).Contents (Elt F)) :
    (TRef.of (sig := sig) (T := ⟨S32x16x256x513, .f32⟩) main_v29 p1 p2 p3).toBuf v = v := rfl
theorem ofBuf_main_v29 (p1 : main_v29.ty = ⟨S32x16x256x513, .f32⟩) (p2 : main_v29.space ≠ .host) (p3 : main_v29.isScoped = false) (v : (⟨S32x16x256x513, .f32⟩ : BufTy).Contents (Elt F)) :
    (TRef.of (sig := sig) (T := ⟨S32x16x256x513, .f32⟩) main_v29 p1 p2 p3).ofBuf v = v := rfl
theorem toBuf_main_cst (p1 : main_cst.ty = ⟨S_, .f32⟩) (p2 : main_cst.space ≠ .host) (p3 : main_cst.isScoped = false) (v : (⟨S_, .f32⟩ : BufTy).Contents (Elt F)) :
    (TRef.of (sig := sig) (T := ⟨S_, .f32⟩) main_cst p1 p2 p3).toBuf v = v := rfl
theorem ofBuf_main_cst (p1 : main_cst.ty = ⟨S_, .f32⟩) (p2 : main_cst.space ≠ .host) (p3 : main_cst.isScoped = false) (v : (⟨S_, .f32⟩ : BufTy).Contents (Elt F)) :
    (TRef.of (sig := sig) (T := ⟨S_, .f32⟩) main_cst p1 p2 p3).ofBuf v = v := rfl
theorem toBuf_main_call2_v0 (p1 : main_call2_v0.ty = ⟨S_, .f32⟩) (p2 : main_call2_v0.space ≠ .host) (p3 : main_call2_v0.isScoped = false) (v : (⟨S_, .f32⟩ : BufTy).Contents (Elt F)) :
    (TRef.of (sig := sig) (T := ⟨S_, .f32⟩) main_call2_v0 p1 p2 p3).toBuf v = v := rfl
theorem ofBuf_main_call2_v0 (p1 : main_call2_v0.ty = ⟨S_, .f32⟩) (p2 : main_call2_v0.space ≠ .host) (p3 : main_call2_v0.isScoped = false) (v : (⟨S_, .f32⟩ : BufTy).Contents (Elt F)) :
    (TRef.of (sig := sig) (T := ⟨S_, .f32⟩) main_call2_v0 p1 p2 p3).ofBuf v = v := rfl
theorem toBuf_main_v45 (p1 : main_v45.ty = ⟨S1x4096x513, .i1⟩) (p2 : main_v45.space ≠ .host) (p3 : main_v45.isScoped = false) (v : (⟨S1x4096x513, .i1⟩ : BufTy).Contents (Elt F)) :
    (TRef.of (sig := sig) (T := ⟨S1x4096x513, .i1⟩) main_v45 p1 p2 p3).toBuf v = v := rfl
theorem ofBuf_main_v45 (p1 : main_v45.ty = ⟨S1x4096x513, .i1⟩) (p2 : main_v45.space ≠ .host) (p3 : main_v45.isScoped = false) (v : (⟨S1x4096x513, .i1⟩ : BufTy).Contents (Elt F)) :
    (TRef.of (sig := sig) (T := ⟨S1x4096x513, .i1⟩) main_v45 p1 p2 p3).ofBuf v = v := rfl
theorem toBuf_main_call2_v1 (p1 : main_call2_v1.ty = ⟨S32x4096x513, .i1⟩) (p2 : main_call2_v1.space ≠ .host) (p3 : main_call2_v1.isScoped = false) (v : (⟨S32x4096x513, .i1⟩ : BufTy).Contents (Elt F)) :
    (TRef.of (sig := sig) (T := ⟨S32x4096x513, .i1⟩) main_call2_v1 p1 p2 p3).toBuf v = v := rfl
theorem ofBuf_main_call2_v1 (p1 : main_call2_v1.ty = ⟨S32x4096x513, .i1⟩) (p2 : main_call2_v1.space ≠ .host) (p3 : main_call2_v1.isScoped = false) (v : (⟨S32x4096x513, .i1⟩ : BufTy).Contents (Elt F)) :
    (TRef.of (sig := sig) (T := ⟨S32x4096x513, .i1⟩) main_call2_v1 p1 p2 p3).ofBuf v = v := rfl
theorem toBuf_main_call2_v2 (p1 : main_call2_v2.ty = ⟨S32x4096x513, .f32⟩) (p2 : main_call2_v2.space ≠ .host) (p3 : main_call2_v2.isScoped = false) (v : (⟨S32x4096x513, .f32⟩ : BufTy).Contents (Elt F)) :
    (TRef.of (sig := sig) (T := ⟨S32x4096x513, .f32⟩) main_call2_v2 p1 p2 p3).toBuf v = v := rfl
theorem ofBuf_main_call2_v2 (p1 : main_call2_v2.ty = ⟨S32x4096x513, .f32⟩) (p2 : main_call2_v2.space ≠ .host) (p3 : main_call2_v2.isScoped = false) (v : (⟨S32x4096x513, .f32⟩ : BufTy).Contents (Elt F)) :
    (TRef.of (sig := sig) (T := ⟨S32x4096x513, .f32⟩) main_call2_v2 p1 p2 p3).ofBuf v = v := rfl
theorem toBuf_main_v30 (p1 : main_v30.ty = ⟨S32x4096x513, .f32⟩) (p2 : main_v30.space ≠ .host) (p3 : main_v30.isScoped = false) (v : (⟨S32x4096x513, .f32⟩ : BufTy).Contents (Elt F)) :
    (TRef.of (sig := sig) (T := ⟨S32x4096x513, .f32⟩) main_v30 p1 p2 p3).toBuf v = v := rfl
theorem ofBuf_main_v30 (p1 : main_v30.ty = ⟨S32x4096x513, .f32⟩) (p2 : main_v30.space ≠ .host) (p3 : main_v30.isScoped = false) (v : (⟨S32x4096x513, .f32⟩ : BufTy).Contents (Elt F)) :
    (TRef.of (sig := sig) (T := ⟨S32x4096x513, .f32⟩) main_v30 p1 p2 p3).ofBuf v = v := rfl
theorem toBuf_main_v46 (p1 : main_v46.ty = ⟨S32x4096x513, .f32⟩) (p2 : main_v46.space ≠ .host) (p3 : main_v46.isScoped = false) (v : (⟨S32x4096x513, .f32⟩ : BufTy).Contents (Elt F)) :
    (TRef.of (sig := sig) (T := ⟨S32x4096x513, .f32⟩) main_v46 p1 p2 p3).toBuf v = v := rfl
theorem ofBuf_main_v46 (p1 : main_v46.ty = ⟨S32x4096x513, .f32⟩) (p2 : main_v46.space ≠ .host) (p3 : main_v46.isScoped = false) (v : (⟨S32x4096x513, .f32⟩ : BufTy).Contents (Elt F)) :
    (TRef.of (sig := sig) (T := ⟨S32x4096x513, .f32⟩) main_v46 p1 p2 p3).ofBuf v = v := rfl

/-! ## The nine stretches -/

set_option maxRecDepth 8192 in
set_option maxHeartbeats 8000000 in
/-- The scores stretch (operations 0 to 25): the planes, the padded planes, the table of key rows, the gathered key rows and the chunk scores. -/
theorem s1_main_v20 (V : Valuation τ sig (Elt F))   :
    after (((ops (F := F)).drop 0).take 26) V (Proc.devRef .tc main_v20) = val_main_v20 (F := F) (V (Proc.devRef .tc main_arg0)) := by
  simp only [ops, List.drop_succ_cons, List.drop_zero, List.take_succ_cons, List.take_zero]
  after_results_simp
  rfl

set_option maxRecDepth 8192 in
set_option maxHeartbeats 8000000 in
/-- Operations 26 to 33: the table of columns x + c. -/
theorem s2_main_v28 (V : Valuation τ sig (Elt F))   :
    after (((ops (F := F)).drop 26).take 8) V (Proc.devRef .tc main_v28) = val_main_v28 (F := F) := by
  simp only [ops, List.drop_succ_cons, List.drop_zero, List.take_succ_cons, List.take_zero]
  after_results_simp
  rfl

set_option maxRecDepth 8192 in
set_option maxHeartbeats 8000000 in
/-- That stretch does not write `main_v20`. -/
theorem s2_keeps_main_v20 (V : Valuation τ sig (Elt F)) :
    after (((ops (F := F)).drop 26).take 8) V (Proc.devRef .tc main_v20) = V (Proc.devRef .tc main_v20) := by
  simp only [ops, List.drop_succ_cons, List.drop_zero, List.take_succ_cons, List.take_zero]
  after_results_simp

set_option maxRecDepth 8192 in
set_option maxHeartbeats 8000000 in
/-- Operations 34 to 41: the table with negative entries wrapped (there are none), as a column of indices. -/
theorem s3_main_call1_v5 (V : Valuation τ sig (Elt F))  (h_main_v28 : V (Proc.devRef .tc main_v28) = val_main_v28 (F := F)) :
    after (((ops (F := F)).drop 34).take 8) V (Proc.devRef .tc main_call1_v5) = val_main_call1_v5 (F := F) := by
  simp only [ops, List.drop_succ_cons, List.drop_zero, List.take_succ_cons, List.take_zero]
  after_results_simp
  rw [h_main_v28]
  simp only [toBuf_main_call1_c, toBuf_main_call1_v0, ofBuf_main_call1_c, toBuf_main_call1_v1, ofBuf_main_v28, ofBuf_main_call1_v0, toBuf_main_call1_c_0, toBuf_main_call1_v2, ofBuf_main_call1_c_0, toBuf_main_call1_v3, ofBuf_main_call1_v2, toBuf_main_call1_v4, ofBuf_main_call1_v1, ofBuf_main_call1_v3, toBuf_main_call1_v5, ofBuf_main_call1_v4]
  rfl

set_option maxRecDepth 8192 in
set_option maxHeartbeats 8000000 in
/-- That stretch does not write `main_v20`. -/
theorem s3_keeps_main_v20 (V : Valuation τ sig (Elt F)) :
    after (((ops (F := F)).drop 34).take 8) V (Proc.devRef .tc main_v20) = V (Proc.devRef .tc main_v20) := by
  simp only [ops, List.drop_succ_cons, List.drop_zero, List.take_succ_cons, List.take_zero]
  after_results_simp

set_option maxRecDepth 8192 in
set_option maxHeartbeats 8000000 in
/-- Operations 42 to 51: the in-range bit of every index. -/
theorem s4_main_call1_v12 (V : Valuation τ sig (Elt F))  (h_main_call1_v5 : V (Proc.devRef .tc main_call1_v5) = val_main_call1_v5 (F := F)) :
    after (((ops (F := F)).drop 42).take 10) V (Proc.devRef .tc main_call1_v12) = val_main_call1_v12 (F := F) := by
  simp only [ops, List.drop_succ_cons, List.drop_zero, List.take_succ_cons, List.take_zero]
  after_results_simp
  rw [h_main_call1_v5]
  simp only [toBuf_main_call1_c_1, toBuf_main_call1_c_2, toBuf_main_call1_v6, ofBuf_main_call1_c_2, toBuf_main_call1_v7, ofBuf_main_call1_v5, ofBuf_main_call1_v6, toBuf_main_call1_v8, ofBuf_main_call1_c_1, toBuf_main_call1_v9, ofBuf_main_call1_v8, toBuf_main_call1_v10, ofBuf_main_call1_v9, toBuf_main_call1_v11, ofBuf_main_call1_v7, ofBuf_main_call1_v10, toBuf_main_call1_c_3, toBuf_main_call1_v12, ofBuf_main_call1_v11, ofBuf_main_call1_c_3]
  rfl

set_option maxRecDepth 8192 in
set_option maxHeartbeats 8000000 in
/-- That stretch does not write `main_v20`. -/
theorem s4_keeps_main_v20 (V : Valuation τ sig (Elt F)) :
    after (((ops (F := F)).drop 42).take 10) V (Proc.devRef .tc main_v20) = V (Proc.devRef .tc main_v20) := by
  simp only [ops, List.drop_succ_cons, List.drop_zero, List.take_succ_cons, List.take_zero]
  after_results_simp

set_option maxRecDepth 8192 in
set_option maxHeartbeats 8000000 in
/-- That stretch does not write `main_call1_v5`. -/
theorem s4_keeps_main_call1_v5 (V : Valuation τ sig (Elt F)) :
    after (((ops (F := F)).drop 42).take 10) V (Proc.devRef .tc main_call1_v5) = V (Proc.devRef .tc main_call1_v5) := by
  simp only [ops, List.drop_succ_cons, List.drop_zero, List.take_succ_cons, List.take_zero]
  after_results_simp

set_option maxRecDepth 8192 in
set_option maxHeartbeats 8000000 in
/-- Operations 52 to 57: the gather by those indices, the fill where out of range, the band. -/
theorem s5_main_v30 (V : Valuation τ sig (Elt F)) (x0 : (⟨S2x16x4096x64, .f32⟩ : BufTy).Contents (Elt F)) (h_main_v20 : V (Proc.devRef .tc main_v20) = val_main_v20 (F := F) x0) (h_main_call1_v5 : V (Proc.devRef .tc main_call1_v5) = val_main_call1_v5 (F := F)) (h_main_call1_v12 : V (Proc.devRef .tc main_call1_v12) = val_main_call1_v12 (F := F)) :
    after (((ops (F := F)).drop 52).take 6) V (Proc.devRef .tc main_v30) = val_main_v30 (F := F) x0 := by
  simp only [ops, List.drop_succ_cons, List.drop_zero, List.take_succ_cons, List.take_zero]
  after_results_simp
  rw [h_main_v20, h_main_call1_v5, h_main_call1_v12]
  simp only [toBuf_main_call1_v13, ofBuf_main_v20, ofBuf_main_call1_v5, toBuf_main_call1_v14, ofBuf_main_call1_v12, toBuf_main_call1_cst, toBuf_main_call1_v15, ofBuf_main_call1_cst, toBuf_main_v29, ofBuf_main_call1_v14, ofBuf_main_call1_v13, ofBuf_main_call1_v15]
  rfl

set_option maxRecDepth 8192 in
set_option maxHeartbeats 8000000 in
/-- Operations 58 to 76: the window mask and the constant −∞. -/
theorem s6_main_v45 (V : Valuation τ sig (Elt F))   :
    after (((ops (F := F)).drop 58).take 19) V (Proc.devRef .tc main_v45) = val_main_v45 (F := F) := by
  simp only [ops, List.drop_succ_cons, List.drop_zero, List.take_succ_cons, List.take_zero]
  after_results_simp
  rfl

set_option maxRecDepth 8192 in
set_option maxHeartbeats 8000000 in
/-- Operations 58 to 76: the window mask and the constant −∞. -/
theorem s6_main_cst (V : Valuation τ sig (Elt F))   :
    after (((ops (F := F)).drop 58).take 19) V (Proc.devRef .tc main_cst) = val_main_cst (F := F) := by
  simp only [ops, List.drop_succ_cons, List.drop_zero, List.take_succ_cons, List.take_zero]
  after_results_simp
  rfl

set_option maxRecDepth 8192 in
set_option maxHeartbeats 8000000 in
/-- That stretch does not write `main_v30`. -/
theorem s6_keeps_main_v30 (V : Valuation τ sig (Elt F)) :
    after (((ops (F := F)).drop 58).take 19) V (Proc.devRef .tc main_v30) = V (Proc.devRef .tc main_v30) := by
  simp only [ops, List.drop_succ_cons, List.drop_zero, List.take_succ_cons, List.take_zero]
  after_results_simp

set_option maxRecDepth 8192 in
set_option maxHeartbeats 8000000 in
/-- Operations 77 to 80: the band kept inside the window, −∞ outside. -/
theorem s7_main_v46 (V : Valuation τ sig (Elt F)) (x0 : (⟨S2x16x4096x64, .f32⟩ : BufTy).Contents (Elt F)) (h_main_v45 : V (Proc.devRef .tc main_v45) = val_main_v45 (F := F)) (h_main_cst : V (Proc.devRef .tc main_cst) = val_main_cst (F := F)) (h_main_v30 : V (Proc.devRef .tc main_v30) = val_main_v30 (F := F) x0) :
    after (((ops (F := F)).drop 77).take 4) V (Proc.devRef .tc main_v46) = val_main_v46 (F := F) x0 := by
  simp only [ops, List.drop_succ_cons, List.drop_zero, List.take_succ_cons, List.take_zero]
  after_results
  rw [h_main_v45, h_main_cst, h_main_v30]
  rw [toBuf_main_call2_v0, ofBuf_main_cst, toBuf_main_call2_v1, ofBuf_main_v45, toBuf_main_call2_v2, ofBuf_main_call2_v0, toBuf_main_v46, ofBuf_main_call2_v1, ofBuf_main_v30, ofBuf_main_call2_v2]
  all_goals first | rfl | decide

set_option maxRecDepth 8192 in
set_option maxHeartbeats 8000000 in
/-- Operations 81 to 82: the planes as (batch, head), the head axis moved behind the rows. -/
theorem s8_main_v48 (V : Valuation τ sig (Elt F)) (x0 : (⟨S2x16x4096x64, .f32⟩ : BufTy).Contents (Elt F)) (h_main_v46 : V (Proc.devRef .tc main_v46) = val_main_v46 (F := F) x0) :
    after (((ops (F := F)).drop 81).take 2) V (Proc.devRef .tc main_v48) = val_main_v48 (F := F) x0 := by
  simp only [ops, List.drop_succ_cons, List.drop_zero, List.take_succ_cons, List.take_zero]
  after_results_simp
  rw [h_main_v46]
  rfl

set_option maxRecDepth 8192 in
set_option maxHeartbeats 8000000 in
/-- The softmax stretch (operations 83 to 96). -/
theorem s9_main_v59 (V : Valuation τ sig (Elt F)) (x0 : (⟨S2x16x4096x64, .f32⟩ : BufTy).Contents (Elt F)) (h_main_v48 : V (Proc.devRef .tc main_v48) = val_main_v48 (F := F) x0) :
    after (((ops (F := F)).drop 83).take 14) V (Proc.devRef .tc main_v59) = val_main_v59 (F := F) x0 := by
  simp only [ops, List.drop_succ_cons, List.drop_zero, List.take_succ_cons, List.take_zero]
  after_results_simp
  rw [h_main_v48]
  rfl

/-! ## The run -/

/-- The 97 operations are the nine stretches one after the other. -/
theorem ops_split : (ops (F := F)) = (((ops (F := F)).drop 0).take 26) ++ (((ops (F := F)).drop 26).take 8) ++ (((ops (F := F)).drop 34).take 8) ++ (((ops (F := F)).drop 42).take 10) ++ (((ops (F := F)).drop 52).take 6) ++ (((ops (F := F)).drop 58).take 19) ++ (((ops (F := F)).drop 77).take 4) ++ (((ops (F := F)).drop 81).take 2) ++ (((ops (F := F)).drop 83).take 14) := rfl

/-- AFTER ALL 97 OPERATIONS the result buffer holds the last stage of the argument. -/
theorem result_eq (V : Valuation τ sig (Elt F)) :
    after (ops (F := F)) V (Proc.devRef .tc main_v59) = val_main_v59 (F := F) (V (Proc.devRef .tc main_arg0)) := by
  rw [ops_split (F := F)]
  simp only [List.append_assoc]
  rw [StableHlo.after_append, StableHlo.after_append, StableHlo.after_append, StableHlo.after_append,
    StableHlo.after_append, StableHlo.after_append, StableHlo.after_append, StableHlo.after_append]
  generalize hx0 : V (Proc.devRef .tc main_arg0) = x0
  have h1 := s1_main_v20 V
  rw [hx0] at h1
  generalize after (((ops (F := F)).drop 0).take 26) V = W1 at h1 ⊢
  have h2 := s2_main_v28 W1
  have k2 := (s2_keeps_main_v20 W1).trans h1
  generalize after (((ops (F := F)).drop 26).take 8) W1 = W2 at h2 k2 ⊢
  have h3 := s3_main_call1_v5 W2 h2
  have k3 := (s3_keeps_main_v20 W2).trans k2
  generalize after (((ops (F := F)).drop 34).take 8) W2 = W3 at h3 k3 ⊢
  have h4 := s4_main_call1_v12 W3 h3
  have k4 := (s4_keeps_main_v20 W3).trans k3
  have k4' := (s4_keeps_main_call1_v5 W3).trans h3
  generalize after (((ops (F := F)).drop 42).take 10) W3 = W4 at h4 k4 k4' ⊢
  have h5 := s5_main_v30 W4 x0 k4 k4' h4
  generalize after (((ops (F := F)).drop 52).take 6) W4 = W5 at h5 ⊢
  have h6 := s6_main_v45 W5
  have h6' := s6_main_cst W5
  have k6 := (s6_keeps_main_v30 W5).trans h5
  generalize after (((ops (F := F)).drop 58).take 19) W5 = W6 at h6 h6' k6 ⊢
  have h7 := s7_main_v46 W6 x0 h6 h6' k6
  generalize after (((ops (F := F)).drop 77).take 4) W6 = W7 at h7 ⊢
  have h8 := s8_main_v48 W7 x0 h7
  generalize after (((ops (F := F)).drop 81).take 2) W7 = W8 at h8 ⊢
  exact s9_main_v59 W8 x0 h8

/-- THE REFERENCE'S RUN: every weakly fair execution terminates with the result buffer at the last stage of the
    argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v59).trans (result_eq (launchContents m c)),
      (h c main_arg0).trans (by after_results_simp <;> rfl)⟩)
    (run_seq scopedRefs_eq scopedSems_eq defs main (fun _ => ops) main_eq (fun _ => ops_sub) m ρ)

end Cert.ReferenceIdeal.RunHand

end
-- ==== Proof.lean ====
/-
  Sliding-window attention: the Pallas kernel against its jnp reference, equal over the extended reals.

  Both programs first lay the input out as 32 planes of 4096 rows of 64 numbers and pad each plane with 256
  rows of zeros in front and behind (the same host operations on both sides).  The kernel's grid point (b, ii)
  then computes, for each of its 16 heads, the 256 × 768 table of dot products of its 256 query rows with the
  768 padded key rows around them, turns row x of the table to the left by x places with an eight-round binary
  shifter so that column c holds the score against key row x + c, keeps the first 513 columns, masks the key
  rows that lie in the padding to −∞ (the named constant) and takes each row's softmax; the reference gathers the
  same 768 key rows per chunk, takes the same dot products, reads the band by `take_along_axis`, masks with −∞
  and takes `jax.nn.softmax`.  Entry by entry both are the softmax over the 513 offsets of the banded scores
  (Proof/Spec.lean): the two sums over the 64 coordinates are the same sum, and the softmax is the same formula on
  both sides, so no law of the extended reals beyond that is used and the precondition is never opened.
-/
import proofs.«419505_j10230612099674_4_alg».proof.Defs
import proofs.«419505_j10230612099674_4_alg».proof.Proof.Gen.Kernel
import proofs.«419505_j10230612099674_4_alg».proof.Proof.Gen.Kernel.Frame
import proofs.«419505_j10230612099674_4_alg».proof.Proof.Gen.KernelIdeal
import proofs.«419505_j10230612099674_4_alg».proof.Proof.Gen.KernelIdeal.Frame
import proofs.«419505_j10230612099674_4_alg».proof.Proof.Gen.KernelIdeal.Value
import proofs.«419505_j10230612099674_4_alg».proof.Proof.Gen.ReferenceIdeal
import proofs.«419505_j10230612099674_4_alg».proof.Proof.Gen.Pre_finite_inputs
import proofs.«419505_j10230612099674_4_alg».proof.Proof.KernelValue
import proofs.«419505_j10230612099674_4_alg».proof.Proof.RefValue
import proofs.«419505_j10230612099674_4_alg».proof.Proof.RefRunHand
import Idealize.ShloMosaic.Adequacy
import Idealize.ShloMosaic.Init

noncomputable section

namespace Cert.Proof

open Idealize.ShloMosaic Idealize.ShloMosaic.TcCoe Idealize.SL.Sem

/-- The kernel runs and leaves its argument alone (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument alone: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The sixteen ledger entries are one statement: the table gives "neg_big" the value −∞. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big, neg_big, neg_big, neg_big, neg_big, neg_big, neg_big, neg_big⟩

/-- Both runs end with the attention probabilities of the same planes and padded planes. -/
theorem algebraic : Cert.algebraic_KernelIdeal_ReferenceIdeal := by
  intro m ρ m' ρ' _ hagree
  refine ⟨fun c => Cert.Spec.probs (Cert.KernelIdeal.KValue.planes m c) (Cert.KernelIdeal.KValue.padded m c),
    Cert.KernelIdeal.KValue.run m ρ, ?_⟩
  refine (θ_run Cert.ReferenceIdeal.defs _ _).mono (fun _ h c => ⟨(h c).1.trans ?_, (h c).2⟩)
    (Cert.ReferenceIdeal.RunHand.run (F := Ideal) m' ρ')
  rw [Cert.ReferenceIdeal.RefValue.ref_probs, hagree c]
  show Cert.Spec.probs _ _ = Cert.Spec.probs (Cert.KernelIdeal.Gen.V m c Cert.KernelIdeal.main_v1) (Cert.KernelIdeal.Gen.V m c Cert.KernelIdeal.main_v2)
  rw [Cert.KernelIdeal.KValue.V_main_v1, Cert.KernelIdeal.KValue.V_main_v2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
